-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x12288 : Shape := ⟨2, ![512, 12288]⟩
abbrev S32x1536 : Shape := ⟨2, ![32, 1536]⟩
abbrev S32x12288 : Shape := ⟨2, ![32, 12288]⟩
abbrev S1536x4096 : Shape := ⟨2, ![1536, 4096]⟩
abbrev S96x512 : Shape := ⟨2, ![96, 512]⟩
abbrev S96x4096 : Shape := ⟨2, ![96, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_
  bcast_S_S96x4096 : S_.BroadcastsInDim S96x4096 (![] : Fin 0 → Fin S96x4096.rank)
  reducesTo_S96x4096_S_d0_1 : S96x4096.ReducesTo [0, 1] S_

variable [Facts]

def fn_part1 {F : FTy → Type} [FloatOps F] (main_v13 : IVec S_ 1) (main_v16 : IVec S96x4096 1) : IVec S_ 1 :=
  let main_c_5 : IVec S_ 1 := constantI S_ 1 1#1
  let main_v17 : IVec S_ 1 := (fun x v => Host.reduce IntOp.andi x v reducesTo_S96x4096_S_d0_1 h_S_) main_v16 main_c_5
  let main_v18 : IVec S_ 1 := andi main_v13 main_v17
  main_v18

def fn {F : FTy → Type} [FloatOps F] (main_arg0 : FVec F S8192x4096 .f32) (main_arg1 : IVec S512x12288 32) (main_arg2 : IVec S32x1536 32) (main_arg3 : FVec F S32x12288 .f32) (main_arg4 : IVec S512x12288 32) (main_arg5 : IVec S32x1536 32) (main_arg6 : FVec F S32x12288 .f32) (main_arg7 : IVec S1536x4096 32) (main_arg8 : IVec S96x512 32) (main_arg9 : FVec F S96x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x12288 .f32 := Host.absf main_arg3
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  let main_v9 : FVec F S32x12288 .f32 := Host.absf main_arg6
  let main_cst_2 : FVec F S_ .f32 := constant S_ .f32 0x7F800000#32
  let main_v10 : FVec F S32x12288 .f32 := broadcastInDim S32x12288 ![] bcast_S_S32x12288 main_cst_2
  let main_v11 : IVec S32x12288 1 := cmpf .olt main_v9 main_v10
  let main_c_3 : IVec S_ 1 := constantI S_ 1 1#1
  let main_v12 : IVec S_ 1 := (fun x v => Host.reduce IntOp.andi x v reducesTo_S32x12288_S_d0_1 h_S_) main_v11 main_c_3
  let main_v13 : IVec S_ 1 := andi main_v8 main_v12
  let main_v14 : FVec F S96x4096 .f32 := Host.absf main_arg9
  let main_cst_4 : FVec F S_ .f32 := constant S_ .f32 0x7F800000#32
  let main_v15 : FVec F S96x4096 .f32 := broadcastInDim S96x4096 ![] bcast_S_S96x4096 main_cst_4
  let main_v16 : IVec S96x4096 1 := cmpf .olt main_v14 main_v15
  fn_part1 (F := F) main_v13 main_v16
-- ==== Kernel.lean ====
abbrev S8192x4096 : Shape := ⟨2, ![8192, 4096]⟩
abbrev S512x12288 : Shape := ⟨2, ![512, 12288]⟩
abbrev S32x1536 : Shape := ⟨2, ![32, 1536]⟩
abbrev S32x12288 : Shape := ⟨2, ![32, 12288]⟩
abbrev S1536x4096 : Shape := ⟨2, ![1536, 4096]⟩
abbrev S96x512 : Shape := ⟨2, ![96, 512]⟩
abbrev S96x4096 : Shape := ⟨2, ![96, 4096]⟩
abbrev S8 : Shape := ⟨1, ![8]⟩
abbrev S_ : Shape := ⟨0, ![]⟩
abbrev S32x1536x1 : Shape := ⟨3, ![32, 1536, 1]⟩
abbrev S1x1x8 : Shape := ⟨3, ![1, 1, 8]⟩
abbrev S32x1536x8 : Shape := ⟨3, ![32, 1536, 8]⟩
abbrev S96x512x1 : Shape := ⟨3, ![96, 512, 1]⟩
abbrev S96x512x8 : Shape := ⟨3, ![96, 512, 8]⟩
abbrev S8192x12288 : Shape := ⟨2, ![8192, 12288]⟩
abbrev S2048x1024 : Shape := ⟨2, ![2048, 1024]⟩
abbrev S128x1024 : Shape := ⟨2, ![128, 1024]⟩
abbrev S8x1024 : Shape := ⟨2, ![8, 1024]⟩
abbrev S16x1024 : Shape := ⟨2, ![16, 1024]⟩
abbrev S16x1x1024 : Shape := ⟨3, ![16, 1, 1024]⟩
abbrev S16x8x1024 : Shape := ⟨3, ![16, 8, 1024]⟩
abbrev S1x1024 : Shape := ⟨2, ![1, 1024]⟩
abbrev S1024x1024 : Shape := ⟨2, ![1024, 1024]⟩

abbrev nBuf : Space → Nat
  | .hbm => 61
  | .vmem => 29
  | .smem => 0
  | _ => 0

abbrev bufTy : (tb : Table) → Fin (tcTables nBuf tb) → BufTy
  | .hbm, ⟨0, _⟩ => ⟨S8192x4096, .f32⟩
  | .hbm, ⟨1, _⟩ => ⟨S512x12288, .i32⟩
  | .hbm, ⟨2, _⟩ => ⟨S32x1536, .i32⟩
  | .hbm, ⟨3, _⟩ => ⟨S32x12288, .f32⟩
  | .hbm, ⟨4, _⟩ => ⟨S512x12288, .i32⟩
  | .hbm, ⟨5, _⟩ => ⟨S32x1536, .i32⟩
  | .hbm, ⟨6, _⟩ => ⟨S32x12288, .f32⟩
  | .hbm, ⟨7, _⟩ => ⟨S1536x4096, .i32⟩
  | .hbm, ⟨8, _⟩ => ⟨S96x512, .i32⟩
  | .hbm, ⟨9, _⟩ => ⟨S96x4096, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S32x1536x1, .i32⟩
  | .hbm, ⟨15, _⟩ => ⟨S1x1x8, .i32⟩
  | .hbm, ⟨16, _⟩ => ⟨S32x1536x8, .i32⟩
  | .hbm, ⟨17, _⟩ => ⟨S32x1536x8, .i32⟩
  | .hbm, ⟨18, _⟩ => ⟨S32x1536x8, .i32⟩
  | .hbm, ⟨19, _⟩ => ⟨S_, .i32⟩
  | .hbm, ⟨20, _⟩ => ⟨S32x1536x8, .i32⟩
  | .hbm, ⟨21, _⟩ => ⟨S32x1536x8, .i32⟩
  | .hbm, ⟨22, _⟩ => ⟨S32x1536x8, .f32⟩
  | .hbm, ⟨23, _⟩ => ⟨S32x12288, .f32⟩
  | .hbm, ⟨24, _⟩ => ⟨S32x12288, .f32⟩
  | .hbm, ⟨25, _⟩ => ⟨S32x12288, .f32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S32x1536x1, .i32⟩
  | .hbm, ⟨31, _⟩ => ⟨S1x1x8, .i32⟩
  | .hbm, ⟨32, _⟩ => ⟨S32x1536x8, .i32⟩
  | .hbm, ⟨33, _⟩ => ⟨S32x1536x8, .i32⟩
  | .hbm, ⟨34, _⟩ => ⟨S32x1536x8, .i32⟩
  | .hbm, ⟨35, _⟩ => ⟨S_, .i32⟩
  | .hbm, ⟨36, _⟩ => ⟨S32x1536x8, .i32⟩
  | .hbm, ⟨37, _⟩ => ⟨S32x1536x8, .i32⟩
  | .hbm, ⟨38, _⟩ => ⟨S32x1536x8, .f32⟩
  | .hbm, ⟨39, _⟩ => ⟨S32x12288, .f32⟩
  | .hbm, ⟨40, _⟩ => ⟨S32x12288, .f32⟩
  | .hbm, ⟨41, _⟩ => ⟨S32x12288, .f32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S96x512x1, .i32⟩
  | .hbm, ⟨47, _⟩ => ⟨S1x1x8, .i32⟩
  | .hbm, ⟨48, _⟩ => ⟨S96x512x8, .i32⟩
  | .hbm, ⟨49, _⟩ => ⟨S96x512x8, .i32⟩
  | .hbm, ⟨50, _⟩ => ⟨S96x512x8, .i32⟩
  | .hbm, ⟨51, _⟩ => ⟨S_, .i32⟩
  | .hbm, ⟨52, _⟩ => ⟨S96x512x8, .i32⟩
  | .hbm, ⟨53, _⟩ => ⟨S96x512x8, .i32⟩
  | .hbm, ⟨54, _⟩ => ⟨S96x512x8, .f32⟩
  | .hbm, ⟨55, _⟩ => ⟨S96x4096, .f32⟩
  | .hbm, ⟨56, _⟩ => ⟨S96x4096, .f32⟩
  | .hbm, ⟨57, _⟩ => ⟨S96x4096, .f32⟩
  | .hbm, ⟨58, _⟩ => ⟨S8192x4096, .bf16⟩
  | .hbm, ⟨59, _⟩ => ⟨S8192x12288, .bf16⟩
  | .hbm, ⟨60, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S128x1024, .i32⟩
  | .local _ .vmem, ⟨9, _⟩ => ⟨S128x1024, .i32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S2048x1024, .bf16⟩
  | .local _ .vmem, ⟨15, _⟩ => ⟨S2048x1024, .bf16⟩
  | .local _ .vmem, ⟨16, _⟩ => ⟨S2048x1024, .f32⟩
  | .local _ .vmem, ⟨17, _⟩ => ⟨S2048x1024, .f32⟩
  | .local _ .vmem, ⟨18, _⟩ => ⟨S2048x1024, .bf16⟩
  | .local _ .vmem, ⟨19, _⟩ => ⟨S2048x1024, .bf16⟩
  | .local _ .vmem, ⟨20, _⟩ => ⟨S128x1024, .i32⟩
  | .local _ .vmem, ⟨21, _⟩ => ⟨S128x1024, .i32⟩
  | .local _ .vmem, ⟨22, _⟩ => ⟨S8x1024, .f32⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨3, ![12, 4, 4], ![false, false, false]⟩

def k0_cond2 (i : grid0.Coords) : BitVec 1 :=
  let arg2 : BitVec 32 := BitVec.ofNat 32 (i 2).val
  let c3_i32 : BitVec 32 := 3#32
  let v831 : BitVec 1 := Scalar.cmpi .eq arg2 c3_i32
  let v832 : BitVec 32 := Scalar.extui v831
  let c0_i32_271 : BitVec 32 := 0#32
  let v833 : BitVec 1 := Scalar.cmpi .ne v832 c0_i32_271
  v833

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 4, 12], ![false, false, false]⟩

def k1_cond2 (i : grid1.Coords) : BitVec 1 :=
  let arg2 : BitVec 32 := BitVec.ofNat 32 (i 2).val
  let c11_i32 : BitVec 32 := 11#32
  let v418 : BitVec 1 := Scalar.cmpi .eq arg2 c11_i32
  let v419 : BitVec 32 := Scalar.extui v418
  let c0_i32_132 : BitVec 32 := 0#32
  let v420 : BitVec 1 := Scalar.cmpi .ne v419 c0_i32_132
  v420

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S128x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bcast_S_S8 : S_.BroadcastsInDim S8 (![] : Fin 0 → Fin S8.rank)
  bcast_S32x1536_S32x1536x1_0_1 : S32x1536.BroadcastsInDim S32x1536x1 (![0, 1] : Fin 2 → Fin S32x1536x1.rank)
  bcast_S8_S1x1x8_2 : S8.BroadcastsInDim S1x1x8 (![2] : Fin 1 → Fin S1x1x8.rank)
  bcast_S32x1536x1_S32x1536x8_0_1_2 : S32x1536x1.BroadcastsInDim S32x1536x8 (![0, 1, 2] : Fin 3 → Fin S32x1536x8.rank)
  bcast_S1x1x8_S32x1536x8_0_1_2 : S1x1x8.BroadcastsInDim S32x1536x8 (![0, 1, 2] : Fin 3 → Fin S32x1536x8.rank)
  bcast_S_S32x1536x8 : S_.BroadcastsInDim S32x1536x8 (![] : Fin 0 → Fin S32x1536x8.rank)
  shapeCasts_S32x1536x8_S32x12288 : S32x1536x8.ShapeCasts S32x12288
  bcast_S96x512_S96x512x1_0_1 : S96x512.BroadcastsInDim S96x512x1 (![0, 1] : Fin 2 → Fin S96x512x1.rank)
  bcast_S96x512x1_S96x512x8_0_1_2 : S96x512x1.BroadcastsInDim S96x512x8 (![0, 1, 2] : Fin 3 → Fin S96x512x8.rank)
  bcast_S1x1x8_S96x512x8_0_1_2 : S1x1x8.BroadcastsInDim S96x512x8 (![0, 1, 2] : Fin 3 → Fin S96x512x8.rank)
  bcast_S_S96x512x8 : S_.BroadcastsInDim S96x512x8 (![] : Fin 0 → Fin S96x512x8.rank)
  shapeCasts_S96x512x8_S96x4096 : S96x512x8.ShapeCasts S96x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S128x1024_S128x1024_0_0 : ∀ a, (![0, 0] : Fin 2 → Nat) a + S128x1024.size a ≤ S128x1024.size a
  h_S128x1024 : 0 < S128x1024.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S128x1024_o0_0_S16x1024 : S128x1024.Slices ![0, 0] S16x1024
  shapeCasts_S16x1024_S16x1x1024 : S16x1024.ShapeCasts S16x1x1024
  concatenates_S16x1x1024_S16x1x1024_S16x1x1024_S16x1x1024_S16x1x1024_S16x1x1024_S16x1x1024_S16x1x1024_S16x8x1024_d1 : Shape.Concatenates [S16x1x1024, S16x1x1024, S16x1x1024, S16x1x1024, S16x1x1024, S16x1x1024, S16x1x1024, S16x1x1024] S16x8x1024 1
  shapeCasts_S16x8x1024_S128x1024 : S16x8x1024.ShapeCasts S128x1024
  slices_S8x1024_o0_0_S1x1024 : S8x1024.Slices ![0, 0] S1x1024
  broadcasts_S1x1024_S128x1024 : S1x1024.Broadcasts S128x1024
  slices_S128x1024_o16_0_S16x1024 : S128x1024.Slices ![16, 0] S16x1024
  slices_S8x1024_o1_0_S1x1024 : S8x1024.Slices ![1, 0] S1x1024
  slices_S128x1024_o32_0_S16x1024 : S128x1024.Slices ![32, 0] S16x1024
  slices_S8x1024_o2_0_S1x1024 : S8x1024.Slices ![2, 0] S1x1024
  slices_S128x1024_o48_0_S16x1024 : S128x1024.Slices ![48, 0] S16x1024
  slices_S8x1024_o3_0_S1x1024 : S8x1024.Slices ![3, 0] S1x1024
  slices_S128x1024_o64_0_S16x1024 : S128x1024.Slices ![64, 0] S16x1024
  slices_S8x1024_o4_0_S1x1024 : S8x1024.Slices ![4, 0] S1x1024
  slices_S128x1024_o80_0_S16x1024 : S128x1024.Slices ![80, 0] S16x1024
  slices_S8x1024_o5_0_S1x1024 : S8x1024.Slices ![5, 0] S1x1024
  slices_S128x1024_o96_0_S16x1024 : S128x1024.Slices ![96, 0] S16x1024
  slices_S8x1024_o6_0_S1x1024 : S8x1024.Slices ![6, 0] S1x1024
  slices_S128x1024_o112_0_S16x1024 : S128x1024.Slices ![112, 0] S16x1024
  slices_S8x1024_o7_0_S1x1024 : S8x1024.Slices ![7, 0] S1x1024
  concatenates_S128x1024_S128x1024_S128x1024_S128x1024_S128x1024_S128x1024_S128x1024_S128x1024_S1024x1024_d0 : Shape.Concatenates [S128x1024, S128x1024, S128x1024, S128x1024, S128x1024, S128x1024, S128x1024, S128x1024] S1024x1024 0
  packedbf16_S2048x1024_S2048x1024_0_0 : (Rect.unit (s := S2048x1024) ![0, 0] S2048x1024.size inb_S2048x1024_S2048x1024_0_0).PackedRows (EltTy.packing .bf16)
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x12288.size a
  hwx0_1 : ∀ i : grid0.Coords, EltTy.bits .i32 = 32 ∨ (Rect.block (s := S512x12288) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x12288.size a
  hwx0_2 : ∀ i : grid0.Coords, EltTy.bits .f32 = 32 ∨ (Rect.block (s := S32x12288) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x12288.size a
  hwx0_3 : ∀ i : grid0.Coords, EltTy.bits .f32 = 32 ∨ (Rect.block (s := S32x12288) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S512x12288.size a
  hwx0_4 : ∀ i : grid0.Coords, EltTy.bits .i32 = 32 ∨ (Rect.block (s := S512x12288) S128x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S32x12288.size a
  hwx0_5 : ∀ i : grid0.Coords, EltTy.bits .f32 = 32 ∨ (Rect.block (s := S32x12288) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S32x12288.size a
  hwx0_6 : ∀ i : grid0.Coords, EltTy.bits .f32 = 32 ∨ (Rect.block (s := S32x12288) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x12288.size a
  hwx0_7 : ∀ i : grid0.Coords, EltTy.bits .bf16 = 32 ∨ (Rect.block (s := S8192x12288) S2048x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x12288.size a
  hwx1_0 : ∀ i : grid1.Coords, EltTy.bits .bf16 = 32 ∨ (Rect.block (s := S8192x12288) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S1536x4096.size a
  hwx1_1 : ∀ i : grid1.Coords, EltTy.bits .i32 = 32 ∨ (Rect.block (s := S1536x4096) S128x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S96x4096.size a
  hwx1_2 : ∀ i : grid1.Coords, EltTy.bits .f32 = 32 ∨ (Rect.block (s := S96x4096) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S96x4096.size a
  hwx1_3 : ∀ i : grid1.Coords, EltTy.bits .f32 = 32 ∨ (Rect.block (s := S96x4096) S8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x4096.size a
  hwx1_4 : ∀ i : grid1.Coords, EltTy.bits .f32 = 32 ∨ (Rect.block (s := S8192x4096) S2048x1024.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v42) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27) S8x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v43) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v43) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S8x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x12288 : Shape := ⟨2, ![512, 12288]⟩
abbrev S32x1536 : Shape := ⟨2, ![32, 1536]⟩
abbrev S32x12288 : Shape := ⟨2, ![32, 12288]⟩
abbrev S1536x4096 : Shape := ⟨2, ![1536, 4096]⟩
abbrev S96x512 : Shape := ⟨2, ![96, 512]⟩
abbrev S96x4096 : Shape := ⟨2, ![96, 4096]⟩
abbrev S8 : Shape := ⟨1, ![8]⟩
abbrev S_ : Shape := ⟨0, ![]⟩
abbrev S512x1x12288 : Shape := ⟨3, ![512, 1, 12288]⟩
abbrev S1x8x1 : Shape := ⟨3, ![1, 8, 1]⟩
abbrev S512x8x12288 : Shape := ⟨3, ![512, 8, 12288]⟩
abbrev S4096x12288 : Shape := ⟨2, ![4096, 12288]⟩
abbrev S32x1536x1 : Shape := ⟨3, ![32, 1536, 1]⟩
abbrev S1x1x8 : Shape := ⟨3, ![1, 1, 8]⟩
abbrev S32x1536x8 : Shape := ⟨3, ![32, 1536, 8]⟩
abbrev S32x128x12288 : Shape := ⟨3, ![32, 128, 12288]⟩
abbrev S8192x12288 : Shape := ⟨2, ![8192, 12288]⟩
abbrev S1536x1x4096 : Shape := ⟨3, ![1536, 1, 4096]⟩
abbrev S1536x8x4096 : Shape := ⟨3, ![1536, 8, 4096]⟩
abbrev S12288x4096 : Shape := ⟨2, ![12288, 4096]⟩
abbrev S96x512x1 : Shape := ⟨3, ![96, 512, 1]⟩
abbrev S96x512x8 : Shape := ⟨3, ![96, 512, 8]⟩
abbrev S96x128x4096 : Shape := ⟨3, ![96, 128, 4096]⟩

abbrev nBuf : Space → Nat
  | .hbm => 110
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x12288, .i32⟩
  | .hbm, ⟨2, _⟩ => ⟨S32x1536, .i32⟩
  | .hbm, ⟨3, _⟩ => ⟨S32x12288, .f32⟩
  | .hbm, ⟨4, _⟩ => ⟨S512x12288, .i32⟩
  | .hbm, ⟨5, _⟩ => ⟨S32x1536, .i32⟩
  | .hbm, ⟨6, _⟩ => ⟨S32x12288, .f32⟩
  | .hbm, ⟨7, _⟩ => ⟨S1536x4096, .i32⟩
  | .hbm, ⟨8, _⟩ => ⟨S96x512, .i32⟩
  | .hbm, ⟨9, _⟩ => ⟨S96x4096, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S512x1x12288, .i32⟩
  | .hbm, ⟨15, _⟩ => ⟨S1x8x1, .i32⟩
  | .hbm, ⟨16, _⟩ => ⟨S512x8x12288, .i32⟩
  | .hbm, ⟨17, _⟩ => ⟨S512x8x12288, .i32⟩
  | .hbm, ⟨18, _⟩ => ⟨S512x8x12288, .i32⟩
  | .hbm, ⟨19, _⟩ => ⟨S_, .i32⟩
  | .hbm, ⟨20, _⟩ => ⟨S512x8x12288, .i32⟩
  | .hbm, ⟨21, _⟩ => ⟨S512x8x12288, .i32⟩
  | .hbm, ⟨22, _⟩ => ⟨S4096x12288, .i32⟩
  | .hbm, ⟨23, _⟩ => ⟨S32x1536x1, .i32⟩
  | .hbm, ⟨24, _⟩ => ⟨S1x1x8, .i32⟩
  | .hbm, ⟨25, _⟩ => ⟨S32x1536x8, .i32⟩
  | .hbm, ⟨26, _⟩ => ⟨S32x1536x8, .i32⟩
  | .hbm, ⟨27, _⟩ => ⟨S32x1536x8, .i32⟩
  | .hbm, ⟨28, _⟩ => ⟨S_, .i32⟩
  | .hbm, ⟨29, _⟩ => ⟨S32x1536x8, .i32⟩
  | .hbm, ⟨30, _⟩ => ⟨S32x1536x8, .i32⟩
  | .hbm, ⟨31, _⟩ => ⟨S32x12288, .i32⟩
  | .hbm, ⟨32, _⟩ => ⟨S32x128x12288, .i32⟩
  | .hbm, ⟨33, _⟩ => ⟨S4096x12288, .i32⟩
  | .hbm, ⟨34, _⟩ => ⟨S32x128x12288, .f32⟩
  | .hbm, ⟨35, _⟩ => ⟨S4096x12288, .f32⟩
  | .hbm, ⟨36, _⟩ => ⟨S4096x12288, .i32⟩
  | .hbm, ⟨37, _⟩ => ⟨S4096x12288, .f32⟩
  | .hbm, ⟨38, _⟩ => ⟨S4096x12288, .f32⟩
  | .hbm, ⟨39, _⟩ => ⟨S8192x12288, .f32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i32⟩
  | .hbm, ⟨44, _⟩ => ⟨S512x1x12288, .i32⟩
  | .hbm, ⟨45, _⟩ => ⟨S1x8x1, .i32⟩
  | .hbm, ⟨46, _⟩ => ⟨S512x8x12288, .i32⟩
  | .hbm, ⟨47, _⟩ => ⟨S512x8x12288, .i32⟩
  | .hbm, ⟨48, _⟩ => ⟨S512x8x12288, .i32⟩
  | .hbm, ⟨49, _⟩ => ⟨S_, .i32⟩
  | .hbm, ⟨50, _⟩ => ⟨S512x8x12288, .i32⟩
  | .hbm, ⟨51, _⟩ => ⟨S512x8x12288, .i32⟩
  | .hbm, ⟨52, _⟩ => ⟨S4096x12288, .i32⟩
  | .hbm, ⟨53, _⟩ => ⟨S32x1536x1, .i32⟩
  | .hbm, ⟨54, _⟩ => ⟨S1x1x8, .i32⟩
  | .hbm, ⟨55, _⟩ => ⟨S32x1536x8, .i32⟩
  | .hbm, ⟨56, _⟩ => ⟨S32x1536x8, .i32⟩
  | .hbm, ⟨57, _⟩ => ⟨S32x1536x8, .i32⟩
  | .hbm, ⟨58, _⟩ => ⟨S_, .i32⟩
  | .hbm, ⟨59, _⟩ => ⟨S32x1536x8, .i32⟩
  | .hbm, ⟨60, _⟩ => ⟨S32x1536x8, .i32⟩
  | .hbm, ⟨61, _⟩ => ⟨S32x12288, .i32⟩
  | .hbm, ⟨62, _⟩ => ⟨S32x128x12288, .i32⟩
  | .hbm, ⟨63, _⟩ => ⟨S4096x12288, .i32⟩
  | .hbm, ⟨64, _⟩ => ⟨S32x128x12288, .f32⟩
  | .hbm, ⟨65, _⟩ => ⟨S4096x12288, .f32⟩
  | .hbm, ⟨66, _⟩ => ⟨S4096x12288, .i32⟩
  | .hbm, ⟨67, _⟩ => ⟨S4096x12288, .f32⟩
  | .hbm, ⟨68, _⟩ => ⟨S4096x12288, .f32⟩
  | .hbm, ⟨69, _⟩ => ⟨S8192x12288, .f32⟩
  | .hbm, ⟨70, _⟩ => ⟨S8192x12288, .f32⟩
  | .hbm, ⟨71, _⟩ => ⟨S8192x12288, .f32⟩
  | .hbm, ⟨72, _⟩ => ⟨S_, .f32⟩
  | .hbm, ⟨73, _⟩ => ⟨S8192x12288, .f32⟩
  | .hbm, ⟨74, _⟩ => ⟨S8192x12288, .f32⟩
  | .hbm, ⟨75, _⟩ => ⟨S_, .f32⟩
  | .hbm, ⟨76, _⟩ => ⟨S8192x12288, .f32⟩
  | .hbm, ⟨77, _⟩ => ⟨S8192x12288, .f32⟩
  | .hbm, ⟨78, _⟩ => ⟨S8192x12288, .f32⟩
  | .hbm, ⟨79, _⟩ => ⟨S8192x12288, .f32⟩
  | .hbm, ⟨80, _⟩ => ⟨S8, .i32⟩
  | .hbm, ⟨81, _⟩ => ⟨S_, .i32⟩
  | .hbm, ⟨82, _⟩ => ⟨S8, .i32⟩
  | .hbm, ⟨83, _⟩ => ⟨S8, .i32⟩
  | .hbm, ⟨84, _⟩ => ⟨S1536x1x4096, .i32⟩
  | .hbm, ⟨85, _⟩ => ⟨S1x8x1, .i32⟩
  | .hbm, ⟨86, _⟩ => ⟨S1536x8x4096, .i32⟩
  | .hbm, ⟨87, _⟩ => ⟨S1536x8x4096, .i32⟩
  | .hbm, ⟨88, _⟩ => ⟨S1536x8x4096, .i32⟩
  | .hbm, ⟨89, _⟩ => ⟨S_, .i32⟩
  | .hbm, ⟨90, _⟩ => ⟨S1536x8x4096, .i32⟩
  | .hbm, ⟨91, _⟩ => ⟨S1536x8x4096, .i32⟩
  | .hbm, ⟨92, _⟩ => ⟨S12288x4096, .i32⟩
  | .hbm, ⟨93, _⟩ => ⟨S96x512x1, .i32⟩
  | .hbm, ⟨94, _⟩ => ⟨S1x1x8, .i32⟩
  | .hbm, ⟨95, _⟩ => ⟨S96x512x8, .i32⟩
  | .hbm, ⟨96, _⟩ => ⟨S96x512x8, .i32⟩
  | .hbm, ⟨97, _⟩ => ⟨S96x512x8, .i32⟩
  | .hbm, ⟨98, _⟩ => ⟨S_, .i32⟩
  | .hbm, ⟨99, _⟩ => ⟨S96x512x8, .i32⟩
  | .hbm, ⟨100, _⟩ => ⟨S96x512x8, .i32⟩
  | .hbm, ⟨101, _⟩ => ⟨S96x4096, .i32⟩
  | .hbm, ⟨102, _⟩ => ⟨S96x128x4096, .i32⟩
  | .hbm, ⟨103, _⟩ => ⟨S12288x4096, .i32⟩
  | .hbm, ⟨104, _⟩ => ⟨S96x128x4096, .f32⟩
  | .hbm, ⟨105, _⟩ => ⟨S12288x4096, .f32⟩
  | .hbm, ⟨106, _⟩ => ⟨S12288x4096, .i32⟩
  | .hbm, ⟨107, _⟩ => ⟨S12288x4096, .f32⟩
  | .hbm, ⟨108, _⟩ => ⟨S12288x4096, .f32⟩
  | .hbm, ⟨109, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_6 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_7 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x12288_S512x1x12288_0_2 : S512x12288.BroadcastsInDim S512x1x12288 (![0, 2] : Fin 2 → Fin S512x1x12288.rank)
  bcast_S8_S1x8x1_1 : S8.BroadcastsInDim S1x8x1 (![1] : Fin 1 → Fin S1x8x1.rank)
  bcast_S512x1x12288_S512x8x12288_0_1_2 : S512x1x12288.BroadcastsInDim S512x8x12288 (![0, 1, 2] : Fin 3 → Fin S512x8x12288.rank)
  bcast_S1x8x1_S512x8x12288_0_1_2 : S1x8x1.BroadcastsInDim S512x8x12288 (![0, 1, 2] : Fin 3 → Fin S512x8x12288.rank)
  bcast_S_S512x8x12288 : S_.BroadcastsInDim S512x8x12288 (![] : Fin 0 → Fin S512x8x12288.rank)
  shapeCasts_S512x8x12288_S4096x12288 : S512x8x12288.ShapeCasts S4096x12288
  bcast_S32x1536_S32x1536x1_0_1 : S32x1536.BroadcastsInDim S32x1536x1 (![0, 1] : Fin 2 → Fin S32x1536x1.rank)
  bcast_S8_S1x1x8_2 : S8.BroadcastsInDim S1x1x8 (![2] : Fin 1 → Fin S1x1x8.rank)
  bcast_S32x1536x1_S32x1536x8_0_1_2 : S32x1536x1.BroadcastsInDim S32x1536x8 (![0, 1, 2] : Fin 3 → Fin S32x1536x8.rank)
  bcast_S1x1x8_S32x1536x8_0_1_2 : S1x1x8.BroadcastsInDim S32x1536x8 (![0, 1, 2] : Fin 3 → Fin S32x1536x8.rank)
  bcast_S_S32x1536x8 : S_.BroadcastsInDim S32x1536x8 (![] : Fin 0 → Fin S32x1536x8.rank)
  shapeCasts_S32x1536x8_S32x12288 : S32x1536x8.ShapeCasts S32x12288
  bcast_S32x12288_S32x128x12288_0_2 : S32x12288.BroadcastsInDim S32x128x12288 (![0, 2] : Fin 2 → Fin S32x128x12288.rank)
  shapeCasts_S32x128x12288_S4096x12288 : S32x128x12288.ShapeCasts S4096x12288
  bcast_S_S8192x12288 : S_.BroadcastsInDim S8192x12288 (![] : Fin 0 → Fin S8192x12288.rank)
  bcast_S1536x4096_S1536x1x4096_0_2 : S1536x4096.BroadcastsInDim S1536x1x4096 (![0, 2] : Fin 2 → Fin S1536x1x4096.rank)
  bcast_S1536x1x4096_S1536x8x4096_0_1_2 : S1536x1x4096.BroadcastsInDim S1536x8x4096 (![0, 1, 2] : Fin 3 → Fin S1536x8x4096.rank)
  bcast_S1x8x1_S1536x8x4096_0_1_2 : S1x8x1.BroadcastsInDim S1536x8x4096 (![0, 1, 2] : Fin 3 → Fin S1536x8x4096.rank)
  bcast_S_S1536x8x4096 : S_.BroadcastsInDim S1536x8x4096 (![] : Fin 0 → Fin S1536x8x4096.rank)
  shapeCasts_S1536x8x4096_S12288x4096 : S1536x8x4096.ShapeCasts S12288x4096
  bcast_S96x512_S96x512x1_0_1 : S96x512.BroadcastsInDim S96x512x1 (![0, 1] : Fin 2 → Fin S96x512x1.rank)
  bcast_S96x512x1_S96x512x8_0_1_2 : S96x512x1.BroadcastsInDim S96x512x8 (![0, 1, 2] : Fin 3 → Fin S96x512x8.rank)
  bcast_S1x1x8_S96x512x8_0_1_2 : S1x1x8.BroadcastsInDim S96x512x8 (![0, 1, 2] : Fin 3 → Fin S96x512x8.rank)
  bcast_S_S96x512x8 : S_.BroadcastsInDim S96x512x8 (![] : Fin 0 → Fin S96x512x8.rank)
  shapeCasts_S96x512x8_S96x4096 : S96x512x8.ShapeCasts S96x4096
  bcast_S96x4096_S96x128x4096_0_2 : S96x4096.BroadcastsInDim S96x128x4096 (![0, 2] : Fin 2 → Fin S96x128x4096.rank)
  shapeCasts_S96x128x4096_S12288x4096 : S96x128x4096.ShapeCasts S12288x4096
  dot_S8192x4096_S4096x12288_S8192x12288_1_0_0_1_n_n_wf : DotDims.WF S8192x4096 S4096x12288 S8192x12288 [1] [0] [0] [1] [] []
  dot_S8192x12288_S12288x4096_S8192x4096_1_0_0_1_n_n_wf : DotDims.WF S8192x12288 S12288x4096 S8192x4096 [1] [0] [0] [1] [] []

variable [Facts₀]

def dot_S8192x4096_S4096x12288_S8192x12288_1_0_0_1_n_n : DotDims S8192x4096 S4096x12288 S8192x12288 where
  lhsContracting := [1]
  rhsContracting := [0]
  lhsNonContracting := [0]
  rhsNonContracting := [1]
  lhsBatch := []
  rhsBatch := []
  wf := dot_S8192x4096_S4096x12288_S8192x12288_1_0_0_1_n_n_wf
def dot_S8192x12288_S12288x4096_S8192x4096_1_0_0_1_n_n : DotDims S8192x12288 S12288x4096 S8192x4096 where
  lhsContracting := [1]
  rhsContracting := [0]
  lhsNonContracting := [0]
  rhsNonContracting := [1]
  lhsBatch := []
  rhsBatch := []
  wf := dot_S8192x12288_S12288x4096_S8192x4096_1_0_0_1_n_n_wf

class Facts : Prop extends Facts₀ where

variable [Facts]
-- ==== Proof.K.R0RunA.lean ====
/-
  The gate/up body at the first reduction step of an output tile: it zeroes the two accumulators (whatever they held), then loads the activation block, the packed weight blocks and their scales and biases, rebuilds the two dequantized weight chunks and adds the two products. The inputs' and the idle output's contents come back untouched; each accumulator is left with the pieces written into it.
-/
import proofs.«405969_j49890340110676_2_alg».proof.Proof.K.R0Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) :
    Σ' (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Gen

end
-- ==== Proof.K.R0RunB.lean ====
/-
  The gate/up body at a middle reduction step (neither the first nor the last): it loads the activation block, the two packed weight blocks and their scales and biases, rebuilds the two dequantized weight chunks, and adds the two products to the accumulators. The inputs' and the idle output's contents come back untouched; each accumulator is left with the pieces written into it.
-/
import proofs.«405969_j49890340110676_2_alg».proof.Proof.K.R0Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    Σ' (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.Kernel.Gen

end
-- ==== Proof.K.R0RunC.lean ====
/-
  The gate/up body at the last reduction step of an output tile: it adds the last two products to the accumulators, reads them back and stores silu(gate) * up into the output block, whatever that held. The inputs come back untouched; the output block and each accumulator are left with the pieces written into them.
-/
import proofs.«405969_j49890340110676_2_alg».proof.Proof.K.R0Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    Σ' (L7 : List (View.Piece (Elt F) S2048x1024 .bf16)), Σ' (LS0 : List (View.Piece (Elt F) S2048x1024 .f32)), { LS1 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.Kernel.Gen

end
-- ==== Proof.K.R1RunA.lean ====
/-
  The down-projection body at the first reduction step of an output tile: it zeroes the accumulator (whatever it held), loads the hidden block, the packed weight block, its scales and biases, rebuilds the dequantized weight chunk and adds the product. The inputs' and the idle output's contents come back untouched; the accumulator is left with the pieces written into it.
-/
import proofs.«405969_j49890340110676_2_alg».proof.Proof.K.R1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : cond1_0 i) (hc1 : ¬cond1_1 i) (x0 : Vec F S2048x1024 .bf16) (x1 : Vec F S128x1024 .i32) (x2 : Vec F S8x1024 .f32) (x3 : Vec F S8x1024 .f32) :
    { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.R1RunB.lean ====
/-
  The down-projection body at a middle reduction step: one more product added to the accumulator. The inputs' and the idle output's contents come back untouched; the accumulator is left with the pieces written into it.
-/
import proofs.«405969_j49890340110676_2_alg».proof.Proof.K.R1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : ¬cond1_0 i) (hc1 : ¬cond1_1 i) (x0 : Vec F S2048x1024 .bf16) (x1 : Vec F S128x1024 .i32) (x2 : Vec F S8x1024 .f32) (x3 : Vec F S8x1024 .f32) (xs0 : Vec F S2048x1024 .f32) :
    { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.R1RunC.lean ====
/-
  The down-projection body at the last reduction step of an output tile: it adds the last product, reads the accumulator back and stores it into the output block, whatever that held. The inputs come back untouched; the output block and the accumulator are left with the pieces written into them.
-/
import proofs.«405969_j49890340110676_2_alg».proof.Proof.K.R1Base

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : ¬cond1_0 i) (hc1 : cond1_1 i) (x0 : Vec F S2048x1024 .bf16) (x1 : Vec F S128x1024 .i32) (x2 : Vec F S8x1024 .f32) (x3 : Vec F S8x1024 .f32) (xs0 : Vec F S2048x1024 .f32) :
    Σ' (L4 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.KI.R0Base.lean ====
/-
  The gate/up projection's launch (pipeline 0), on any float values: the two branch conditions of its body in closed
  form over the 192 grid points (the reduction step is the point's number modulo 4: the accumulators are reset at
  step 0 and the SwiGLU product is stored at step 3), where the output window is idle, the staging memrefs as the
  pipeline passes them, and the region invariant with the two accumulators named.
-/
import proofs.«405969_j49890340110676_2_alg».proof.Proof.Gen.KernelIdeal.Launch
import proofs.«405969_j49890340110676_2_alg».proof.Proof.Gen.KernelIdeal.Points
import proofs.«405969_j49890340110676_2_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the gate/up body -/

/-- "This is the first reduction step": the accumulators are zeroed here. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last reduction step": the product silu(gate) * up is stored here. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last reduction step the output window is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last reduction step it is live. -/
theorem liveAt0_7 : ∀ t : Fin cfg0.N, cond0_1 (grid0.coords t) → cfg0.idle 7 (grid0.coords t) = false := by decide +kernel

/-! ## The staging memrefs at a point, as the pipeline passes them -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1024 .bf16 := win0_7.stage (cfg0.slots t 7)
abbrev hs0_7 (t : Fin cfg0.N) : (ms0_7 t).IsWhole := hstage0_7 ((cfg0.slots t 7).cast nbuf0_7)
/-- The gate accumulator and the up accumulator: whole scoped buffers of the kernel's own. -/
abbrev scM0_0 : Memref sig .tc .vmem S2048x1024 .f32 := Memref.whole cc0_scratch0
abbrev scM0_1 : Memref sig .tc .vmem S2048x1024 .f32 := Memref.whole cc0_scratch1

end Cert.KernelIdeal.Gen

end
-- ==== Proof.KI.R0RunA.lean ====
/-
  The gate/up body at the first reduction step of an output tile: it zeroes the two accumulators (whatever they held), then loads the activation block, the packed weight blocks and their scales and biases, rebuilds the two dequantized weight chunks and adds the two products. The inputs' and the idle output's contents come back untouched; each accumulator is left with the pieces written into it.
-/
import proofs.«405969_j49890340110676_2_alg».proof.Proof.KI.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) :
    Σ' (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Gen

end
-- ==== Proof.KI.R0RunB.lean ====
/-
  The gate/up body at a middle reduction step (neither the first nor the last): it loads the activation block, the two packed weight blocks and their scales and biases, rebuilds the two dequantized weight chunks, and adds the two products to the accumulators. The inputs' and the idle output's contents come back untouched; each accumulator is left with the pieces written into it.
-/
import proofs.«405969_j49890340110676_2_alg».proof.Proof.KI.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    Σ' (LS0 : List (View.Piece (Elt F) S2048x1024 .f32)), { LS1 : List (View.Piece (Elt F) S2048x1024 .f32) //
      ∀ (xi7 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    iexists _; iexact HS1

end Cert.KernelIdeal.Gen

end
-- ==== Proof.KI.R0RunC.lean ====
/-
  The gate/up body at the last reduction step of an output tile: it adds the last two products to the accumulators, reads them back and stores silu(gate) * up into the output block, whatever that held. The inputs come back untouched; the output block and each accumulator are left with the pieces written into them.
-/
import proofs.«405969_j49890340110676_2_alg».proof.Proof.KI.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    Σ' (L7 : List (View.Piece (Elt F) S2048x1024 .bf16)), Σ' (LS0 : List (View.Piece (Elt F) S2048x1024 .f32)), { LS1 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__gateup_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gateup_kernel_eq_skeleton]; unfold cc0__gateup_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    iexists _; iexact HS1

end Cert.KernelIdeal.Gen

end
-- ==== Proof.KI.R0Frame.lean ====
/-
  The proof data of the gate/up projection's launch (pipeline 0) at region-entry contents V.

  The reduction step of a grid point is its number modulo 4. At step 0 the body zeroes the two accumulators and adds the
  first pair of products; at steps 1 and 2 it adds a pair of products to what the point before left; at step 3 it adds the
  last pair, reads both accumulators back and stores the output block. So the accumulators' contents after a point are
  defined by recursion on the point, the output block is defined at the points of step 3 only (elsewhere the window is idle
  and its component is a placeholder that nothing reads), and the region invariant carries the two accumulators from each
  point to the next at exactly those contents. Every buffer is described through the pieces the body writes into it, read
  back over arbitrary prior contents: the pieces cover the buffer, so the prior contents do not matter.
-/
import proofs.«405969_j49890340110676_2_alg».proof.Proof.KI.R0RunA
import proofs.«405969_j49890340110676_2_alg».proof.Proof.KI.R0RunB
import proofs.«405969_j49890340110676_2_alg».proof.Proof.KI.R0RunC
import Idealize.ShloMosaic.Lib.Ring

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The views through which contents are stated

What a covering list of pieces leaves in a buffer depends neither on the buffer nor on what it held, so each is read
through one fixed view over arbitrary prior contents. -/

/-- One staging buffer of the output window. -/
abbrev VO0_7 : View sig .tc .vmem S2048x1024 .bf16 := (Memref.whole cc0_stg7_0 : Memref sig .tc .vmem S2048x1024 .bf16).view
/-- The gate accumulator and the up accumulator. -/
abbrev VS0_0 : View sig .tc .vmem S2048x1024 .f32 := scM0_0.view
abbrev VS0_1 : View sig .tc .vmem S2048x1024 .f32 := scM0_1.view

/-- The output window's component at a point where it is idle: nothing is stored, the block is not written back and the
    next point does not read it, so this value is consulted nowhere. -/
def out0_idle_7 : Vec F S2048x1024 .bf16 := VO0_7.read (Elt F) VO0_7.junk

/-! ## What each case leaves in each buffer -/

/-- At the first reduction step the pieces written into the gate accumulator (the zero fill, then the sum) cover it. -/
theorem scover0_A_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (y : S2048x1024.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).1 S2048x1024.size (by sl_kernel_rfl) y

/-- What the first reduction step leaves in the gate accumulator. -/
def sout0_A_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) : Vec F S2048x1024 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5 x6).1)

/-- Likewise the up accumulator's pieces cover it. -/
theorem scover0_A_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (y : S2048x1024.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5 x6).2.1 S2048x1024.size (by sl_kernel_rfl) y

/-- What the first reduction step leaves in the up accumulator. -/
def sout0_A_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) : Vec F S2048x1024 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 hc0 hc1 x0 x1 x2 x3 x4 x5 x6).2.1)

/-- At a middle reduction step the sum stored back into the gate accumulator covers it. -/
theorem scover0_B_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) (y : S2048x1024.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).1 S2048x1024.size (by sl_kernel_rfl) y

/-- What a middle reduction step leaves in the gate accumulator, over what the point before left in both. -/
def sout0_B_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) : Vec F S2048x1024 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).1)

theorem scover0_B_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) (y : S2048x1024.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- What a middle reduction step leaves in the up accumulator. -/
def sout0_B_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : ¬cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) : Vec F S2048x1024 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last reduction step the stores of the product silu(gate) * up tile the output block, so they cover it. -/
theorem cover0_C_7 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) (y : S2048x1024.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1 S2048x1024.size (by sl_kernel_rfl) y

/-- What the last reduction step leaves in the output window's staging buffer. -/
def out0_C_7 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) : Vec F S2048x1024 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).1)

theorem scover0_C_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) (y : S2048x1024.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1 S2048x1024.size (by sl_kernel_rfl) y

/-- What the last reduction step leaves in the gate accumulator. -/
def sout0_C_0 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) : Vec F S2048x1024 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)

theorem scover0_C_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) (y : S2048x1024.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1 S2048x1024.size (by sl_kernel_rfl) y

/-- What the last reduction step leaves in the up accumulator. -/
def sout0_C_1 (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole) (hc0 : ¬cond0_0 i) (hc1 : cond0_1 i)
    (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) : Vec F S2048x1024 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ## The contents after each point -/

/-- After the body at position n: (the output window's staging buffer, then the carried accumulator(s)).
    The case is the one the point's reduction step selects; a middle or last step runs over what position n - 1 left in the
    two accumulators (nothing touches them between two points). No point is at step 0 and at step 3 at once. -/
def outsAt0 (V : (c : Dev nD) → (b : Ref sig .tc) → Buf (Elt F) ((c : Thread nD τ).loc b)) (c : Dev nD) : (n : ℕ) → n < cfg0.N → Vec F S2048x1024 .bf16 × Vec F S2048x1024 .f32 × Vec F S2048x1024 .f32
  | 0, hn => (out0_idle_7, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_idle_7, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2)
      else
        (out0_idle_7, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2.1 (outsAt0 V c n (Nat.lt_of_succ_lt hn)).2.2)

/-- At a point of the first reduction step: the accumulators hold what that step leaves, whatever they held. -/
theorem outsAt0_A (c : Dev nD) (t : Fin cfg0.N) (h0 : t.val % 4 = 0) (h1 : ¬t.val % 4 = 3) :
    outsAt0 V c t.val t.isLt = (out0_idle_7, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- At a point of a middle reduction step: what that step leaves over the contents after the point before. -/
theorem outsAt0_B (c : Dev nD) (t : Fin cfg0.N) (h0 : ¬t.val % 4 = 0) (h1 : ¬t.val % 4 = 3) :
    outsAt0 V c t.val t.isLt = (out0_idle_7, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point of the last reduction step: the output block and the accumulators over the contents after the point before. -/
theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers that belong to the second launch (its staging buffers and its accumulator), each whole at
    some contents: this body neither reads nor writes them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant of the class with the two accumulators named as memrefs owned at some contents, beside the buffers of
    the second launch and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-- The region invariant before position n. Before the first point nothing is known of the accumulators; before any later
    point each holds exactly what the point before left in it. The other scoped buffers are at some contents and the
    generator register at some state throughout. -/
def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

/-- After point n, which is before point n + 1. -/
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

/-- Before a point that is not the first. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window: an input's block stays in place, the output window holds its component. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-! ## A covered buffer is owned at its pieces read back -/

/-- A buffer into which a covering list of pieces has been written, over whatever it held, is owned at those pieces read
    back through any view over any contents: where every index lies in some piece, neither the view nor the prior contents
    can be seen in the result. -/
theorem owns_of_cover {sh : Shape} {e : EltTy} (c : Dev nD) (m : Memref sig .tc .vmem sh e) (v' : View sig .tc .vmem sh e)
    (f' : v'.ty.Contents (Elt F)) (L : List (View.Piece (Elt F) sh e)) (h : ∀ y, ∃ p ∈ L, y ∈ p.1.set) :
    (iprop(∃ f, m.view.loc (c : Thread nD τ) ↦[m.view.set]{fullShare} m.view.writes (Elt F) f L) : sProp 𝕄)
      ⊢ owns (c : Thread nD τ) m fullShare (v'.read (Elt F) (v'.writes (Elt F) f' L)) := by
  iintro ⟨%f, H⟩
  unfold owns; iexists _; isplitr
  swap; · iexact H
  ipureintro; exact View.read_writes_of_cover _ _ _ _ _ h

/-! ## The input windows hold their blocks -/

/-- Each input window's current staging buffer holds its block at every point, fetched there or not: the body leaves the
    block in place, the window is never idle and its blocks are uncut. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-- So the body returns each input window's buffer at its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) : (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) : (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]
theorem leaves0_6 (c : Dev nD) (t : Fin cfg0.N) : (dat0 V c).leavesExact 6 t = owns (c : Thread nD τ) (ms0_6 t) fullShare (iblk0 V c 6 t) := by
  rw [show (dat0 V c).leavesExact 6 t = owns (c : Thread nD τ) (ms0_6 t) fullShare ((dat0 V c).after 6 t) from by
    unfold Dat.leavesExact; rw [liveAt0_6 t], after0_6]

/-- At the last reduction step the output window is live and is returned at its component of the contents. -/
theorem leaves0_7_C (c : Dev nD) (t : Fin cfg0.N) (h1 : t.val % 4 = 3) : (dat0 V c).leavesExact 7 t = owns (c : Thread nD τ) (ms0_7 t) fullShare ((outsAt0 V c t.val t.isLt).1) := by
  rw [show (dat0 V c).leavesExact 7 t = owns (c : Thread nD τ) (ms0_7 t) fullShare ((dat0 V c).after 7 t) from by
    unfold Dat.leavesExact; rw [liveAt0_7 t ((hcond0_1 t).mpr h1)], after0_7]

/-! ## The body obligation, at a generic point -/

/-- What the body is called with at point t: the invariant, what the core owes, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 16000000 in
/-- The body at any point. The inputs' buffers hold their blocks; the point's reduction step selects the case. The invariant
    hands the body the two accumulators at what the point before left (at anything at the very first point, where the body
    overwrites them), and takes each back at this point's contents: the pieces the case writes cover the accumulator, so
    reading them back over arbitrary contents is reading the accumulator itself. The output window's buffer goes back
    untouched at the points where it is idle, and at the last reduction step at the stored block. The core owes nothing
    throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6]
  have hN : t.val < 192 := lt_of_lt_of_eq t.isLt (show cfg0.N = 192 from N_0)
  by_cases h0 : t.val % 4 = 0
  · -- the first reduction step
    have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 7 t (idleAt0_7 t hc1) (noFlush0_7 t hc1)]
    rw [outsAt0_A V c t h0 h1]
    unfold sout0_A_0 sout0_A_1; (try dsimp only)
    by_cases hz : t.val = 0
    · -- the very first point: the accumulators hold anything
      rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hoth Hg]
      · isplitl [HS0 HS1 Hoth]
        · isplitl [HS0]
          · iapply (owns_of_cover c scM0_0 VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)))
            iexact HS0
          isplitl [HS1]
          · iapply (owns_of_cover c scM0_1 VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)))
            iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · -- a later point of step 0: the accumulators hold what the point before left, and are overwritten all the same
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hoth Hg]
      · isplitl [HS0 HS1 Hoth]
        · isplitl [HS0]
          · iapply (owns_of_cover c scM0_0 VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)))
            iexact HS0
          isplitl [HS1]
          · iapply (owns_of_cover c scM0_1 VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)))
            iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · -- a later reduction step: never the first point
    have hz : t.val ≠ 0 := fun e => h0 (by rw [e])
    have hc0 : ¬cond0_0 (grid0.coords t) := fun h => h0 ((hcond0_0 t).mp h)
    by_cases h1 : t.val % 4 = 3
    · -- the last reduction step: the output block is stored
      have hc1 : cond0_1 (grid0.coords t) := (hcond0_1 t).mpr h1
      rw [leaves0_7_C V c t h1]
      rw [outsAt0_C V c t h0 h1]
      unfold out0_C_7 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hoth Hg]
      · isplitl [HS0 HS1 Hoth]
        · isplitl [HS0]
          · iapply (owns_of_cover c scM0_0 VS0_0 VS0_0.junk _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)))
            iexact HS0
          isplitl [HS1]
          · iapply (owns_of_cover c scM0_1 VS0_1 VS0_1.junk _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)))
            iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (owns_of_cover c (ms0_7 t) VO0_7 VO0_7.junk _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)))
      iexact H7
    · -- a middle reduction step: the output window is idle
      have hc1 : ¬cond0_1 (grid0.coords t) := fun h => h1 ((hcond0_1 t).mp h)
      rw [Dat.leavesExact_idle (dat0 V c) 7 t (idleAt0_7 t hc1) (noFlush0_7 t hc1)]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hoth Hg]
      · isplitl [HS0 HS1 Hoth]
        · isplitl [HS0]
          · iapply (owns_of_cover c scM0_0 VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)))
            iexact HS0
          isplitl [HS1]
          · iapply (owns_of_cover c scM0_1 VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) ((outsAt0 V c (t.val - 1) (Nat.lt_of_le_of_lt (Nat.sub_le _ _) t.isLt)).2.1) ((outsAt0 V c (t.val - 1) (Nat.lt_of_le_of_lt (Nat.sub_le _ _) t.isLt)).2.2)))
            iexact HS1
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation at every point: the windows conjoined one by one. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- In particular after the last point. -/
theorem hout0 (c : Dev nD) : (dat0 V c).Φ (Fin.last cfg0.N) ⊢ Pipeline.ΦA spec0 c :=
  Phi_out0 V c _ (by rw [Fin.val_last]; have : cfg0.N = 192 := N_0; omega)

end Cert.KernelIdeal.Gen

end
-- ==== Proof.KI.R1Base.lean ====
/-
  The down projection's launch (pipeline 1), on any float values: the two branch conditions of its body in closed
  form over the 192 grid points (the reduction step is the point's number modulo 12: the accumulator is reset at
  step 0 and stored into the output block at step 11), where the output window is idle, and the staging memrefs as
  the pipeline passes them.
-/
import proofs.«405969_j49890340110676_2_alg».proof.Proof.Gen.KernelIdeal.Launch
import proofs.«405969_j49890340110676_2_alg».proof.Proof.Gen.KernelIdeal.Points
import proofs.«405969_j49890340110676_2_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the down-projection body -/

/-- "This is the first reduction step": the accumulator is zeroed here. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

/-- "This is the last reduction step": the accumulated product is stored here. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last reduction step the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last reduction step it is live. -/
theorem liveAt1_4 : ∀ t : Fin cfg1.N, cond1_1 (grid1.coords t) → cfg1.idle 4 (grid1.coords t) = false := by decide +kernel

/-! ## The staging memrefs at a point, as the pipeline passes them -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S2048x1024 .f32 := Memref.whole cc1_scratch0

end Cert.KernelIdeal.Gen

end
-- ==== Proof.KI.R1RunA.lean ====
/-
  The down-projection body at the first reduction step of an output tile: it zeroes the accumulator (whatever it held), loads the hidden block, the packed weight block, its scales and biases, rebuilds the dequantized weight chunk and adds the product. The inputs' and the idle output's contents come back untouched; the accumulator is left with the pieces written into it.
-/
import proofs.«405969_j49890340110676_2_alg».proof.Proof.KI.R1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : cond1_0 i) (hc1 : ¬cond1_1 i) (x0 : Vec F S2048x1024 .bf16) (x1 : Vec F S128x1024 .i32) (x2 : Vec F S8x1024 .f32) (x3 : Vec F S8x1024 .f32) :
    { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.R1RunB.lean ====
/-
  The down-projection body at a middle reduction step: one more product added to the accumulator. The inputs' and the idle output's contents come back untouched; the accumulator is left with the pieces written into it.
-/
import proofs.«405969_j49890340110676_2_alg».proof.Proof.KI.R1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : ¬cond1_0 i) (hc1 : ¬cond1_1 i) (x0 : Vec F S2048x1024 .bf16) (x1 : Vec F S128x1024 .i32) (x2 : Vec F S8x1024 .f32) (x3 : Vec F S8x1024 .f32) (xs0 : Vec F S2048x1024 .f32) :
    { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.R1RunC.lean ====
/-
  The down-projection body at the last reduction step of an output tile: it adds the last product, reads the accumulator back and stores it into the output block, whatever that held. The inputs come back untouched; the output block and the accumulator are left with the pieces written into them.
-/
import proofs.«405969_j49890340110676_2_alg».proof.Proof.KI.R1Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole)
    (hc0 : ¬cond1_0 i) (hc1 : cond1_1 i) (x0 : Vec F S2048x1024 .bf16) (x1 : Vec F S128x1024 .i32) (x2 : Vec F S8x1024 .f32) (x3 : Vec F S8x1024 .f32) (xs0 : Vec F S2048x1024 .f32) :
    Σ' (L4 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.KI.R1Frame.lean ====
/-
  The down projection's pipeline (pipeline 1) at region-entry contents V: its proof data and the body obligation.

  The grid has 192 points; the reduction step of a point is its number modulo 12. Each of the four input windows holds,
  at every point, its block of the array as the region found it. The accumulator is carried from point to point: a first
  step (0) overwrites it with the zero fill plus the step's product, a middle step (1..10) adds its product to what the
  point before left, and the last step (11) does the same and stores the sum into the output window's block, which is
  written back there and only there (elsewhere the output window is idle and its buffer passes through untouched).
  What the accumulator and the output buffer hold after a point is defined by recursion on the point's number from the
  pieces each step writes; since the pieces tile the buffer, that is independent of what the buffer held before.
  The region invariant says: before the first point, every scoped buffer that is no staging buffer of this pipeline at some
  contents; after point n, the accumulator at exactly what point n left, the other such buffers still at some contents.
-/
import proofs.«405969_j49890340110676_2_alg».proof.Proof.KI.R1RunA
import proofs.«405969_j49890340110676_2_alg».proof.Proof.KI.R1RunB
import proofs.«405969_j49890340110676_2_alg».proof.Proof.KI.R1RunC
import Idealize.ShloMosaic.Lib.Ring

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What each case of the body leaves behind

A run's witness is the list of pieces it wrote into a buffer. When the pieces tile the buffer, what the buffer holds afterwards
does not depend on what it held before, nor on the view it is read through: it is the pieces read back over arbitrary contents. -/

/-- One staging buffer of the output window, through which the stored block is stated (the choice does not matter once the pieces cover). -/
abbrev VO1_4 : View sig .tc .vmem S2048x1024 .f32 := (Memref.whole cc1_stg4_0 : Memref sig .tc .vmem S2048x1024 .f32).view
/-- The accumulator as a view. -/
abbrev VS1_0 : View sig .tc .vmem S2048x1024 .f32 := scM1_0.view

/-- At a step that stores nothing into the output window the window is idle and not written back: its component is a
    placeholder that nothing consults. -/
def out1_idle_4 : Vec F S2048x1024 .f32 := VO1_4.read (Elt F) VO1_4.junk

/-- First step: the pieces written into the accumulator (the zero fill, then the sum) tile it. -/
theorem scover1_A_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S128x1024 .i32) (x2 : Vec F S8x1024 .f32) (x3 : Vec F S8x1024 .f32) (y : S2048x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S2048x1024.size (by sl_kernel_rfl) y

/-- What the first step leaves in the accumulator: its pieces read back over arbitrary contents. -/
def sout1_A_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S128x1024 .i32) (x2 : Vec F S8x1024 .f32) (x3 : Vec F S8x1024 .f32) : Vec F S2048x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).1)

/-- A middle step: the piece written into the accumulator (the old contents plus the product) tiles it. -/
theorem scover1_B_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S128x1024 .i32) (x2 : Vec F S8x1024 .f32) (x3 : Vec F S8x1024 .f32) (xs0 : Vec F S2048x1024 .f32) (y : S2048x1024.Idx) :
    ∃ pc ∈ (kernelRun1_B c i arg3 harg3 arg4 harg4 arg5 harg5 arg6 harg6 arg7 harg7 arg8 harg8 hc0 hc1 x0 x1 x2 x3 xs0).1, y ∈ pc.1.set :=
  View.cover_of_tiledL (kernelRun1_B c i arg3 harg3 arg4 harg4 arg5 harg5 arg6 harg6 arg7 harg7 arg8 harg8 hc0 hc1 x0 x1 x2 x3 xs0).1 S2048x1024.size (by sl_kernel_rfl) y

/-- What a middle step leaves in the accumulator, from what the step before left (xs0). -/
def sout1_B_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S128x1024 .i32) (x2 : Vec F S8x1024 .f32) (x3 : Vec F S8x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).1)

/-- Last step: the piece stored into the output block tiles it. -/
theorem cover1_C_4 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) (y : S2048x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S2048x1024.size (by sl_kernel_rfl) y

/-- What the last step leaves in the output window's staging buffer. -/
def out1_C_4 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) : Vec F S2048x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Last step: the piece written into the accumulator tiles it. -/
theorem scover1_C_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) (y : S2048x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S2048x1024.size (by sl_kernel_rfl) y

/-- What the last step leaves in the accumulator. -/
def sout1_C_0 (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-! ## What the output buffer and the accumulator hold after each point -/

/-- After the body at position n: (the output window's staging buffer, then the carried accumulator(s)). -/
def outsAt1 (V : (c : Dev nD) → (b : Ref sig .tc) → Buf (Elt F) ((c : Thread nD τ).loc b)) (c : Dev nD) : (n : ℕ) → n < cfg1.N → Vec F S2048x1024 .f32 × Vec F S2048x1024 .f32
  | 0, hn => (out1_idle_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 12 = 0 then
      if h1 : (n + 1) % 12 = 11 then
        False.elim (by omega)
      else
        (out1_idle_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 12 = 11 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2)
      else
        (out1_idle_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2)

/-- At a first reduction step: the accumulator restarts from the zero fill. -/
theorem outsAt1_A (c : Dev nD) (t : Fin cfg1.N) (h0 : t.val % 12 = 0) (h1 : ¬t.val % 12 = 11) :
    outsAt1 V c t.val t.isLt = (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle step: the accumulator goes on from what the point before left. -/
theorem outsAt1_B (c : Dev nD) (t : Fin cfg1.N) (h0 : ¬t.val % 12 = 0) (h1 : ¬t.val % 12 = 11) :
    outsAt1 V c t.val t.isLt = (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: the output block is stored, the accumulator goes on from what the point before left. -/
theorem outsAt1_C (c : Dev nD) (t : Fin cfg1.N) (h0 : ¬t.val % 12 = 0) (h1 : t.val % 12 = 11) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The scoped buffers of the core that belong to the other kernel of the program (its staging buffers and its two
    accumulators), each whole at some contents: this kernel never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Two assertions that entail each other are the same assertion. -/
theorem eq_of_entails1 {P Q : sProp 𝕄} (h₁ : P ⊢ Q) (h₂ : Q ⊢ P) : P = Q := BI.equiv_iff.mp ⟨h₁, h₂⟩

/-- The class invariant of this pipeline with the accumulator split off: the accumulator at some contents, the other
    kernel's scoped buffers at some contents, the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_eq]; simp only [scM1_0, owns_whole]; unfold others1
  refine eq_of_entails1 ?_ ?_
  · iintro ⟨⟨B1, B2, B3, B4, B5, B6, B7, B8, B9, B10, B11, B12, B13, B14, B15, B16, B17, B18, HS⟩, Hg⟩
    isplitr [Hg]
    swap; · iexact Hg
    isplitl [HS]; · iexact HS
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    iexact B18
  · iintro ⟨⟨HS, B1, B2, B3, B4, B5, B6, B7, B8, B9, B10, B11, B12, B13, B14, B15, B16, B17, B18⟩, Hg⟩
    isplitr [Hg]
    swap; · iexact Hg
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    iexact HS

/-- The region invariant before position n. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point n: the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- At any position the invariant gives the accumulator at SOME contents: what a step that overwrites it needs. -/
theorem PhiS1_forget (c : Dev nD) (n : ℕ) (h : n ≤ cfg1.N) :
    PhiS1 V c n h ⊢ iprop(iprop((∃ d, owns (c : Thread nD τ) scM1_0 fullShare d) ∗ others1 c) ∗ (∃ r, prngReg c r)) := by
  cases n with
  | zero => rw [PhiS1_zero V c 0 h rfl, PhiA1_eq]
  | succ n =>
    rw [PhiS1_succ]
    iintro ⟨⟨HS0, Hr⟩, Hg⟩
    isplitr [Hg]
    swap; · iexact Hg
    isplitl [HS0]
    · iexists _; iexact HS0
    iexact Hr

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point: fetched there it is the block; not fetched, the
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, point by point -/

/-- What the body is called with at point t: the invariant, what the core owes, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- A first reduction step. The accumulator is handed over at whatever it holds (the zero fill overwrites it) and taken
    back at the pieces the step wrote, which tile it; the idle output buffer goes through untouched. -/
theorem sound_body1_A (c : Dev nD) (t : Fin cfg1.N) (h0 : t.val % 12 = 0) (h1 : ¬t.val % 12 = 11) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t (fun h => h1 ((hcond1_1 t).mp h))) (noFlush1_4 t (fun h => h1 ((hcond1_1 t).mp h)))]
  rw [outsAt1_A V c t h0 h1]
  unfold sout1_A_0; (try dsimp only)
  rw [PhiS1_castSucc V c t]
  iintro ⟨HP, Ho, ⟨%d0, H0⟩, ⟨%d1, H1⟩, ⟨%d2, H2⟩, ⟨%d3, H3⟩, ⟨%d4, H4⟩⟩
  ihave ⟨⟨HS0, Hr⟩, Hg⟩ := (PhiS1_forget V c _ _) $$ HP
  iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  isplitl [HS0 Hr Hg]
  · isplitr [Hg]
    swap; · iexact Hg
    isplitl [HS0]
    · unfold owns; iexists _; isplitr
      swap; · iexact HS0
      ipureintro; exact View.read_writes_of_cover _ _ _ _ _ (scover1_A_0 c _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 4000000 in
/-- A middle step. The accumulator is handed over at what the point before left and taken back at the piece the step
    wrote; the idle output buffer goes through untouched. -/
theorem sound_body1_B (c : Dev nD) (t : Fin cfg1.N) (h0 : ¬t.val % 12 = 0) (h1 : ¬t.val % 12 = 11) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [Dat.leavesExact_idle (dat1 V c) 4 t (idleAt1_4 t (fun h => h1 ((hcond1_1 t).mp h))) (noFlush1_4 t (fun h => h1 ((hcond1_1 t).mp h)))]
  rw [outsAt1_B V c t h0 h1]
  unfold sout1_B_0; (try dsimp only)
  have hz : t.val ≠ 0 := fun e => h0 (by rw [e])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  isplitl [HS0 Hr Hg]
  · isplitr [Hg]
    swap; · iexact Hg
    isplitl [HS0]
    · unfold owns; iexists _; isplitr
      swap; · iexact HS0
      ipureintro; exact View.read_writes_of_cover _ _ _ _ _ (scover1_B_0 c _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  iexists _; iexact H4

set_option maxHeartbeats 4000000 in
/-- A last step. The output buffer is handed over at whatever it holds (the store covers it) and taken back at the stored
    piece; the accumulator is handed over at what the point before left and taken back at the piece the step wrote. -/
theorem sound_body1_C (c : Dev nD) (t : Fin cfg1.N) (h0 : ¬t.val % 12 = 0) (h1 : t.val % 12 = 11) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t ((hcond1_1 t).mpr h1)], after1_4]
  rw [outsAt1_C V c t h0 h1]
  unfold out1_C_4 sout1_C_0; (try dsimp only)
  have hz : t.val ≠ 0 := fun e => h0 (by rw [e])
  rw [PhiS1_castSucc V c t, PhiS1_pos V c _ _ hz]
  iintro ⟨⟨⟨HS0, Hr⟩, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hr Hg]
  · isplitr [Hg]
    swap; · iexact Hg
    isplitl [HS0]
    · unfold owns; iexists _; isplitr
      swap; · iexact HS0
      ipureintro; exact View.read_writes_of_cover _ _ _ _ _ (scover1_C_0 c _ _ _ _ _ _ _ _ _ _ _ _ _ _ _ _ _ _ _ _)
    iexact Hr
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c _ _ _ _ _ _ _ _ _ _ _ _ _ _ _ _ _ _ _ _)

/-- The body at any point: the point's number modulo 12 says which step it is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 12 = 0
  · exact sound_body1_A V c t h0 (by omega)
  · by_cases h1 : t.val % 12 = 11
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- At any position the invariant gives the class invariant back: the accumulator's named contents are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_forget V c _ _

theorem hout1 (c : Dev nD) : (dat1 V c).Φ (Fin.last cfg1.N) ⊢ Pipeline.ΦA spec1 c :=
  Phi_out1 V c _

end Cert.KernelIdeal.Gen

end
-- ==== Proof.KI.Run.lean ====
/-
  The launch of the whole program. @main is one stretch of 49 host operations (the three scale/zero-point tables are
  unpacked and negated, the activations are rounded to bf16), then the gate/up projection's region (pipeline 0), then
  the down projection's region (pipeline 1), then the return; nothing runs between the two regions or after the second.

  The buffer contents at the three boundaries are written as a fold from the launch memory: after the host stretch
  every buffer holds what the stretch computes from the launch contents; after a region its windows' arrays hold
  what the pipeline leaves (an input array as entered, the output array its write-backs folded in) and every other
  buffer what it held when the region was entered. Each pipeline's proof data is taken at its region's entry
  contents, so the second region reads the first one's result. The thread state between two segments is "every
  unscoped buffer at the boundary's contents, the generator register at some state, nothing owed".

  Read back through the fold, every argument array ends as launched (no host operation writes one; a region reads it
  through an input window or bypasses it), and the result array ends at what pipeline 1 leaves in its output window.
-/
import proofs.«405969_j49890340110676_2_alg».proof.Proof.KI.R0Frame
import proofs.«405969_j49890340110676_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretch writes -/

/-- No operation of the host stretch allocates a buffer. -/
theorem hostOps0_fresh_r : (hostOps0 : List (HloOp τ sig (Elt F))).Forall fun op => op.fresh = ∅ := by
  simp only [List.Forall]; repeat' constructor

/-- The references the host stretch writes, one per operation, in order: the 49 intermediate values. No argument and
    neither region's result is among them. -/
abbrev hostOps0_Wr : List (Ref sig .tc) :=
  [main_v0, main_c, main_v1, main_v2, main_v3, main_v4, main_v5, main_v6, main_v7, main_c_0, main_v8, main_v9, main_v10,
   main_v11, main_v12, main_v13, main_v14, main_c_1, main_v15, main_v16, main_v17, main_v18, main_v19, main_v20, main_v21,
   main_c_2, main_v22, main_v23, main_v24, main_v25, main_v26, main_v27, main_v28, main_c_3, main_v29, main_v30, main_v31,
   main_v32, main_v33, main_v34, main_v35, main_c_4, main_v36, main_v37, main_v38, main_v39, main_v40, main_v41, main_v42]

/-- Every operation of the stretch writes only a reference of that list. -/
theorem hostOps0_writes_r : (hostOps0 : List (HloOp τ sig (Elt F))).Forall fun op =>
    op.writes ⊆ (hostOps0_Wr.map (Proc.devRef (τ := τ) .tc)).toFinset := by
  simp only [List.Forall]
  repeat' apply And.intro
  all_goals
    simp only [StableHlo.nullary_writes, StableHlo.unary_writes, StableHlo.binary_writes, StableHlo.reshape_writes,
      Finset.singleton_subset_iff, List.mem_toFinset]
    exact List.mem_map_of_mem (by decide)

/-! ## The buffer contents at each boundary: a fold through @main -/

/-- Core c's buffers at launch. -/
abbrev W0 : Dev nD → Valuation τ sig (Elt F) := fun c b => (s₀ m ρ).mem ((c : Dev nD), b)
/-- After the host stretch: region 0's entry. -/
abbrev W1 : Dev nD → Valuation τ sig (Elt F) := fun c => StableHlo.after hostOps0 (W0 m ρ c)
/-- The same, read at the TensorCore's references: what pipeline 0's proof data is taken at. -/
abbrev V1 : (c : Dev nD) → (b : Ref sig .tc) → Buf (Elt F) ((c : Thread nD τ).loc b) := fun c b => W1 m ρ c b

/-- A reference the stretch does not write holds its launch contents at region 0's entry. -/
theorem W1_of (c : Dev nD) (r : Ref sig .tc) (h : r ∉ hostOps0_Wr) :
    W1 m ρ c (Proc.devRef .tc r) = W0 m ρ c (Proc.devRef .tc r) :=
  StableHlo.after_of_writes_sub hostOps0 _ hostOps0_writes_r h

/-- At region 0's exit: its eight arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references: region 0's exit is region 1's entry, so this is what pipeline 1's
    proof data is taken at. -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit, which is the return: its five arrays at what the pipeline leaves, every other buffer as
    entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched, the result at what pipeline 1 leaves

Pipeline 0's windows are, in order, the rounded activations, %arg1, %arg3, a negated table, %arg4, %arg6, a negated
table, and its result; pipeline 1's are pipeline 0's result, %arg7, %arg9, a negated table, and the program's result.
So %arg1, %arg3, %arg4, %arg6 are input windows 1, 2, 4, 5 of pipeline 0 and bypass pipeline 1; %arg7, %arg9 bypass
pipeline 0 and are input windows 1, 2 of pipeline 1; %arg0, %arg2, %arg5, %arg8 (read by the host stretch only) bypass
both. An input window's array ends as entered. -/

/-- An argument that is a window of neither region. -/
theorem W3_bypass (c : Dev nD) (r : Ref sig .tc) (h1 : ∀ w, Pipeline.arrRef spec1 w ≠ r) (h0 : ∀ w, Pipeline.arrRef spec0 w ≠ r)
    (hw : r ∉ hostOps0_Wr) : W3 m ρ c (Proc.devRef .tc r) = m ((c : Thread nD τ).loc r) :=
  calc W3 m ρ c (Proc.devRef .tc r)
    _ = W2 m ρ c (Proc.devRef .tc r) := W3_of_ne m ρ c r h1
    _ = W1 m ρ c (Proc.devRef .tc r) := W2_of_ne m ρ c r h0
    _ = W0 m ρ c (Proc.devRef .tc r) := W1_of m ρ c r hw
    _ = m ((c : Thread nD τ).loc r) := rfl

/-- An argument that is input window w of pipeline 0 and no window of pipeline 1. -/
theorem W3_in0 (c : Dev nD) (w : Fin cfg0.W) (hin : (cfg0.win w).isOut = false)
    (h1 : ∀ w', Pipeline.arrRef spec1 w' ≠ Pipeline.arrRef spec0 w) (hw : Pipeline.arrRef spec0 w ∉ hostOps0_Wr) :
    W3 m ρ c (Proc.devRef .tc (Pipeline.arrRef spec0 w)) = m ((c : Thread nD τ).loc (Pipeline.arrRef spec0 w)) :=
  calc W3 m ρ c (Proc.devRef .tc (Pipeline.arrRef spec0 w))
    _ = W2 m ρ c (Proc.devRef .tc (Pipeline.arrRef spec0 w)) := W3_of_ne m ρ c _ h1
    _ = W1 m ρ c (Proc.devRef .tc (Pipeline.arrRef spec0 w)) :=
        (W2_arr m ρ c w).trans (((dat0 (V1 m ρ) c).arrAt_in w hin _).trans (A_eq0 (V1 m ρ) c w))
    _ = W0 m ρ c (Proc.devRef .tc (Pipeline.arrRef spec0 w)) := W1_of m ρ c _ hw
    _ = m ((c : Thread nD τ).loc (Pipeline.arrRef spec0 w)) := rfl

/-- An argument that is no window of pipeline 0 and input window w of pipeline 1. -/
theorem W3_in1 (c : Dev nD) (w : Fin cfg1.W) (hin : (cfg1.win w).isOut = false)
    (h0 : ∀ w', Pipeline.arrRef spec0 w' ≠ Pipeline.arrRef spec1 w) (hw : Pipeline.arrRef spec1 w ∉ hostOps0_Wr) :
    W3 m ρ c (Proc.devRef .tc (Pipeline.arrRef spec1 w)) = m ((c : Thread nD τ).loc (Pipeline.arrRef spec1 w)) :=
  calc W3 m ρ c (Proc.devRef .tc (Pipeline.arrRef spec1 w))
    _ = W2 m ρ c (Proc.devRef .tc (Pipeline.arrRef spec1 w)) :=
        (W3_arr m ρ c w).trans (((dat1 (V2 m ρ) c).arrAt_in w hin _).trans (A_eq1 (V2 m ρ) c w))
    _ = W1 m ρ c (Proc.devRef .tc (Pipeline.arrRef spec1 w)) := W2_of_ne m ρ c _ h0
    _ = W0 m ρ c (Proc.devRef .tc (Pipeline.arrRef spec1 w)) := W1_of m ρ c _ hw
    _ = m ((c : Thread nD τ).loc (Pipeline.arrRef spec1 w)) := rfl

theorem W3_main_arg0 (c : Dev nD) : W3 m ρ c (Proc.devRef .tc main_arg0) = m ((c : Thread nD τ).loc main_arg0) :=
  W3_bypass m ρ c main_arg0 (by decide) (by decide) (by decide)
theorem W3_main_arg1 (c : Dev nD) : W3 m ρ c (Proc.devRef .tc main_arg1) = m ((c : Thread nD τ).loc main_arg1) :=
  W3_in0 m ρ c 1 rfl (by decide) (by decide)
theorem W3_main_arg2 (c : Dev nD) : W3 m ρ c (Proc.devRef .tc main_arg2) = m ((c : Thread nD τ).loc main_arg2) :=
  W3_bypass m ρ c main_arg2 (by decide) (by decide) (by decide)
theorem W3_main_arg3 (c : Dev nD) : W3 m ρ c (Proc.devRef .tc main_arg3) = m ((c : Thread nD τ).loc main_arg3) :=
  W3_in0 m ρ c 2 rfl (by decide) (by decide)
theorem W3_main_arg4 (c : Dev nD) : W3 m ρ c (Proc.devRef .tc main_arg4) = m ((c : Thread nD τ).loc main_arg4) :=
  W3_in0 m ρ c 4 rfl (by decide) (by decide)
theorem W3_main_arg5 (c : Dev nD) : W3 m ρ c (Proc.devRef .tc main_arg5) = m ((c : Thread nD τ).loc main_arg5) :=
  W3_bypass m ρ c main_arg5 (by decide) (by decide) (by decide)
theorem W3_main_arg6 (c : Dev nD) : W3 m ρ c (Proc.devRef .tc main_arg6) = m ((c : Thread nD τ).loc main_arg6) :=
  W3_in0 m ρ c 5 rfl (by decide) (by decide)
theorem W3_main_arg7 (c : Dev nD) : W3 m ρ c (Proc.devRef .tc main_arg7) = m ((c : Thread nD τ).loc main_arg7) :=
  W3_in1 m ρ c 1 rfl (by decide) (by decide)
theorem W3_main_arg8 (c : Dev nD) : W3 m ρ c (Proc.devRef .tc main_arg8) = m ((c : Thread nD τ).loc main_arg8) :=
  W3_bypass m ρ c main_arg8 (by decide) (by decide) (by decide)
theorem W3_main_arg9 (c : Dev nD) : W3 m ρ c (Proc.devRef .tc main_arg9) = m ((c : Thread nD τ).loc main_arg9) :=
  W3_in1 m ρ c 2 rfl (by decide) (by decide)

/-- The program's result is window 4 of pipeline 1: it ends at what that pipeline's write-backs leave. -/
theorem W3_main_v44 (c : Dev nD) : W3 m ρ c (Proc.devRef .tc main_v44) = (dat1 (V2 m ρ) c).arrAt 4 cfg1.N :=
  W3_arr m ρ c 4

/-! ## The proof data family and the thread state -/

/-- The prefetched tables' admissible contents: neither pipeline has a table. -/
abbrev adm : (p : Fin 2) → (pcfgs (F := F) p).Adm := fun p => (cfgs p).toPCfg_adm
/-- Both pipelines' proof data, each at its region's entry contents: pipeline 0 at what the host stretch leaves,
    pipeline 1 at what pipeline 0 leaves. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 :=
  iprop((∃ r, prngReg c r) ∗ ∃ W, owes (c : Thread nD τ) (0 : CellTallies nD τ sig Unit) W)

/-- The host stretch as a segment over the unscoped references, from the launch contents: it runs to those
    references at what the stretch computes, which is region 0's entry. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh_r) op h) (W0 m ρ) R

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without what the core owes: every unscoped buffer at the contents at the return, the
    generator register at some state. -/
abbrev Tₙ (c : Dev nD) : sProp 𝕄 :=
  iprop(StableHlo.held (c : Thread nD τ) (Pipeline.ucRefs τ sig) (W3 m ρ c) ∗ ∃ r, prngReg c r)

/-! ## The regions as segments

A region is entered from every unscoped buffer at its entry contents. Its windows' arrays are split out of them
(whole, at the full share, at the contents the proof data names) and put back at the exit at what the pipeline
leaves; the buffers that are no window bypass the region. The generator register and the scoped buffers no window
stages make the class invariant, from which the region's own invariant at the first point follows; at the last point
the region's invariant gives the class invariant back. Nothing is owed; the kernel has no semaphore of its own. -/

-- the library's region lemmas are stated over the pinned configuration, which is the printed one only after
-- unfolding definitions inside types
set_option backward.isDefEq.respectTransparency.types false in
/-- Region 0, the gate/up projection: entered at the host stretch's contents, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    refine BIBase.Entails.trans ?_ (hin0 (V1 m ρ) c)
    unfold Pipeline.ΦA
    iintro ⟨Hreg, -, Hscoped⟩
    isplitl [Hscoped]; · iexact Hscoped
    iexact Hreg
  hout c := by
    rw [Pipeline.ownSems0_none]
    refine (hout0 (V1 m ρ) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩
    iexists W; iexact Howes

-- the library's region lemmas are stated over the pinned configuration, which is the printed one only after
-- unfolding definitions inside types
set_option backward.isDefEq.respectTransparency.types false in
/-- Region 1, the down projection: entered at W2 (it reads region 0's result), left at W3, the contents at the
    return. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    refine BIBase.Entails.trans ?_ (hin1 (V2 m ρ) c)
    unfold Pipeline.ΦA
    iintro ⟨Hreg, -, Hscoped⟩
    isplitl [Hscoped]; · iexact Hscoped
    iexact Hreg
  hout c := by
    rw [Pipeline.ownSems0_none]
    refine (hout1 (V2 m ρ) c).trans ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Harr, Howes, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Howes with ⟨%W, -, Howes⟩
    iexists W; iexact Howes

/-! ## @main as segments, and the launch -/

/-- @main's three segments in order: the host stretch, the gate/up region, the down region. -/
abbrev segs : List (Pipeline.Seg (pcfgs (F := F)) adm (pdats m ρ) () defs₀ 𝒱₀ L lv) :=
  [ .host (hseg0 m ρ), .region (reg0 m ρ), .region (reg1 m ρ) ]

/-- @main is the run of the segments: it is the chain of its three items, and the segments' run is the same chain. -/
theorem main_run (c : Dev nD) : main (F := F) c = Pipeline.Seg.run (segs m ρ) :=
  (main_chain c).trans (by chain_rfl)

-- the library's region lemmas are stated over the pinned configuration, which is the printed one only after
-- unfolding definitions inside types
set_option backward.isDefEq.respectTransparency.types false in
/-- THE RUN. From any memory with zero counters, every weakly fair execution of @main on the TensorCores terminates,
    nothing faulting, and in every final state each unscoped buffer of each core holds the fold's last contents W3.
    The launch makes the first thread state on every core (the unscoped buffers at the launch contents, the generator
    register, nothing owed); the three segments chain by definition of their thread states; the last thread state,
    read against a final state, says what each buffer holds. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h => h)

/-- The ten argument arrays, read off the run's final state: each is unscoped, so it holds the fold's last contents,
    which are its launch contents. -/
theorem args_of_run {mem : (ℓ : Loc nD τ sig) → Buf (Elt F) ℓ} (c : Dev nD)
    (h : ∀ b ∈ Pipeline.ucRefs τ sig, mem (((c : Thread nD τ)).1, b) = W3 m ρ c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9) :=
  ⟨(h _ (mem_uc main_arg0 (by decide))).trans (W3_main_arg0 m ρ c),
   (h _ (mem_uc main_arg1 (by decide))).trans (W3_main_arg1 m ρ c),
   (h _ (mem_uc main_arg2 (by decide))).trans (W3_main_arg2 m ρ c),
   (h _ (mem_uc main_arg3 (by decide))).trans (W3_main_arg3 m ρ c),
   (h _ (mem_uc main_arg4 (by decide))).trans (W3_main_arg4 m ρ c),
   (h _ (mem_uc main_arg5 (by decide))).trans (W3_main_arg5 m ρ c),
   (h _ (mem_uc main_arg6 (by decide))).trans (W3_main_arg6 m ρ c),
   (h _ (mem_uc main_arg7 (by decide))).trans (W3_main_arg7 m ρ c),
   (h _ (mem_uc main_arg8 (by decide))).trans (W3_main_arg8 m ρ c),
   (h _ (mem_uc main_arg9 (by decide))).trans (W3_main_arg9 m ρ c)⟩

/-- THE FRAME: @main runs (terminates, nothing faulting) and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_run m ρ c (h c)) (run_all m ρ)

/-- THE RUN'S VALUE: @main runs, the result array ends at what pipeline 1's write-backs leave in its output window
    (the proof data taken at region 1's entry contents V2), and every argument array ends as launched. -/
theorem run_value : θ_run defs (onTc (τ := τ) (main (F := F))) ⟨m, fun _ => 0, ρ⟩ (fun r => ∀ c : Dev nD,
      r.2.mem ((c.tc : Thread nD τ).loc main_v44) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v44 (by decide))).trans (W3_main_v44 m ρ c), args_of_run m ρ c (h c)⟩) (run_all m ρ)

end Cert.KernelIdeal.Gen

end
-- ==== Proof.KI.Chunk.lean ====
/-
  The dequantized weight chunk as ONE function of the blocks it is built from, and one reduction step over it.
  A packed block holds eight 4-bit fields per 32-bit word, along the input dimension: row 8a + p of a group of 128
  rows is field p of word row a of the group's 16 word rows. A chunk of 1024 rows is eight such groups, group g scaled
  by row g of the scale block and shifted by row g of the bias block. A reduction step adds the activation block times
  the chunk to the accumulator.
-/
import proofs.«405969_j49890340110676_2_alg».proof.Proof.Gen.KernelIdeal.Skeleton

set_option maxRecDepth 16384

noncomputable section

namespace Cert.KernelIdeal.Gen

open Idealize.ShloMosaic Idealize.ShloMosaic.TcCoe

variable {F : FTy → Type} [FloatOps F]

/-- Field number s/4 of every word of a 16-row slab: arithmetic shift right by s bits, then the low four bits. -/
def nibs (s : BitVec 32) (blk : IVec S16x1024 32) : IVec S16x1024 32 :=
  andi (shrsi blk (broadcast S16x1024 s)) (broadcast S16x1024 15#32)

/-- One group of 128 dequantized rows: the eight fields of the slab's words interleaved along the rows (row 8a + p is
    field p of word row a), read as numbers, times the group's scale row plus its bias row. -/
def grp (blk : IVec S16x1024 32) (srow brow : FVec F S1x1024 .bf16) : FVec F S128x1024 .bf16 :=
  addf (mulf (sitofp .bf16 (shapeCast S128x1024 (concatenate S16x8x1024 1
      [⟨S16x1x1024, shapeCast S16x1x1024 (nibs 0#32 blk) shapeCasts_S16x1024_S16x1x1024⟩, ⟨S16x1x1024, shapeCast S16x1x1024 (nibs 4#32 blk) shapeCasts_S16x1024_S16x1x1024⟩, ⟨S16x1x1024, shapeCast S16x1x1024 (nibs 8#32 blk) shapeCasts_S16x1024_S16x1x1024⟩, ⟨S16x1x1024, shapeCast S16x1x1024 (nibs 12#32 blk) shapeCasts_S16x1024_S16x1x1024⟩, ⟨S16x1x1024, shapeCast S16x1x1024 (nibs 16#32 blk) shapeCasts_S16x1024_S16x1x1024⟩, ⟨S16x1x1024, shapeCast S16x1x1024 (nibs 20#32 blk) shapeCasts_S16x1024_S16x1x1024⟩, ⟨S16x1x1024, shapeCast S16x1x1024 (nibs 24#32 blk) shapeCasts_S16x1024_S16x1x1024⟩, ⟨S16x1x1024, shapeCast S16x1x1024 (nibs 28#32 blk) shapeCasts_S16x1024_S16x1x1024⟩]
      concatenates_S16x1x1024_S16x1x1024_S16x1x1024_S16x1x1024_S16x1x1024_S16x1x1024_S16x1x1024_S16x1x1024_S16x8x1024_d1) shapeCasts_S16x8x1024_S128x1024))
    (broadcastTo S128x1024 srow broadcasts_S1x1024_S128x1024)) (broadcastTo S128x1024 brow broadcasts_S1x1024_S128x1024)

/-- The dequantized chunk of 1024 rows: its eight groups one above the other. -/
def deqChunk (v5 : IVec S128x1024 32) (v7 v10 : FVec F S8x1024 .bf16) : FVec F S1024x1024 .bf16 :=
  concatenate S1024x1024 0
    [ ⟨S128x1024, grp (extractStridedSlice S16x1024 ![0, 0] v5 slices_S128x1024_o0_0_S16x1024) (extractStridedSlice S1x1024 ![0, 0] v7 slices_S8x1024_o0_0_S1x1024) (extractStridedSlice S1x1024 ![0, 0] v10 slices_S8x1024_o0_0_S1x1024)⟩,
      ⟨S128x1024, grp (extractStridedSlice S16x1024 ![16, 0] v5 slices_S128x1024_o16_0_S16x1024) (extractStridedSlice S1x1024 ![1, 0] v7 slices_S8x1024_o1_0_S1x1024) (extractStridedSlice S1x1024 ![1, 0] v10 slices_S8x1024_o1_0_S1x1024)⟩,
      ⟨S128x1024, grp (extractStridedSlice S16x1024 ![32, 0] v5 slices_S128x1024_o32_0_S16x1024) (extractStridedSlice S1x1024 ![2, 0] v7 slices_S8x1024_o2_0_S1x1024) (extractStridedSlice S1x1024 ![2, 0] v10 slices_S8x1024_o2_0_S1x1024)⟩,
      ⟨S128x1024, grp (extractStridedSlice S16x1024 ![48, 0] v5 slices_S128x1024_o48_0_S16x1024) (extractStridedSlice S1x1024 ![3, 0] v7 slices_S8x1024_o3_0_S1x1024) (extractStridedSlice S1x1024 ![3, 0] v10 slices_S8x1024_o3_0_S1x1024)⟩,
      ⟨S128x1024, grp (extractStridedSlice S16x1024 ![64, 0] v5 slices_S128x1024_o64_0_S16x1024) (extractStridedSlice S1x1024 ![4, 0] v7 slices_S8x1024_o4_0_S1x1024) (extractStridedSlice S1x1024 ![4, 0] v10 slices_S8x1024_o4_0_S1x1024)⟩,
      ⟨S128x1024, grp (extractStridedSlice S16x1024 ![80, 0] v5 slices_S128x1024_o80_0_S16x1024) (extractStridedSlice S1x1024 ![5, 0] v7 slices_S8x1024_o5_0_S1x1024) (extractStridedSlice S1x1024 ![5, 0] v10 slices_S8x1024_o5_0_S1x1024)⟩,
      ⟨S128x1024, grp (extractStridedSlice S16x1024 ![96, 0] v5 slices_S128x1024_o96_0_S16x1024) (extractStridedSlice S1x1024 ![6, 0] v7 slices_S8x1024_o6_0_S1x1024) (extractStridedSlice S1x1024 ![6, 0] v10 slices_S8x1024_o6_0_S1x1024)⟩,
      ⟨S128x1024, grp (extractStridedSlice S16x1024 ![112, 0] v5 slices_S128x1024_o112_0_S16x1024) (extractStridedSlice S1x1024 ![7, 0] v7 slices_S8x1024_o7_0_S1x1024) (extractStridedSlice S1x1024 ![7, 0] v10 slices_S8x1024_o7_0_S1x1024)⟩ ]
    concatenates_S128x1024_S128x1024_S128x1024_S128x1024_S128x1024_S128x1024_S128x1024_S128x1024_S1024x1024_d0

/-- One reduction step: the accumulator plus the activation block times the chunk. -/
def accStep (x : FVec F S2048x1024 .bf16) (w : FVec F S1024x1024 .bf16) (acc : FVec F S2048x1024 .f32) : FVec F S2048x1024 .f32 :=
  shapeCast S2048x1024 (addf acc (matmul dot_S2048x1024_S1024x1024_S2048x1024_1_0_0_1_n_n none x w (constant S2048x1024 .f32 0x00000000#32))) shapeCasts_S2048x1024_S2048x1024

end Cert.KernelIdeal.Gen

end
-- ==== Proof.KI.R0Pieces.lean ====
/-
  What the gate/up body leaves, case by case, as ONE function of the blocks it loads: each accumulator is the
  accumulator before (the zero block at the first reduction step) plus the activation block times the dequantized
  weight chunk; at the last step the output block is silu(gate) * up of the two accumulators just written.
-/
import proofs.«405969_j49890340110676_2_alg».proof.Proof.KI.R0Frame
import proofs.«405969_j49890340110676_2_alg».proof.Proof.KI.Chunk
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

set_option hygiene false in
/-- The one argument of this module. What a case leaves in a buffer is the payload of its last whole-buffer store:
    the pieces read back are their canonical contents (they cover the buffer); the run's witness is opened; a load of
    a whole staging buffer is its contents, a load of the accumulator after a store is what was stored; and the
    payload so reached is, by unfolding the printed payloads' names, the canonical step over the loaded blocks. -/
local macro "piece_value " cov:term " of " run:ident : tactic =>
  `(tactic| (
    rw [View.read_writes_eq_canon _ _ _ $cov]
    unfold $run
    dsimp only
    sl_unfold_words
    first | rw [View.canon_unit_zero hz2] | rw [View.canon_cons_unit_zero (S := S2048x1024) hz2]
    simp only [View.readCov_unit_zero (S := S2048x1024) _ hz2, View.readAt_eq_ld, harg3.read_unread, harg4.read_unread, harg5.read_unread, harg6.read_unread, harg7.read_unread, harg8.read_unread, harg9.read_unread, harg10.read_unread, harg11.read_unread, harg12.read_unread, View.ld_unit_zero (S := S2048x1024) hz2, View.ld_unit_zero (S := S128x1024) hz2, View.ld_unit_zero (S := S8x1024) hz2]
    rfl))

set_option maxHeartbeats 2000000 in
/-- At the first reduction step the gate accumulator is the zero block plus its product. -/
theorem sout0_A_0_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = accStep (k0_pay4 x0) (deqChunk x1 (k0_pay5 x2) (k0_pay6 x3)) k0_pay2 := by
  unfold sout0_A_0
  piece_value (scover0_A_0 c i arg3 harg3 arg4 harg4 arg5 harg5 arg6 harg6 arg7 harg7 arg8 harg8 arg9 harg9 arg10 harg10 arg11 harg11 arg12 harg12 hc0 hc1 x0 x1 x2 x3 x4 x5 x6) of kernelRun0_A

set_option maxHeartbeats 2000000 in
/-- At the first reduction step the up accumulator is the zero block plus its product. -/
theorem sout0_A_1_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6 = accStep (k0_pay4 x0) (deqChunk x4 (k0_pay54 x5) (k0_pay55 x6)) k0_pay3 := by
  unfold sout0_A_1
  piece_value (scover0_A_1 c i arg3 harg3 arg4 harg4 arg5 harg5 arg6 harg6 arg7 harg7 arg8 harg8 arg9 harg9 arg10 harg10 arg11 harg11 arg12 harg12 hc0 hc1 x0 x1 x2 x3 x4 x5 x6) of kernelRun0_A

set_option maxHeartbeats 2000000 in
/-- At a middle reduction step the gate accumulator is what it held plus its product. -/
theorem sout0_B_0_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1 = accStep (k0_pay4 x0) (deqChunk x1 (k0_pay5 x2) (k0_pay6 x3)) xs0 := by
  unfold sout0_B_0
  piece_value (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1) of kernelRun0_B

set_option maxHeartbeats 2000000 in
/-- At a middle reduction step the up accumulator is what it held plus its product. -/
theorem sout0_B_1_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : ¬cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1 = accStep (k0_pay4 x0) (deqChunk x4 (k0_pay54 x5) (k0_pay55 x6)) xs1 := by
  unfold sout0_B_1
  piece_value (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1) of kernelRun0_B

set_option maxHeartbeats 2000000 in
/-- At the last reduction step the gate accumulator is what it held plus its product. -/
theorem sout0_C_0_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1 = accStep (k0_pay4 x0) (deqChunk x1 (k0_pay5 x2) (k0_pay6 x3)) xs0 := by
  unfold sout0_C_0
  piece_value (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1) of kernelRun0_C

set_option maxHeartbeats 2000000 in
/-- At the last reduction step the up accumulator is what it held plus its product. -/
theorem sout0_C_1_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1 = accStep (k0_pay4 x0) (deqChunk x4 (k0_pay54 x5) (k0_pay55 x6)) xs1 := by
  unfold sout0_C_1
  piece_value (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1) of kernelRun0_C

set_option maxHeartbeats 2000000 in
/-- At the last reduction step the output block is the stored payload, silu(gate) * up, of the two accumulators
    that step leaves. -/
theorem out0_C_7_eq (c : Dev nD) (i : grid0.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S128x1024 .i32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S2048x1024 .bf16) (harg10 : arg10.IsWhole) (arg11 : Memref sig .tc .vmem S2048x1024 .f32) (harg11 : arg11.IsWhole) (arg12 : Memref sig .tc .vmem S2048x1024 .f32) (harg12 : arg12.IsWhole)
    (hc0 : ¬cond0_0 i) (hc1 : cond0_1 i) (x0 : Vec F S2048x1024 .bf16) (x1 : Vec F S128x1024 .i32) (x2 : Vec F S8x1024 .f32) (x3 : Vec F S8x1024 .f32) (x4 : Vec F S128x1024 .i32) (x5 : Vec F S8x1024 .f32) (x6 : Vec F S8x1024 .f32) (xs0 xs1 : Vec F S2048x1024 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1 = k0_pay1 (accStep (k0_pay4 x0) (deqChunk x1 (k0_pay5 x2) (k0_pay6 x3)) xs0) (accStep (k0_pay4 x0) (deqChunk x4 (k0_pay54 x5) (k0_pay55 x6)) xs1) := by
  unfold out0_C_7
  piece_value (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1) of kernelRun0_C

end Cert.KernelIdeal.Gen

end
-- ==== Proof.KI.Spec.lean ====
/-
  What both programs compute, as mathematics over the extended reals.

  A packed weight matrix holds eight 4-bit fields per 32-bit word along the INPUT dimension (field p of word row a is
  weight row 8a + p); the zero points are packed eight per word along the OUTPUT dimension (field p of word column b
  is the zero point of column 8b + p); scales and zero points are shared by groups of 128 consecutive input rows.
  The reference dequantizes as (q - z) * s, with the difference taken on integers; the kernel as q * s + (-(z * s)),
  the bias -(z * s) computed beforehand. The two agree wherever the scale is a real number (no infinity).
  The layer is  out = (silu(x Wg) * (x Wu)) Wd,  silu(g) = g * logistic(g).

  Arrays are read at natural-number coordinates (reading outside an array gives the default value, which no statement
  below ever meets): a block's offset arithmetic is then plain arithmetic on numbers, and sums are over ranges.
-/
import Idealize.ShloMosaic.PureOps.Ideal
import Idealize.ShloMosaic.Lib.ValueIdx

noncomputable section

namespace Cert.Spec

open Idealize.ShloMosaic ValueIdx

/-- A rank-2 shape. -/
abbrev M (r c : ℕ) : Shape := ⟨2, ![r, c]⟩

/-- An array read at natural-number coordinates. -/
def at2 {α : Type} [Inhabited α] {R C : ℕ} (X : (M R C).Idx → α) (r c : ℕ) : α :=
  if h : r < R ∧ c < C then X (ix2 ⟨r, h.1⟩ ⟨c, h.2⟩) else default

theorem at2_ix {α : Type} [Inhabited α] {R C : ℕ} (X : (M R C).Idx → α) (r : Fin R) (c : Fin C) :
    at2 X r.val c.val = X (ix2 r c) := by
  unfold at2; rw [dif_pos ⟨r.isLt, c.isLt⟩]

/-- The 4-bit field of a word starting at bit `s`: arithmetic shift right, then the low four bits. -/
def nib (w s : BitVec 32) : BitVec 32 := (w.sshiftRight' s) &&& 15#32

/-- The shift amount of field number `p`. -/
def sh4 (p : ℕ) : BitVec 32 := BitVec.ofNat 32 (4 * p)

/-- A word read as a signed integer, as an extended real. -/
def toE (w : BitVec 32) : EReal := ((w.toInt : ℝ) : EReal)

/-- The quantized weight at input row `r`, output column `c`: field r % 8 of word row r / 8. -/
def qAt {R8 N : ℕ} (QW : (M R8 N).Idx → BitVec 32) (r c : ℕ) : BitVec 32 := nib (at2 QW (r / 8) c) (sh4 (r % 8))

/-- The zero point of group row `g`, output column `c`: field c % 8 of word column c / 8. -/
def zAt {G N8 : ℕ} (QZ : (M G N8).Idx → BitVec 32) (g c : ℕ) : BitVec 32 := nib (at2 QZ g (c / 8)) (sh4 (c % 8))

/-- The kernel's bias: minus (zero point times scale). -/
def biasAt {G N8 N : ℕ} (QZ : (M G N8).Idx → BitVec 32) (SC : (M G N).Idx → EReal) (g c : ℕ) : EReal :=
  -(toE (zAt QZ g c) * at2 SC g c)

/-- The kernel's dequantized weight: q * s + bias. -/
def wKer {R8 G N8 N : ℕ} (QW : (M R8 N).Idx → BitVec 32) (QZ : (M G N8).Idx → BitVec 32) (SC : (M G N).Idx → EReal) (r c : ℕ) : EReal :=
  toE (qAt QW r c) * at2 SC (r / 128) c + biasAt QZ SC (r / 128) c

/-- The reference's dequantized weight: (q - z) * s, the difference on 32-bit integers. -/
def wRef {R8 G N8 N : ℕ} (QW : (M R8 N).Idx → BitVec 32) (QZ : (M G N8).Idx → BitVec 32) (SC : (M G N).Idx → EReal) (r c : ℕ) : EReal :=
  toE (qAt QW r c - zAt QZ (r / 128) c) * at2 SC (r / 128) c

/-- A product x W at (a, c), the contraction over K input rows. -/
def proj {T K0 : ℕ} (K : ℕ) (X : (M T K0).Idx → EReal) (W : ℕ → ℕ → EReal) (a c : ℕ) : EReal :=
  ∑ r ∈ Finset.range K, at2 X a r * W r c

/-- silu(g) * u, in the programs' order of multiplication. -/
def swi (g u : EReal) : EReal := g * Ideal.logistic g * u

/-- The whole layer with weight matrices Wg, Wu, Wd (as functions of row and column). -/
def mlp {T K0 : ℕ} (X : (M T K0).Idx → EReal) (Wg Wu Wd : ℕ → ℕ → EReal) (a b : ℕ) : EReal :=
  ∑ r ∈ Finset.range 12288, swi (proj 4096 X Wg a r) (proj 4096 X Wu a r) * Wd r b

end Cert.Spec

end
-- ==== Proof.KI.ChunkApply.lean ====
/-
  The dequantized weight chunk and one reduction step, read at one entry.

  Entry (r, c) of the chunk is field r % 8 of word (r / 8, c) of the packed block, read as a signed number, times the
  scale at (r / 128, c) plus the bias at (r / 128, c): row r of the chunk is row r % 128 of group r / 128, row 8a + p
  of a group is field p of word row a of the group's sixteen word rows, and the group's word rows are rows 16g … 16g + 15
  of the packed block. Entry (a, b) of a reduction step is the accumulator's entry plus the sum over the chunk's 1024 rows
  of activation times weight.
-/
import proofs.«405969_j49890340110676_2_alg».proof.Proof.KI.Chunk
import proofs.«405969_j49890340110676_2_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe
open Cert.Spec Idealize.ShloMosaic.ValueIdx

/-- A field of every word of a slab, read at one word: for a shift below 32 it is the field of that word. -/
theorem nibs_apply (s : BitVec 32) (hs : s.toNat < 32) (blk : IVec S16x1024 32) (i : S16x1024.Idx) :
    nibs s blk i = nib (blk i) s := by
  show IntOp.andi (IntOp.shrsi .vector (blk i) s) 15#32 = nib (blk i) s
  unfold IntOp.andi IntOp.shrsi nib
  rw [if_pos hs]

/-- A slab with a unit middle axis inserted reads, at (a, 0, c), the slab at (a, c). -/
theorem cast_mid_apply (x : IVec S16x1024 32) (a : Fin 16) (u : Fin 1) (c : Fin 1024) :
    shapeCast S16x1x1024 x shapeCasts_S16x1024_S16x1x1024 (ix3 a u c) = x (ix2 a c) :=
  shapeCast_apply x _ _ _ (by
    have hu : u.val = 0 := by omega
    rw [Shape.rowMajor_val_three, Shape.rowMajor_val_two]
    show a.val * 1024 + c.val = (a.val * 1 + u.val) * 1024 + c.val
    rw [hu]; omega)

/-- Sixteen-by-eight rows flattened to 128 rows: row 8a + p is (a, p). -/
theorem cast_flat_apply (x : IVec S16x8x1024 32) (a : Fin 16) (p : Fin 8) (c : Fin 1024) (h : 8 * a.val + p.val < 128) :
    shapeCast S128x1024 x shapeCasts_S16x8x1024_S128x1024 (ix2 (⟨8 * a.val + p.val, h⟩ : Fin 128) c) = x (ix3 a p c) :=
  shapeCast_apply x _ _ _ (by
    rw [Shape.rowMajor_val_three, Shape.rowMajor_val_two]
    show (a.val * 8 + p.val) * 1024 + c.val = (8 * a.val + p.val) * 1024 + c.val
    omega)

/-- Off the middle axis, (a, 0, c) and (a, p, c) have the same coordinates. -/
theorem off_axis1 (a : Fin 16) (p : Fin 8) (c : Fin 1024) (b : Fin S16x1x1024.rank) (hb : b.cast (rfl : S16x1x1024.rank = S16x8x1024.rank) ≠ (1 : Fin S16x8x1024.rank)) :
    ((ix3 a (0 : Fin 1) c : S16x1x1024.Idx) b).val = ((ix3 a p c : S16x8x1024.Idx) (b.cast rfl)).val :=
  match b, hb with
  | ⟨0, _⟩, _ => rfl
  | ⟨1, _⟩, hb => absurd rfl hb
  | ⟨2, _⟩, _ => rfl

/-- Eight slabs with a unit middle axis laid side by side along it: at (a, p, c) the result is slab p at (a, 0, c). -/
theorem cat8_apply (f : Fin 8 → IVec S16x1x1024 32) (a : Fin 16) (p : Fin 8) (c : Fin 1024) :
    concatenate S16x8x1024 1
      [⟨S16x1x1024, f 0⟩, ⟨S16x1x1024, f 1⟩, ⟨S16x1x1024, f 2⟩, ⟨S16x1x1024, f 3⟩, ⟨S16x1x1024, f 4⟩, ⟨S16x1x1024, f 5⟩, ⟨S16x1x1024, f 6⟩, ⟨S16x1x1024, f 7⟩]
      concatenates_S16x1x1024_S16x1x1024_S16x1x1024_S16x1x1024_S16x1x1024_S16x1x1024_S16x1x1024_S16x1x1024_S16x8x1024_d1 (ix3 a p c) = f p (ix3 a (0 : Fin 1) c) := by
  match p with
  | ⟨0, _⟩ =>
    exact concatenate_apply_piece (1 : Fin S16x8x1024.rank) _ _ (ix3 a _ c) 0 (by simp) S16x1x1024 (f 0) rfl rfl 0 rfl
      (ix3 a (0 : Fin 1) c) (off_axis1 a _ c) rfl
  | ⟨1, _⟩ =>
    exact concatenate_apply_piece (1 : Fin S16x8x1024.rank) _ _ (ix3 a _ c) 1 (by simp) S16x1x1024 (f 1) rfl rfl 1 rfl
      (ix3 a (0 : Fin 1) c) (off_axis1 a _ c) rfl
  | ⟨2, _⟩ =>
    exact concatenate_apply_piece (1 : Fin S16x8x1024.rank) _ _ (ix3 a _ c) 2 (by simp) S16x1x1024 (f 2) rfl rfl 2 rfl
      (ix3 a (0 : Fin 1) c) (off_axis1 a _ c) rfl
  | ⟨3, _⟩ =>
    exact concatenate_apply_piece (1 : Fin S16x8x1024.rank) _ _ (ix3 a _ c) 3 (by simp) S16x1x1024 (f 3) rfl rfl 3 rfl
      (ix3 a (0 : Fin 1) c) (off_axis1 a _ c) rfl
  | ⟨4, _⟩ =>
    exact concatenate_apply_piece (1 : Fin S16x8x1024.rank) _ _ (ix3 a _ c) 4 (by simp) S16x1x1024 (f 4) rfl rfl 4 rfl
      (ix3 a (0 : Fin 1) c) (off_axis1 a _ c) rfl
  | ⟨5, _⟩ =>
    exact concatenate_apply_piece (1 : Fin S16x8x1024.rank) _ _ (ix3 a _ c) 5 (by simp) S16x1x1024 (f 5) rfl rfl 5 rfl
      (ix3 a (0 : Fin 1) c) (off_axis1 a _ c) rfl
  | ⟨6, _⟩ =>
    exact concatenate_apply_piece (1 : Fin S16x8x1024.rank) _ _ (ix3 a _ c) 6 (by simp) S16x1x1024 (f 6) rfl rfl 6 rfl
      (ix3 a (0 : Fin 1) c) (off_axis1 a _ c) rfl
  | ⟨7, _⟩ =>
    exact concatenate_apply_piece (1 : Fin S16x8x1024.rank) _ _ (ix3 a _ c) 7 (by simp) S16x1x1024 (f 7) rfl rfl 7 rfl
      (ix3 a (0 : Fin 1) c) (off_axis1 a _ c) rfl

/-- The shift amount of a field number below 8 is below 32. -/
theorem sh4_lt (p : Fin 8) : (sh4 p.val).toNat < 32 := by
  unfold sh4
  rw [BitVec.toNat_ofNat]
  have := p.isLt
  omega

/-- One group of 128 dequantized rows at row 8a + p, column c: field p of word (a, c) of the slab, read as a signed
    number, times the scale row at c plus the bias row at c. -/
theorem grp_apply (blk : IVec S16x1024 32) (srow brow : FVec Ideal S1x1024 .bf16) (a : Fin 16) (p : Fin 8) (c : Fin 1024)
    (h : 8 * a.val + p.val < 128) :
    grp (F := Ideal) blk srow brow (ix2 (⟨8 * a.val + p.val, h⟩ : Fin 128) c)
      = toE (nib (blk (ix2 a c)) (sh4 p.val)) * srow (ix2 (0 : Fin 1) c) + brow (ix2 (0 : Fin 1) c) := by
  unfold grp
  rw [addf_apply, mulf_apply, sitofp_apply, broadcastTo_1b_ab_apply, broadcastTo_1b_ab_apply, cast_flat_apply]
  erw [cat8_apply (fun q : Fin 8 => shapeCast S16x1x1024 (nibs (sh4 q.val) blk) shapeCasts_S16x1024_S16x1x1024) a p c]
  rw [cast_mid_apply, nibs_apply _ (sh4_lt p)]
  rfl

/-- Off the row axis, (m, c) of a group and (r, c) of the chunk have the same coordinate. -/
theorem off_axis0 (m : Fin 128) (r : Fin 1024) (c : Fin 1024) (b : Fin S128x1024.rank) (hb : b.cast (rfl : S128x1024.rank = S1024x1024.rank) ≠ (0 : Fin S1024x1024.rank)) :
    ((ix2 m c : S128x1024.Idx) b).val = ((ix2 r c : S1024x1024.Idx) (b.cast rfl)).val :=
  match b, hb with
  | ⟨0, _⟩, hb => absurd rfl hb
  | ⟨1, _⟩, _ => rfl

/-- Eight groups of 128 rows one above the other: row 128g + m of the result is row m of group g. -/
theorem cat8rows_apply (f : Fin 8 → FVec Ideal S128x1024 .bf16) (g : Fin 8) (m : Fin 128) (c : Fin 1024) (h : 128 * g.val + m.val < 1024) :
    concatenate S1024x1024 0
      [⟨S128x1024, f 0⟩, ⟨S128x1024, f 1⟩, ⟨S128x1024, f 2⟩, ⟨S128x1024, f 3⟩, ⟨S128x1024, f 4⟩, ⟨S128x1024, f 5⟩, ⟨S128x1024, f 6⟩, ⟨S128x1024, f 7⟩]
      concatenates_S128x1024_S128x1024_S128x1024_S128x1024_S128x1024_S128x1024_S128x1024_S128x1024_S1024x1024_d0 (ix2 (⟨128 * g.val + m.val, h⟩ : Fin 1024) c) = f g (ix2 m c) := by
  match g with
  | ⟨0, _⟩ =>
    exact concatenate_apply_piece (0 : Fin S1024x1024.rank) _ _ (ix2 _ c) 0 (by simp) S128x1024 (f 0) rfl rfl 0 rfl
      (ix2 m c) (off_axis0 m _ c) rfl
  | ⟨1, _⟩ =>
    exact concatenate_apply_piece (0 : Fin S1024x1024.rank) _ _ (ix2 _ c) 1 (by simp) S128x1024 (f 1) rfl rfl 128 rfl
      (ix2 m c) (off_axis0 m _ c) rfl
  | ⟨2, _⟩ =>
    exact concatenate_apply_piece (0 : Fin S1024x1024.rank) _ _ (ix2 _ c) 2 (by simp) S128x1024 (f 2) rfl rfl 256 rfl
      (ix2 m c) (off_axis0 m _ c) rfl
  | ⟨3, _⟩ =>
    exact concatenate_apply_piece (0 : Fin S1024x1024.rank) _ _ (ix2 _ c) 3 (by simp) S128x1024 (f 3) rfl rfl 384 rfl
      (ix2 m c) (off_axis0 m _ c) rfl
  | ⟨4, _⟩ =>
    exact concatenate_apply_piece (0 : Fin S1024x1024.rank) _ _ (ix2 _ c) 4 (by simp) S128x1024 (f 4) rfl rfl 512 rfl
      (ix2 m c) (off_axis0 m _ c) rfl
  | ⟨5, _⟩ =>
    exact concatenate_apply_piece (0 : Fin S1024x1024.rank) _ _ (ix2 _ c) 5 (by simp) S128x1024 (f 5) rfl rfl 640 rfl
      (ix2 m c) (off_axis0 m _ c) rfl
  | ⟨6, _⟩ =>
    exact concatenate_apply_piece (0 : Fin S1024x1024.rank) _ _ (ix2 _ c) 6 (by simp) S128x1024 (f 6) rfl rfl 768 rfl
      (ix2 m c) (off_axis0 m _ c) rfl
  | ⟨7, _⟩ =>
    exact concatenate_apply_piece (0 : Fin S1024x1024.rank) _ _ (ix2 _ c) 7 (by simp) S128x1024 (f 7) rfl rfl 896 rfl
      (ix2 m c) (off_axis0 m _ c) rfl

/-- Sixteen word rows starting at word row 16g lie inside the packed block's 128 word rows. -/
theorem slab_slices (g : Fin 8) : S128x1024.Slices ![16 * g.val, 0] S16x1024 :=
  ⟨rfl, fun a => match a with
    | ⟨0, _⟩ => by show 16 * g.val + 16 ≤ 128; omega
    | ⟨1, _⟩ => by show 0 + 1024 ≤ 1024; omega⟩

/-- Row g lies inside the eight rows of the scale and bias blocks. -/
theorem row_slices (g : Fin 8) : S8x1024.Slices ![g.val, 0] S1x1024 :=
  ⟨rfl, fun a => match a with
    | ⟨0, _⟩ => by show g.val + 1 ≤ 8; omega
    | ⟨1, _⟩ => by show 0 + 1024 ≤ 1024; omega⟩

/-- The chunk at row 128g + m, column c, by the group number g and the row m within the group. -/
theorem deqChunk_apply_gm (v5 : IVec S128x1024 32) (v7 v10 : FVec Ideal S8x1024 .bf16) (g : Fin 8) (m : Fin 128) (c : Fin 1024)
    (h : 128 * g.val + m.val < 1024) (h8 : 16 * g.val + m.val / 8 < 128) :
    deqChunk (F := Ideal) v5 v7 v10 (ix2 (⟨128 * g.val + m.val, h⟩ : Fin 1024) c)
      = toE (nib (v5 (ix2 (⟨16 * g.val + m.val / 8, h8⟩ : Fin 128) c)) (sh4 (m.val % 8))) * v7 (ix2 g c) + v10 (ix2 g c) := by
  unfold deqChunk
  erw [cat8rows_apply (fun q : Fin 8 => grp (F := Ideal) (extractStridedSlice S16x1024 ![16 * q.val, 0] v5 (slab_slices q))
    (extractStridedSlice S1x1024 ![q.val, 0] v7 (row_slices q)) (extractStridedSlice S1x1024 ![q.val, 0] v10 (row_slices q))) g m c h]
  have hm : (ix2 m c : S128x1024.Idx)
      = ix2 (⟨8 * (⟨m.val / 8, by omega⟩ : Fin 16).val + (⟨m.val % 8, by omega⟩ : Fin 8).val, by show 8 * (m.val / 8) + m.val % 8 < 128; omega⟩ : Fin 128) c :=
    congrArg (fun z : Fin 128 => (ix2 z c : S128x1024.Idx)) (Fin.ext (by show m.val = 8 * (m.val / 8) + m.val % 8; omega))
  rw [hm, grp_apply]
  rw [slice2_axis0_apply (16 * g.val) v5 _ (⟨m.val / 8, by omega⟩ : Fin 16) c (⟨16 * g.val + m.val / 8, h8⟩ : Fin 128) rfl,
    slice2_axis0_apply g.val v7 _ (0 : Fin 1) c g rfl, slice2_axis0_apply g.val v10 _ (0 : Fin 1) c g rfl]

/-- The chunk at row r, column c: field r % 8 of word (r / 8, c), read as a signed number, times the scale at
    (r / 128, c) plus the bias at (r / 128, c). -/
theorem deqChunk_apply (v5 : IVec S128x1024 32) (v7 v10 : FVec Ideal S8x1024 .bf16) (r c : Fin 1024) :
    deqChunk (F := Ideal) v5 v7 v10 (ix2 r c)
      = toE (nib (v5 (ix2 (⟨r.val / 8, by omega⟩ : Fin 128) c)) (sh4 (r.val % 8))) * v7 (ix2 (⟨r.val / 128, by omega⟩ : Fin 8) c)
        + v10 (ix2 (⟨r.val / 128, by omega⟩ : Fin 8) c) := by
  have hr : (ix2 r c : S1024x1024.Idx)
      = ix2 (⟨128 * (⟨r.val / 128, by omega⟩ : Fin 8).val + (⟨r.val % 128, by omega⟩ : Fin 128).val,
          by show 128 * (r.val / 128) + r.val % 128 < 1024; omega⟩ : Fin 1024) c :=
    congrArg (fun z : Fin 1024 => (ix2 z c : S1024x1024.Idx)) (Fin.ext (by show r.val = 128 * (r.val / 128) + r.val % 128; omega))
  have h8 : 16 * (r.val / 128) + r.val % 128 / 8 < 128 := by omega
  rw [hr, deqChunk_apply_gm v5 v7 v10 _ _ c _ h8]
  have h1 : (⟨16 * (r.val / 128) + r.val % 128 / 8, h8⟩ : Fin 128) = ⟨r.val / 8, by omega⟩ := Fin.ext (by show 16 * (r.val / 128) + r.val % 128 / 8 = r.val / 8; omega)
  have h2 : r.val % 128 % 8 = r.val % 8 := by omega
  show toE (nib (v5 (ix2 (⟨16 * (r.val / 128) + r.val % 128 / 8, h8⟩ : Fin 128) c)) (sh4 (r.val % 128 % 8))) * _ + _ = _
  rw [h1, h2]

/-- The product's left operand index at output (a, b) and contraction index q has row a. -/
theorem acc_lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- … and column q. -/
theorem acc_lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- The right operand index has row q … -/
theorem acc_rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- … and column b. -/
theorem acc_rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- One reduction step at (a, b): the accumulator's entry plus the sum over the chunk's rows of activation times weight. -/
theorem accStep_apply (x : FVec Ideal S2048x1024 .bf16) (w : FVec Ideal S1024x1024 .bf16) (acc : FVec Ideal S2048x1024 .f32)
    (a : Fin 2048) (b : Fin 1024) :
    accStep (F := Ideal) x w acc (ix2 a b) = acc (ix2 a b) + ∑ r : Fin 1024, x (ix2 a r) * w (ix2 r b) := by
  unfold accStep
  rw [shapeCast_self, addf_apply]
  refine congrArg (acc (ix2 a b) + ·) ?_
  refine (Ideal.matmul_constant_zero_apply dot_S2048x1024_S1024x1024_S2048x1024_1_0_0_1_n_n none x w (ix2 a b)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 a b) ((contrEquiv1 dot_S2048x1024_S1024x1024_S2048x1024_1_0_0_1_n_n 1024 rfl rfl).symm k) = ix2 a k := funext fun ax => Fin.ext (by
    match ax with
    | ⟨0, _⟩ => exact acc_lhs_0 _ _
    | ⟨1, _⟩ => exact (acc_lhs_1 _ _).trans hk)
  have er : dot_S2048x1024_S1024x1024_S2048x1024_1_0_0_1_n_n.rhsIdx (ix2 a b) ((contrEquiv1 dot_S2048x1024_S1024x1024_S2048x1024_1_0_0_1_n_n 1024 rfl rfl).symm k) = ix2 k b := funext fun ax => Fin.ext (by
    match ax with
    | ⟨0, _⟩ => exact (acc_rhs_0 _ _).trans hk
    | ⟨1, _⟩ => exact acc_rhs_1 _ _)
  rw [el, er]

end Cert.KernelIdeal.Gen

end
-- ==== Proof.KI.SpecB.lean ====
/-
  The kernel's dequantized weight with the bias read from an ARRAY (what the kernels consume: the bias is an input
  block), and its identification with the closed form once the array is known to hold minus zero point times scale.
-/
import proofs.«405969_j49890340110676_2_alg».proof.Proof.KI.Spec

noncomputable section

namespace Cert.Spec

open Idealize.ShloMosaic ValueIdx

/-- q * s + b, the bias b read from an array of the scales' shape. -/
def wKerB {R8 G N : ℕ} (QW : (M R8 N).Idx → BitVec 32) (SC B : (M G N).Idx → EReal) (r c : ℕ) : EReal :=
  toE (qAt QW r c) * at2 SC (r / 128) c + at2 B (r / 128) c

theorem wKerB_eq_wKer {R8 G N8 N : ℕ} (QW : (M R8 N).Idx → BitVec 32) (QZ : (M G N8).Idx → BitVec 32) (SC B : (M G N).Idx → EReal) (r c : ℕ)
    (hB : at2 B (r / 128) c = biasAt QZ SC (r / 128) c) : wKerB QW SC B r c = wKer QW QZ SC r c := by
  unfold wKerB wKer; rw [hB]

end Cert.Spec

end
-- ==== Proof.KI.Algebra.lean ====
/-
  The algebra shared by the kernel and the reference: 4-bit fields are below 16, so a wrapped 32-bit difference of
  two fields reads as the integer difference; at a real scale q * s + (-(z * s)) = (q - z) * s, so the two dequantized
  weights agree; a sum over n blocks of m consecutive terms is the sum over all n * m terms; a left fold of additions
  is a finite sum; and the layer only reads its weight matrices inside their extents.
-/
import proofs.«405969_j49890340110676_2_alg».proof.Proof.KI.Spec
import Mathlib.Data.EReal.Basic
import Mathlib.Data.EReal.Operations
import Mathlib.Algebra.BigOperators.Group.Finset.Basic
import Mathlib.Tactic.Ring

noncomputable section

namespace Cert.Spec

open Idealize.ShloMosaic ValueIdx

/-- A 4-bit field is below 16: it is a conjunction with 15. -/
theorem nib_toNat_lt (w s : BitVec 32) : (nib w s).toNat < 16 := by
  unfold nib
  rw [BitVec.toNat_and]
  have h : (w.sshiftRight' s).toNat &&& (15#32).toNat ≤ (15#32).toNat := Nat.and_le_right
  have h15 : (15#32).toNat = 15 := by decide
  omega

/-- A word below 16 reads, signed, as its own natural number. -/
theorem toInt_of_lt16 (q : BitVec 32) (hq : q.toNat < 16) : q.toInt = (q.toNat : ℤ) :=
  BitVec.toInt_eq_toNat_of_lt (by omega)

/-- The wrapped difference of two words below 16 reads, signed, as the integer difference. -/
theorem toInt_sub_nib (q z : BitVec 32) (hq : q.toNat < 16) (hz : z.toNat < 16) :
    (q - z).toInt = q.toInt - z.toInt := by
  rw [BitVec.toInt_sub, toInt_of_lt16 q hq, toInt_of_lt16 z hz]
  have h2 : (2 ^ 32 : ℕ) = 4294967296 := by norm_num
  rw [h2]
  apply Int.bmod_eq_of_le <;> omega

theorem toE_sub_nib (q z : BitVec 32) (hq : q.toNat < 16) (hz : z.toNat < 16) :
    toE (q - z) = toE q - toE z := by
  unfold toE
  rw [toInt_sub_nib q z hq hz, Int.cast_sub, EReal.coe_sub]

/-- At a real scale the kernel's weight q * s + (-(z * s)) is the reference's (q - z) * s. -/
theorem wKer_eq_wRef {R8 G N8 N : ℕ} (QW : (M R8 N).Idx → BitVec 32) (QZ : (M G N8).Idx → BitVec 32)
    (SC : (M G N).Idx → EReal) (r c : ℕ) (hs : ∃ x : ℝ, at2 SC (r / 128) c = (x : EReal)) :
    wKer QW QZ SC r c = wRef QW QZ SC r c := by
  obtain ⟨x, hx⟩ := hs
  unfold wKer wRef biasAt
  rw [toE_sub_nib (qAt QW r c) (zAt QZ (r / 128) c) (nib_toNat_lt _ _) (nib_toNat_lt _ _), hx]
  unfold toE
  generalize (((qAt QW r c).toInt : ℤ) : ℝ) = a
  generalize (((zAt QZ (r / 128) c).toInt : ℤ) : ℝ) = b
  rw [← EReal.coe_mul, ← EReal.coe_mul, ← EReal.coe_neg, ← EReal.coe_add, ← EReal.coe_sub, ← EReal.coe_mul]
  congr 1
  ring

/-- A sum over n blocks of m consecutive terms is the sum over the first n * m terms. -/
theorem sum_blocks (n m : ℕ) (f : ℕ → EReal) :
    ∑ k ∈ Finset.range n, ∑ r ∈ Finset.range m, f (m * k + r) = ∑ r ∈ Finset.range (n * m), f r := by
  induction n with
  | zero => simp
  | succ n ih =>
    rw [Finset.sum_range_succ, ih, Nat.succ_mul, Finset.sum_range_add, Nat.mul_comm m n]

/-- The left fold ((0 + P 0) + P 1) + … + P (n - 1). -/
def chain (P : ℕ → EReal) : ℕ → EReal
  | 0 => 0
  | k + 1 => chain P k + P k

@[simp] theorem chain_zero (P : ℕ → EReal) : chain P 0 = 0 := rfl

@[simp] theorem chain_succ (P : ℕ → EReal) (k : ℕ) : chain P (k + 1) = chain P k + P k := rfl

/-- The left fold is the finite sum. -/
theorem chain_eq_sum (n : ℕ) (P : ℕ → EReal) : chain P n = ∑ k ∈ Finset.range n, P k := by
  induction n with
  | zero => simp
  | succ n ih => rw [chain_succ, ih, Finset.sum_range_succ]

/-- A product x W only reads the first K rows of W in the column asked for. -/
theorem proj_congr {T K0 : ℕ} (K : ℕ) (X : (M T K0).Idx → EReal) (W W' : ℕ → ℕ → EReal) (a c : ℕ)
    (h : ∀ r < K, W r c = W' r c) : proj K X W a c = proj K X W' a c := by
  unfold proj
  exact Finset.sum_congr rfl (fun r hr => by rw [h r (Finset.mem_range.mp hr)])

/-- The layer only reads Wg, Wu inside 4096 x 12288 and Wd in its first 12288 rows of the column asked for. -/
theorem mlp_congr {T K0 : ℕ} (X : (M T K0).Idx → EReal) (Wg Wg' Wu Wu' Wd Wd' : ℕ → ℕ → EReal) (a b : ℕ)
    (hg : ∀ r < 4096, ∀ c < 12288, Wg r c = Wg' r c) (hu : ∀ r < 4096, ∀ c < 12288, Wu r c = Wu' r c)
    (hd : ∀ r < 12288, Wd r b = Wd' r b) :
    mlp X Wg Wu Wd a b = mlp X Wg' Wu' Wd' a b := by
  unfold mlp
  refine Finset.sum_congr rfl (fun r hr => ?_)
  have hr' : r < 12288 := Finset.mem_range.mp hr
  rw [proj_congr 4096 X Wg Wg' a r (fun k hk => hg k hk r hr'),
    proj_congr 4096 X Wu Wu' a r (fun k hk => hu k hk r hr'), hd r hr']

/-- An array of reals read at natural-number coordinates gives a real (outside the array, zero). -/
theorem at2_real {R C : ℕ} (SC : (M R C).Idx → EReal) (h : ∀ i, ∃ x : ℝ, SC i = (x : EReal)) (r c : ℕ) :
    ∃ x : ℝ, at2 SC r c = (x : EReal) := by
  unfold at2
  split
  · exact h _
  · exact ⟨0, rfl⟩

/-- With real scales throughout, the layer on the kernel's weights is the layer on the reference's weights. -/
theorem mlp_ker_eq_ref (X : (M 8192 4096).Idx → EReal)
    (QWg : (M 512 12288).Idx → BitVec 32) (QZg : (M 32 1536).Idx → BitVec 32) (SCg : (M 32 12288).Idx → EReal)
    (QWu : (M 512 12288).Idx → BitVec 32) (QZu : (M 32 1536).Idx → BitVec 32) (SCu : (M 32 12288).Idx → EReal)
    (QWd : (M 1536 4096).Idx → BitVec 32) (QZd : (M 96 512).Idx → BitVec 32) (SCd : (M 96 4096).Idx → EReal)
    (a b : ℕ)
    (hg : ∀ i, ∃ x : ℝ, SCg i = (x : EReal)) (hu : ∀ i, ∃ x : ℝ, SCu i = (x : EReal))
    (hd : ∀ i, ∃ x : ℝ, SCd i = (x : EReal)) :
    mlp X (wKer QWg QZg SCg) (wKer QWu QZu SCu) (wKer QWd QZd SCd) a b
      = mlp X (wRef QWg QZg SCg) (wRef QWu QZu SCu) (wRef QWd QZd SCd) a b :=
  mlp_congr X _ _ _ _ _ _ a b
    (fun r _ c _ => wKer_eq_wRef QWg QZg SCg r c (at2_real SCg hg _ _))
    (fun r _ c _ => wKer_eq_wRef QWu QZu SCu r c (at2_real SCu hu _ _))
    (fun r _ => wKer_eq_wRef QWd QZd SCd r b (at2_real SCd hd _ _))

end Cert.Spec

end
-- ==== Proof.KI.R0Step.lean ====
/-
  One reduction step of the gate/up kernel at exact values, read at an entry: the accumulator's entry plus the sum,
  over the 1024 rows of the block, of activation times dequantized weight — the weight of block row r being field
  r % 8 of word row r / 8, times the scale of group row r / 128, plus that group's bias. The casts around the loaded
  blocks are identities at exact values; the block stored at the first step is zero; the block stored at the last
  step is gate * logistic(gate) * up, entry by entry.
-/
import proofs.«405969_j49890340110676_2_alg».proof.Proof.KI.Chunk
import proofs.«405969_j49890340110676_2_alg».proof.Proof.KI.ChunkApply
import proofs.«405969_j49890340110676_2_alg».proof.Proof.KI.SpecB
import proofs.«405969_j49890340110676_2_alg».proof.Proof.KI.Algebra
import Idealize.ShloMosaic.Lib.Pipeline.Value
import Idealize.ShloMosaic.Lib.ValueIdx
import Idealize.ShloMosaic.Lib.IdealHost

set_option maxRecDepth 16384

noncomputable section

namespace Cert.KernelIdeal.Gen

open Idealize.ShloMosaic Idealize.ShloMosaic.TcCoe

variable {F : FTy → Type} [FloatOps F]

open Cert.Spec Idealize.ShloMosaic.ValueIdx

/-- The dequantized weight of block row `r`, column `q`, from the packed block, the scale block and the bias block. -/
def wBlk (x1 : IVec S128x1024 32) (x2 x3 : FVec Ideal S8x1024 .f32) (r q : Fin 1024) : EReal :=
  toE (nib (x1 (ix2 (⟨r.val / 8, by omega⟩ : Fin 128) q)) (sh4 (r.val % 8))) * x2 (ix2 (⟨r.val / 128, by omega⟩ : Fin 8) q)
    + x3 (ix2 (⟨r.val / 128, by omega⟩ : Fin 8) q)

theorem pay4_id (x0 : FVec Ideal S2048x1024 .bf16) : k0_pay4 (F := Ideal) x0 = x0 := by
  unfold k0_pay4; exact shapeCast_self _ _
theorem pay5_id (x2 : FVec Ideal S8x1024 .f32) : k0_pay5 (F := Ideal) x2 = x2 := by
  unfold k0_pay5; rfl
theorem pay6_id (x3 : FVec Ideal S8x1024 .f32) : k0_pay6 (F := Ideal) x3 = x3 := by
  unfold k0_pay6; rw [shapeCast_self]; rfl
theorem pay54_id (x5 : FVec Ideal S8x1024 .f32) : k0_pay54 (F := Ideal) x5 = x5 := by
  unfold k0_pay54; rfl
theorem pay55_id (x6 : FVec Ideal S8x1024 .f32) : k0_pay55 (F := Ideal) x6 = x6 := by
  unfold k0_pay55; first | rfl | (rw [shapeCast_self]; rfl)

/-- A reduction step at an entry. -/
theorem gu_step_apply (x0 : FVec Ideal S2048x1024 .bf16) (x1 : IVec S128x1024 32) (x2 x3 : FVec Ideal S8x1024 .f32)
    (acc : FVec Ideal S2048x1024 .f32) (p : Fin 2048) (q : Fin 1024) :
    accStep (F := Ideal) x0 (deqChunk x1 x2 x3) acc (ix2 p q) = acc (ix2 p q) + ∑ r : Fin 1024, x0 (ix2 p r) * wBlk x1 x2 x3 r q := by
  rw [accStep_apply]
  refine congrArg (acc (ix2 p q) + ·) (Finset.sum_congr rfl fun r _ => ?_)
  rw [deqChunk_apply]; rfl

/-- The block the first step stores before accumulating is zero. -/
theorem pay2_zero (i : S2048x1024.Idx) : k0_pay2 (F := Ideal) i = 0 := by
  unfold k0_pay2; rw [shapeCast_self]; exact Ideal.ofBits_zero_f32
theorem pay3_zero (i : S2048x1024.Idx) : k0_pay3 (F := Ideal) i = 0 := by
  unfold k0_pay3; rw [shapeCast_self]; exact Ideal.ofBits_zero_f32

/-- The block the last step stores: silu(gate) * up. -/
theorem pay1_apply (g u : FVec Ideal S2048x1024 .f32) (i : S2048x1024.Idx) : k0_pay1 (F := Ideal) g u i = swi (g i) (u i) := by
  unfold k0_pay1 swi; rfl

end Cert.KernelIdeal.Gen

end
-- ==== Proof.KI.R0Geom.lean ====
/-
  The geometry of pipeline 0, the gate/up projection, at the ideal instance.

  The grid has 12 x 4 x 4 points; point number t is (j, i, k) with j = t / 16 the block of 1024 output columns,
  i = t / 4 % 4 the block of 2048 token rows and k = t % 4 the reduction step, a block of 1024 input columns. The
  activations' window sits at block (i, k) of its array; the six weight-side windows (packed weights, scales and
  negated biases of the gate and of the up projection) sit at block (k, j) of theirs; the result's window sits at
  block (i, j). A block's coordinate along an axis is always (block index) x (block extent) + (coordinate inside
  the block), so an input block read at (p, q) is its array read at those offsets, and the result's blocks, written
  back at the last reduction step of each (i, j), tile the [8192, 12288] result: row a and column b lie in the block
  of the point ((b / 1024) * 4 + a / 2048) * 4 + 3.
-/
import proofs.«405969_j49890340110676_2_alg».proof.Proof.KI.R0Frame
import proofs.«405969_j49890340110676_2_alg».proof.Proof.KI.Spec
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

/-! ## Where each window's block sits, decided once over the 192 points -/

/-- The activations' window: block (i, k). -/
theorem idx0_0 : ∀ t : Fin cfg0.N, win0_0.index t (0 : Fin 2) = t.val / 4 % 4 ∧ win0_0.index t (1 : Fin 2) = t.val % 4 :=
  (by decide +kernel : ∀ t : Fin grid0.N, _)
/-- The gate's packed weights: block (k, j). -/
theorem idx0_1 : ∀ t : Fin cfg0.N, win0_1.index t (0 : Fin 2) = t.val % 4 ∧ win0_1.index t (1 : Fin 2) = t.val / 16 :=
  (by decide +kernel : ∀ t : Fin grid0.N, _)
/-- The gate's scales: block (k, j). -/
theorem idx0_2 : ∀ t : Fin cfg0.N, win0_2.index t (0 : Fin 2) = t.val % 4 ∧ win0_2.index t (1 : Fin 2) = t.val / 16 :=
  (by decide +kernel : ∀ t : Fin grid0.N, _)
/-- The gate's negated biases: block (k, j). -/
theorem idx0_3 : ∀ t : Fin cfg0.N, win0_3.index t (0 : Fin 2) = t.val % 4 ∧ win0_3.index t (1 : Fin 2) = t.val / 16 :=
  (by decide +kernel : ∀ t : Fin grid0.N, _)
/-- The up projection's packed weights: block (k, j). -/
theorem idx0_4 : ∀ t : Fin cfg0.N, win0_4.index t (0 : Fin 2) = t.val % 4 ∧ win0_4.index t (1 : Fin 2) = t.val / 16 :=
  (by decide +kernel : ∀ t : Fin grid0.N, _)
/-- The up projection's scales: block (k, j). -/
theorem idx0_5 : ∀ t : Fin cfg0.N, win0_5.index t (0 : Fin 2) = t.val % 4 ∧ win0_5.index t (1 : Fin 2) = t.val / 16 :=
  (by decide +kernel : ∀ t : Fin grid0.N, _)
/-- The up projection's negated biases: block (k, j). -/
theorem idx0_6 : ∀ t : Fin cfg0.N, win0_6.index t (0 : Fin 2) = t.val % 4 ∧ win0_6.index t (1 : Fin 2) = t.val / 16 :=
  (by decide +kernel : ∀ t : Fin grid0.N, _)
/-- The result's window: block (i, j). -/
theorem idx0_7 : ∀ t : Fin cfg0.N, win0_7.index t (0 : Fin 2) = t.val / 4 % 4 ∧ win0_7.index t (1 : Fin 2) = t.val / 16 :=
  (by decide +kernel : ∀ t : Fin grid0.N, _)

/-- A point's number is below 192. -/
theorem lt_N0 (t : Fin cfg0.N) : t.val < 192 := lt_of_lt_of_eq t.isLt N_0

/-! ## Each input block at an index -/

/-- The activations' block at point t, read at (p, q): rows 2048 i + p, columns 1024 k + q of the rounded
    activations. -/
theorem iblk0_0_apply (c : Dev nD) (t : Fin cfg0.N) (p : Fin 2048) (q : Fin 1024) :
    iblk0 V c 0 t (ix2 p q)
      = at2 (V c main_v42 : FVec Ideal S8192x4096 .bf16) (2048 * (t.val / 4 % 4) + p.val) (1024 * (t.val % 4) + q.val) := by
  have hN := lt_N0 t
  obtain ⟨e0, e1⟩ := idx0_0 t
  have hr : 2048 * (t.val / 4 % 4) + p.val < 8192 := by omega
  have hc : 1024 * (t.val % 4) + q.val < 4096 := by omega
  refine Eq.trans ?_ (at2_ix (V c main_v42 : FVec Ideal S8192x4096 .bf16) ⟨_, hr⟩ ⟨_, hc⟩).symm
  unfold iblk0
  rw [View.read_apply]
  show (V c main_v42 : FVec Ideal S8192x4096 .bf16) (((cfg0.win 0).blk t).view.emb (ix2 p q)) = _
  congr 1
  funext a; apply Fin.ext
  match a with
  | ⟨0, _⟩ => show win0_0.index t (0 : Fin 2) * 2048 + 1 * p.val = 2048 * (t.val / 4 % 4) + p.val; omega
  | ⟨1, _⟩ => show win0_0.index t (1 : Fin 2) * 1024 + 1 * q.val = 1024 * (t.val % 4) + q.val; omega

/-- The gate's packed-weight block at point t, read at (p, q): word rows 128 k + p, columns 1024 j + q. -/
theorem iblk0_1_apply (c : Dev nD) (t : Fin cfg0.N) (p : Fin 128) (q : Fin 1024) :
    iblk0 V c 1 t (ix2 p q)
      = at2 (V c main_arg1 : IVec S512x12288 32) (128 * (t.val % 4) + p.val) (1024 * (t.val / 16) + q.val) := by
  have hN := lt_N0 t
  obtain ⟨e0, e1⟩ := idx0_1 t
  have hr : 128 * (t.val % 4) + p.val < 512 := by omega
  have hc : 1024 * (t.val / 16) + q.val < 12288 := by omega
  refine Eq.trans ?_ (at2_ix (V c main_arg1 : IVec S512x12288 32) ⟨_, hr⟩ ⟨_, hc⟩).symm
  unfold iblk0
  rw [View.read_apply]
  show (V c main_arg1 : IVec S512x12288 32) (((cfg0.win 1).blk t).view.emb (ix2 p q)) = _
  congr 1
  funext a; apply Fin.ext
  match a with
  | ⟨0, _⟩ => show win0_1.index t (0 : Fin 2) * 128 + 1 * p.val = 128 * (t.val % 4) + p.val; omega
  | ⟨1, _⟩ => show win0_1.index t (1 : Fin 2) * 1024 + 1 * q.val = 1024 * (t.val / 16) + q.val; omega

/-- The gate's scales' block at point t, read at (p, q): group rows 8 k + p, columns 1024 j + q. -/
theorem iblk0_2_apply (c : Dev nD) (t : Fin cfg0.N) (p : Fin 8) (q : Fin 1024) :
    iblk0 V c 2 t (ix2 p q)
      = at2 (V c main_arg3 : FVec Ideal S32x12288 .f32) (8 * (t.val % 4) + p.val) (1024 * (t.val / 16) + q.val) := by
  have hN := lt_N0 t
  obtain ⟨e0, e1⟩ := idx0_2 t
  have hr : 8 * (t.val % 4) + p.val < 32 := by omega
  have hc : 1024 * (t.val / 16) + q.val < 12288 := by omega
  refine Eq.trans ?_ (at2_ix (V c main_arg3 : FVec Ideal S32x12288 .f32) ⟨_, hr⟩ ⟨_, hc⟩).symm
  unfold iblk0
  rw [View.read_apply]
  show (V c main_arg3 : FVec Ideal S32x12288 .f32) (((cfg0.win 2).blk t).view.emb (ix2 p q)) = _
  congr 1
  funext a; apply Fin.ext
  match a with
  | ⟨0, _⟩ => show win0_2.index t (0 : Fin 2) * 8 + 1 * p.val = 8 * (t.val % 4) + p.val; omega
  | ⟨1, _⟩ => show win0_2.index t (1 : Fin 2) * 1024 + 1 * q.val = 1024 * (t.val / 16) + q.val; omega

/-- The gate's negated biases' block at point t, read at (p, q): group rows 8 k + p, columns 1024 j + q. -/
theorem iblk0_3_apply (c : Dev nD) (t : Fin cfg0.N) (p : Fin 8) (q : Fin 1024) :
    iblk0 V c 3 t (ix2 p q)
      = at2 (V c main_v13 : FVec Ideal S32x12288 .f32) (8 * (t.val % 4) + p.val) (1024 * (t.val / 16) + q.val) := by
  have hN := lt_N0 t
  obtain ⟨e0, e1⟩ := idx0_3 t
  have hr : 8 * (t.val % 4) + p.val < 32 := by omega
  have hc : 1024 * (t.val / 16) + q.val < 12288 := by omega
  refine Eq.trans ?_ (at2_ix (V c main_v13 : FVec Ideal S32x12288 .f32) ⟨_, hr⟩ ⟨_, hc⟩).symm
  unfold iblk0
  rw [View.read_apply]
  show (V c main_v13 : FVec Ideal S32x12288 .f32) (((cfg0.win 3).blk t).view.emb (ix2 p q)) = _
  congr 1
  funext a; apply Fin.ext
  match a with
  | ⟨0, _⟩ => show win0_3.index t (0 : Fin 2) * 8 + 1 * p.val = 8 * (t.val % 4) + p.val; omega
  | ⟨1, _⟩ => show win0_3.index t (1 : Fin 2) * 1024 + 1 * q.val = 1024 * (t.val / 16) + q.val; omega

/-- The up projection's packed-weight block at point t, read at (p, q): word rows 128 k + p, columns 1024 j + q. -/
theorem iblk0_4_apply (c : Dev nD) (t : Fin cfg0.N) (p : Fin 128) (q : Fin 1024) :
    iblk0 V c 4 t (ix2 p q)
      = at2 (V c main_arg4 : IVec S512x12288 32) (128 * (t.val % 4) + p.val) (1024 * (t.val / 16) + q.val) := by
  have hN := lt_N0 t
  obtain ⟨e0, e1⟩ := idx0_4 t
  have hr : 128 * (t.val % 4) + p.val < 512 := by omega
  have hc : 1024 * (t.val / 16) + q.val < 12288 := by omega
  refine Eq.trans ?_ (at2_ix (V c main_arg4 : IVec S512x12288 32) ⟨_, hr⟩ ⟨_, hc⟩).symm
  unfold iblk0
  rw [View.read_apply]
  show (V c main_arg4 : IVec S512x12288 32) (((cfg0.win 4).blk t).view.emb (ix2 p q)) = _
  congr 1
  funext a; apply Fin.ext
  match a with
  | ⟨0, _⟩ => show win0_4.index t (0 : Fin 2) * 128 + 1 * p.val = 128 * (t.val % 4) + p.val; omega
  | ⟨1, _⟩ => show win0_4.index t (1 : Fin 2) * 1024 + 1 * q.val = 1024 * (t.val / 16) + q.val; omega

/-- The up projection's scales' block at point t, read at (p, q): group rows 8 k + p, columns 1024 j + q. -/
theorem iblk0_5_apply (c : Dev nD) (t : Fin cfg0.N) (p : Fin 8) (q : Fin 1024) :
    iblk0 V c 5 t (ix2 p q)
      = at2 (V c main_arg6 : FVec Ideal S32x12288 .f32) (8 * (t.val % 4) + p.val) (1024 * (t.val / 16) + q.val) := by
  have hN := lt_N0 t
  obtain ⟨e0, e1⟩ := idx0_5 t
  have hr : 8 * (t.val % 4) + p.val < 32 := by omega
  have hc : 1024 * (t.val / 16) + q.val < 12288 := by omega
  refine Eq.trans ?_ (at2_ix (V c main_arg6 : FVec Ideal S32x12288 .f32) ⟨_, hr⟩ ⟨_, hc⟩).symm
  unfold iblk0
  rw [View.read_apply]
  show (V c main_arg6 : FVec Ideal S32x12288 .f32) (((cfg0.win 5).blk t).view.emb (ix2 p q)) = _
  congr 1
  funext a; apply Fin.ext
  match a with
  | ⟨0, _⟩ => show win0_5.index t (0 : Fin 2) * 8 + 1 * p.val = 8 * (t.val % 4) + p.val; omega
  | ⟨1, _⟩ => show win0_5.index t (1 : Fin 2) * 1024 + 1 * q.val = 1024 * (t.val / 16) + q.val; omega

/-- The up projection's negated biases' block at point t, read at (p, q): group rows 8 k + p, columns 1024 j + q. -/
theorem iblk0_6_apply (c : Dev nD) (t : Fin cfg0.N) (p : Fin 8) (q : Fin 1024) :
    iblk0 V c 6 t (ix2 p q)
      = at2 (V c main_v27 : FVec Ideal S32x12288 .f32) (8 * (t.val % 4) + p.val) (1024 * (t.val / 16) + q.val) := by
  have hN := lt_N0 t
  obtain ⟨e0, e1⟩ := idx0_6 t
  have hr : 8 * (t.val % 4) + p.val < 32 := by omega
  have hc : 1024 * (t.val / 16) + q.val < 12288 := by omega
  refine Eq.trans ?_ (at2_ix (V c main_v27 : FVec Ideal S32x12288 .f32) ⟨_, hr⟩ ⟨_, hc⟩).symm
  unfold iblk0
  rw [View.read_apply]
  show (V c main_v27 : FVec Ideal S32x12288 .f32) (((cfg0.win 6).blk t).view.emb (ix2 p q)) = _
  congr 1
  funext a; apply Fin.ext
  match a with
  | ⟨0, _⟩ => show win0_6.index t (0 : Fin 2) * 8 + 1 * p.val = 8 * (t.val % 4) + p.val; omega
  | ⟨1, _⟩ => show win0_6.index t (1 : Fin 2) * 1024 + 1 * q.val = 1024 * (t.val / 16) + q.val; omega

/-! ## From the result's blocks to the whole array -/

/-- A function of row and column, as contents of the [8192, 12288] result array. -/
abbrev onResult (G : ℕ → ℕ → EReal) : FVec Ideal S8192x12288 .bf16 := fun idx => G (idx 0).val (idx 1).val

/-- What a point of the last reduction step writes back is its block of G: the block is read at rows 2048 i + p and
    columns 1024 j + q of the whole array. -/
theorem flushed0_7_eq (c : Dev nD) (G : ℕ → ℕ → EReal)
    (hG : ∀ t : Fin cfg0.N, t.val % 4 = 3 → ∀ (p : Fin 2048) (q : Fin 1024),
      (outsAt0 V c t.val t.isLt).1 (ix2 p q) = G (2048 * (t.val / 4 % 4) + p.val) (1024 * (t.val / 16) + q.val))
    (t : Fin cfg0.N) (hf : (cfg0.win 7).flush t = true) :
    (dat0 V c).flushed 7 t = ((cfg0.win 7).blk t).view.read (Elt Ideal) (onResult G) := by
  have h3 : t.val % 4 = 3 := (flush0_7 t).mp hf
  obtain ⟨e0, e1⟩ := idx0_7 t
  show (cfg0.win 7).cut (grid0.coords t) ((dat0 V c).after 7 t) = _
  rw [after0_7]
  funext y
  obtain ⟨p, q, rfl⟩ : ∃ (p : Fin 2048) (q : Fin 1024), y = ix2 p q := ⟨y 0, y 1, eq_ix2 y⟩
  rw [View.read_apply]
  show (outsAt0 V c t.val t.isLt).1 (ix2 p q)
    = G (win0_7.index t (0 : Fin 2) * 2048 + 1 * p.val) (win0_7.index t (1 : Fin 2) * 1024 + 1 * q.val)
  rw [hG t h3 p q, e0, e1]
  congr 1 <;> omega

/-- An index of the result array is in point t's block iff each coordinate is in the block's range on its axis. -/
theorem mem_blk0_7 (t : Fin cfg0.N) (i : S8192x12288.Idx) :
    i ∈ ((cfg0.win 7).blk t).view.set ↔ ∀ a : Fin 2, win0_7.index t a * S2048x1024.size a ≤ (i a).val
      ∧ (i a).val < win0_7.index t a * S2048x1024.size a + S2048x1024.size a := by
  show i ∈ ((View.whole main_v43).slice (win0_7.rect t)).set ↔ _
  rw [View.set_slice_whole, Rect.mem_set_unit]
  exact Iff.rfl

/-- The blocks written back tile the result: row a and column b lie in the block of the last reduction step of
    (i, j) = (a / 2048, b / 1024). -/
theorem cover0_7 (i : S8192x12288.Idx) :
    ∃ t : Fin cfg0.N, (cfg0.win 7).flush t = true ∧ i ∈ ((cfg0.win 7).blk t).view.set := by
  have hi0 : (i 0).val < 8192 := idx2_lt0 i
  have hi1 : (i 1).val < 12288 := idx2_lt1 i
  obtain ⟨t, ht⟩ : ∃ t : Fin cfg0.N, t.val = ((i 1).val / 1024 * 4 + (i 0).val / 2048) * 4 + 3 :=
    ⟨⟨((i 1).val / 1024 * 4 + (i 0).val / 2048) * 4 + 3, by rw [show cfg0.N = 192 from N_0]; omega⟩, rfl⟩
  obtain ⟨e0, e1⟩ := idx0_7 t
  refine ⟨t, (flush0_7 t).mpr (by omega), ?_⟩
  rw [mem_blk0_7]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 1024 ≤ (i 1).val ∧ (i 1).val < win0_7.index t (1 : Fin 2) * 1024 + 1024
    omega

/-- THE RESULT ARRAY after the region, index by index: if every point of the last reduction step leaves in the output
    block the values of G at that block's rows and columns, the array ends holding G. -/
theorem final0_of (c : Dev nD) (G : ℕ → ℕ → EReal)
    (hG : ∀ t : Fin cfg0.N, t.val % 4 = 3 → ∀ (p : Fin 2048) (q : Fin 1024),
      (outsAt0 V c t.val t.isLt).1 (ix2 p q) = G (2048 * (t.val / 4 % 4) + p.val) (1024 * (t.val / 16) + q.val))
    (a : Fin 8192) (j : Fin 12288) :
    ((dat0 V c).arrAt 7 cfg0.N : FVec Ideal S8192x12288 .bf16) (ix2 a j) = G a.val j.val :=
  congrFun ((dat0 V c).arrAt_eq_of_cover 7 (onResult G) (fun t hf => flushed0_7_eq V c G hG t hf) cover0_7) (ix2 a j)

end Cert.KernelIdeal.Gen

end
-- ==== Proof.KI.R0Value.lean ====
/-
  What the gate/up kernel leaves in the hidden-activation array. The grid point number t encodes the output tile
  (column tile t / 16, row tile t / 4 % 4) and the reduction step t % 4. After the point of step k the gate
  accumulator holds, at entry (p, q) of the tile, the left-to-right sum of the partial products over reduction blocks
  0 .. k of activation row 2048 (t / 4 % 4) + p against the dequantized gate weights' column 1024 (t / 16) + q (and
  the up accumulator the same with the up weights): by induction on the point, each step adding its block's partial
  product. At step 3 the four partial products make the whole contraction over 4096 input rows, and the block
  stored is silu(gate) * up; the stored blocks tile the array.
-/
import proofs.«405969_j49890340110676_2_alg».proof.Proof.KI.R0Pieces
import proofs.«405969_j49890340110676_2_alg».proof.Proof.KI.R0Step
import proofs.«405969_j49890340110676_2_alg».proof.Proof.KI.R0Geom

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (V : (c : Dev nD) → (b : Ref sig .tc) → Buf (Elt Ideal) ((c : Thread nD τ).loc b))

/-! ## The arrays the region reads, by their literal types -/

abbrev xArr (c : Dev nD) : FVec Ideal S8192x4096 .bf16 := V c main_v42
abbrev qwG (c : Dev nD) : IVec S512x12288 32 := V c main_arg1
abbrev scG (c : Dev nD) : FVec Ideal S32x12288 .f32 := V c main_arg3
abbrev bG (c : Dev nD) : FVec Ideal S32x12288 .f32 := V c main_v13
abbrev qwU (c : Dev nD) : IVec S512x12288 32 := V c main_arg4
abbrev scU (c : Dev nD) : FVec Ideal S32x12288 .f32 := V c main_arg6
abbrev bU (c : Dev nD) : FVec Ideal S32x12288 .f32 := V c main_v27

/-- The partial product of reduction block `k`: 1024 input rows of activation row `row` against weight column `col`. -/
def part (X : FVec Ideal S8192x4096 .bf16) (W : ℕ → ℕ → EReal) (row col k : ℕ) : EReal :=
  ∑ r ∈ Finset.range 1024, at2 X row (1024 * k + r) * W (1024 * k + r) col

/-- The four partial products are the whole contraction. -/
theorem chain_part (X : FVec Ideal S8192x4096 .bf16) (W : ℕ → ℕ → EReal) (row col : ℕ) :
    chain (part X W row col) 4 = proj 4096 X W row col := by
  rw [chain_eq_sum]; unfold part proj
  exact sum_blocks 4 1024 fun r => at2 X row r * W r col

/-! ## The blocks at an entry, over the typed arrays -/

/-- Inside the array, reading at numbers does not depend on the default value chosen for the outside. -/
theorem at2_any {α : Type} (i1 i2 : Inhabited α) {R C : ℕ} (X : (M R C).Idx → α) (r c : ℕ) (hr : r < R) (hc : c < C) :
    @at2 α i1 R C X r c = @at2 α i2 R C X r c := by
  unfold at2; rw [dif_pos ⟨hr, hc⟩, dif_pos ⟨hr, hc⟩]

theorem tN (t : Fin cfg0.N) : t.val < 192 := lt_of_lt_of_eq t.isLt (show cfg0.N = 192 from N_0)

theorem x_blk (c : Dev nD) (t : Fin cfg0.N) (p : Fin 2048) (r : Fin 1024) :
    iblk0 V c 0 t (ix2 p r) = at2 (xArr V c) (2048 * (t.val / 4 % 4) + p.val) (1024 * (t.val % 4) + r.val) :=
  (iblk0_0_apply V c t p r).trans (at2_any _ _ _ _ _ (by have := tN t; omega) (by have := tN t; omega))
theorem qwG_blk (c : Dev nD) (t : Fin cfg0.N) (p : Fin 128) (q : Fin 1024) :
    iblk0 V c 1 t (ix2 p q) = at2 (qwG V c) (128 * (t.val % 4) + p.val) (1024 * (t.val / 16) + q.val) :=
  (iblk0_1_apply V c t p q).trans (at2_any _ _ _ _ _ (by have := tN t; omega) (by have := tN t; omega))
theorem scG_blk (c : Dev nD) (t : Fin cfg0.N) (p : Fin 8) (q : Fin 1024) :
    iblk0 V c 2 t (ix2 p q) = at2 (scG V c) (8 * (t.val % 4) + p.val) (1024 * (t.val / 16) + q.val) :=
  (iblk0_2_apply V c t p q).trans (at2_any _ _ _ _ _ (by have := tN t; omega) (by have := tN t; omega))
theorem bG_blk (c : Dev nD) (t : Fin cfg0.N) (p : Fin 8) (q : Fin 1024) :
    iblk0 V c 3 t (ix2 p q) = at2 (bG V c) (8 * (t.val % 4) + p.val) (1024 * (t.val / 16) + q.val) :=
  (iblk0_3_apply V c t p q).trans (at2_any _ _ _ _ _ (by have := tN t; omega) (by have := tN t; omega))
theorem qwU_blk (c : Dev nD) (t : Fin cfg0.N) (p : Fin 128) (q : Fin 1024) :
    iblk0 V c 4 t (ix2 p q) = at2 (qwU V c) (128 * (t.val % 4) + p.val) (1024 * (t.val / 16) + q.val) :=
  (iblk0_4_apply V c t p q).trans (at2_any _ _ _ _ _ (by have := tN t; omega) (by have := tN t; omega))
theorem scU_blk (c : Dev nD) (t : Fin cfg0.N) (p : Fin 8) (q : Fin 1024) :
    iblk0 V c 5 t (ix2 p q) = at2 (scU V c) (8 * (t.val % 4) + p.val) (1024 * (t.val / 16) + q.val) :=
  (iblk0_5_apply V c t p q).trans (at2_any _ _ _ _ _ (by have := tN t; omega) (by have := tN t; omega))
theorem bU_blk (c : Dev nD) (t : Fin cfg0.N) (p : Fin 8) (q : Fin 1024) :
    iblk0 V c 6 t (ix2 p q) = at2 (bU V c) (8 * (t.val % 4) + p.val) (1024 * (t.val / 16) + q.val) :=
  (iblk0_6_apply V c t p q).trans (at2_any _ _ _ _ _ (by have := tN t; omega) (by have := tN t; omega))

/-! ## A block's weights are the whole matrix's at the block's offset -/

theorem wBlk_gate (c : Dev nD) (t : Fin cfg0.N) (r q : Fin 1024) :
    wBlk (iblk0 V c 1 t) (iblk0 V c 2 t) (iblk0 V c 3 t) r q
      = wKerB (qwG V c) (scG V c) (bG V c) (1024 * (t.val % 4) + r.val) (1024 * (t.val / 16) + q.val) := by
  unfold wBlk wKerB qAt
  rw [qwG_blk, scG_blk, bG_blk]
  rw [show (1024 * (t.val % 4) + r.val) / 8 = 128 * (t.val % 4) + r.val / 8 by omega,
    show (1024 * (t.val % 4) + r.val) % 8 = r.val % 8 by omega,
    show (1024 * (t.val % 4) + r.val) / 128 = 8 * (t.val % 4) + r.val / 128 by omega]

theorem wBlk_up (c : Dev nD) (t : Fin cfg0.N) (r q : Fin 1024) :
    wBlk (iblk0 V c 4 t) (iblk0 V c 5 t) (iblk0 V c 6 t) r q
      = wKerB (qwU V c) (scU V c) (bU V c) (1024 * (t.val % 4) + r.val) (1024 * (t.val / 16) + q.val) := by
  unfold wBlk wKerB qAt
  rw [qwU_blk, scU_blk, bU_blk]
  rw [show (1024 * (t.val % 4) + r.val) / 8 = 128 * (t.val % 4) + r.val / 8 by omega,
    show (1024 * (t.val % 4) + r.val) % 8 = r.val % 8 by omega,
    show (1024 * (t.val % 4) + r.val) / 128 = 8 * (t.val % 4) + r.val / 128 by omega]

/-! ## One step at a point, in terms of the arrays -/

theorem gate_step (c : Dev nD) (t : Fin cfg0.N) (acc : FVec Ideal S2048x1024 .f32) (p : Fin 2048) (q : Fin 1024) :
    accStep (F := Ideal) (k0_pay4 (iblk0 V c 0 t)) (deqChunk (iblk0 V c 1 t) (k0_pay5 (iblk0 V c 2 t)) (k0_pay6 (iblk0 V c 3 t))) acc (ix2 p q)
      = acc (ix2 p q) + part (xArr V c) (wKerB (qwG V c) (scG V c) (bG V c)) (2048 * (t.val / 4 % 4) + p.val) (1024 * (t.val / 16) + q.val) (t.val % 4) := by
  rw [pay4_id, pay5_id, pay6_id, gu_step_apply]
  unfold part
  rw [← Fin.sum_univ_eq_sum_range (fun r => at2 (xArr V c) (2048 * (t.val / 4 % 4) + p.val) (1024 * (t.val % 4) + r)
    * wKerB (qwG V c) (scG V c) (bG V c) (1024 * (t.val % 4) + r) (1024 * (t.val / 16) + q.val)) 1024]
  refine congrArg (acc (ix2 p q) + ·) (Finset.sum_congr rfl fun r _ => ?_)
  rw [x_blk, wBlk_gate]

theorem up_step (c : Dev nD) (t : Fin cfg0.N) (acc : FVec Ideal S2048x1024 .f32) (p : Fin 2048) (q : Fin 1024) :
    accStep (F := Ideal) (k0_pay4 (iblk0 V c 0 t)) (deqChunk (iblk0 V c 4 t) (k0_pay54 (iblk0 V c 5 t)) (k0_pay55 (iblk0 V c 6 t))) acc (ix2 p q)
      = acc (ix2 p q) + part (xArr V c) (wKerB (qwU V c) (scU V c) (bU V c)) (2048 * (t.val / 4 % 4) + p.val) (1024 * (t.val / 16) + q.val) (t.val % 4) := by
  rw [pay4_id, pay54_id, pay55_id, gu_step_apply]
  unfold part
  rw [← Fin.sum_univ_eq_sum_range (fun r => at2 (xArr V c) (2048 * (t.val / 4 % 4) + p.val) (1024 * (t.val % 4) + r)
    * wKerB (qwU V c) (scU V c) (bU V c) (1024 * (t.val % 4) + r) (1024 * (t.val / 16) + q.val)) 1024]
  refine congrArg (acc (ix2 p q) + ·) (Finset.sum_congr rfl fun r _ => ?_)
  rw [x_blk, wBlk_up]

/-! ## The accumulators after each point -/

/-- The gate tile's partial products at point `n`, entry (p, q). -/
abbrev PG (c : Dev nD) (n : ℕ) (p : Fin 2048) (q : Fin 1024) : ℕ → EReal :=
  part (xArr V c) (wKerB (qwG V c) (scG V c) (bG V c)) (2048 * (n / 4 % 4) + p.val) (1024 * (n / 16) + q.val)
/-- The up tile's. -/
abbrev PU (c : Dev nD) (n : ℕ) (p : Fin 2048) (q : Fin 1024) : ℕ → EReal :=
  part (xArr V c) (wKerB (qwU V c) (scU V c) (bU V c)) (2048 * (n / 4 % 4) + p.val) (1024 * (n / 16) + q.val)

theorem acc_inv (c : Dev nD) : ∀ (n : ℕ) (hn : n < cfg0.N) (p : Fin 2048) (q : Fin 1024),
    (outsAt0 V c n hn).2.1 (ix2 p q) = chain (PG V c n p q) (n % 4 + 1)
    ∧ (outsAt0 V c n hn).2.2 (ix2 p q) = chain (PU V c n p q) (n % 4 + 1) := by
  intro n
  induction n with
  | zero =>
    intro hn p q
    have e := outsAt0_A V c ⟨0, hn⟩ (Nat.zero_mod _) (show ¬(0 : ℕ) % 4 = 3 by decide)
    dsimp only at e
    rw [e]; dsimp only
    rw [sout0_A_0_eq, sout0_A_1_eq, gate_step V c ⟨0, hn⟩, up_step V c ⟨0, hn⟩, pay2_zero, pay3_zero]
    exact ⟨rfl, rfl⟩
  | succ m ih =>
    intro hn p q
    have hm : m < cfg0.N := Nat.lt_of_succ_lt hn
    obtain ⟨ihg, ihu⟩ := ih hm p q
    by_cases h0 : (m + 1) % 4 = 0
    · have h1 : ¬(m + 1) % 4 = 3 := by omega
      have e := outsAt0_A V c ⟨m + 1, hn⟩ h0 h1
      dsimp only at e
      rw [e]; dsimp only
      rw [sout0_A_0_eq, sout0_A_1_eq, gate_step V c ⟨m + 1, hn⟩, up_step V c ⟨m + 1, hn⟩, pay2_zero, pay3_zero]
      dsimp only
      rw [h0]
      exact ⟨rfl, rfl⟩
    · have hk : (m + 1) % 4 = m % 4 + 1 := by omega
      have hrow : (m + 1) / 4 % 4 = m / 4 % 4 := by omega
      have hcol : (m + 1) / 16 = m / 16 := by omega
      have hstep : ∀ acc0 acc1 : FVec Ideal S2048x1024 .f32,
          acc0 = (outsAt0 V c m hm).2.1 → acc1 = (outsAt0 V c m hm).2.2 →
          (acc0 (ix2 p q) + PG V c (m + 1) p q ((m + 1) % 4) = chain (PG V c (m + 1) p q) ((m + 1) % 4 + 1))
          ∧ (acc1 (ix2 p q) + PU V c (m + 1) p q ((m + 1) % 4) = chain (PU V c (m + 1) p q) ((m + 1) % 4 + 1)) := by
        intro acc0 acc1 e0 e1
        subst e0; subst e1
        rw [ihg, ihu]
        dsimp only [PG, PU]
        rw [hrow, hcol, hk]
        exact ⟨rfl, rfl⟩
      by_cases h1 : (m + 1) % 4 = 3
      · have e := outsAt0_C V c ⟨m + 1, hn⟩ h0 h1
        dsimp only at e
        rw [e]; dsimp only
        rw [sout0_C_0_eq, sout0_C_1_eq, gate_step V c ⟨m + 1, hn⟩, up_step V c ⟨m + 1, hn⟩]
        exact hstep _ _ rfl rfl
      · have e := outsAt0_B V c ⟨m + 1, hn⟩ h0 h1
        dsimp only at e
        rw [e]; dsimp only
        rw [sout0_B_0_eq, sout0_B_1_eq, gate_step V c ⟨m + 1, hn⟩, up_step V c ⟨m + 1, hn⟩]
        exact hstep _ _ rfl rfl

/-! ## The stored block, and the array -/

/-- The hidden activation at (row, col): silu of the gate projection times the up projection. -/
def hid (c : Dev nD) (row col : ℕ) : EReal :=
  swi (proj 4096 (xArr V c) (wKerB (qwG V c) (scG V c) (bG V c)) row col) (proj 4096 (xArr V c) (wKerB (qwU V c) (scU V c) (bU V c)) row col)

/-- At the last reduction step the stored block is silu(gate) * up of the two accumulators it leaves. -/
theorem out_eq_swi (c : Dev nD) (t : Fin cfg0.N) (h3 : t.val % 4 = 3) (i : S2048x1024.Idx) :
    (outsAt0 V c t.val t.isLt).1 i = swi ((outsAt0 V c t.val t.isLt).2.1 i) ((outsAt0 V c t.val t.isLt).2.2 i) := by
  have h0 : ¬t.val % 4 = 0 := by omega
  rw [outsAt0_C V c t h0 h3]; dsimp only
  rw [out0_C_7_eq, sout0_C_0_eq, sout0_C_1_eq, pay1_apply]

theorem hid_block (c : Dev nD) (t : Fin cfg0.N) (h3 : t.val % 4 = 3) (p : Fin 2048) (q : Fin 1024) :
    (outsAt0 V c t.val t.isLt).1 (ix2 p q) = hid V c (2048 * (t.val / 4 % 4) + p.val) (1024 * (t.val / 16) + q.val) := by
  rw [out_eq_swi V c t h3, (acc_inv V c t.val t.isLt p q).1, (acc_inv V c t.val t.isLt p q).2, h3]
  show swi (chain _ 4) (chain _ 4) = _
  rw [chain_part, chain_part]; rfl

/-- THE HIDDEN-ACTIVATION ARRAY after the region: entry (a, j) is silu(x Wg) * (x Wu) there. -/
theorem final0 (c : Dev nD) (a : Fin 8192) (j : Fin 12288) :
    ((dat0 V c).arrAt 7 cfg0.N : FVec Ideal S8192x12288 .bf16) (ix2 a j) = hid V c a.val j.val :=
  final0_of V c (hid V c) (hid_block V c) a j

end Cert.KernelIdeal.Gen

end
-- ==== Proof.KI.R1Value.lean ====
/-
  What the down projection's pipeline (pipeline 1) leaves in the result array, over the extended reals.

  Entry (a, b) of the result is the contraction, over all 12288 input rows r, of the hidden activation at (a, r) with the
  dequantized weight at (r, b), where the weight is field r % 8 of packed word (r / 8, b) read as a signed number, times
  the scale at (r / 128, b), plus the bias at (r / 128, b).

  The grid's points are (output column tile j, row tile i, reduction step k), k fastest. At step k the body adds to the
  accumulator the product of the activation block (i, k) with the dequantized chunk built from the packed block (k, j)
  and the scale and bias blocks (k, j): entry (p, q) gains the partial contraction over rows 1024 k … 1024 k + 1023. The
  first step starts from the zero block, so after step k the accumulator holds the left fold of the partial contractions
  0 … k; after the last step that fold is their sum, which is the whole contraction, and it is what the point stores
  and the pipeline writes back. The twelve-step tiles' blocks cover the result array.
-/
import proofs.«405969_j49890340110676_2_alg».proof.Proof.KI.R1Frame
import proofs.«405969_j49890340110676_2_alg».proof.Proof.KI.ChunkApply
import Idealize.ShloMosaic.Lib.Pipeline.Value
import Idealize.ShloMosaic.Lib.Ring
import proofs.«405969_j49890340110676_2_alg».proof.Proof.KI.SpecB
import proofs.«405969_j49890340110676_2_alg».proof.Proof.KI.Algebra

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)
open Cert.Spec Idealize.ShloMosaic.ValueIdx

/-! ## What each step leaves, as one function of the blocks -/

section Pieces

variable {F : FTy → Type} [FloatOps F]

theorem hz1 : (![0, 0] : Fin 2 → Nat) = fun _ => 0 := funext fun a => by fin_cases a <;> rfl

set_option maxHeartbeats 2000000 in
/-- A first step leaves the zero block plus the activation block times the dequantized chunk. -/
theorem sout1_A_0_eq (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S128x1024 .i32) (x2 : Vec F S8x1024 .f32) (x3 : Vec F S8x1024 .f32) :
    sout1_A_0 c i arg3 harg3 arg4 harg4 arg5 harg5 arg6 harg6 arg7 harg7 arg8 harg8 hc0 hc1 x0 x1 x2 x3 = accStep (k1_pay4 x0) (deqChunk x1 (k1_pay5 x2) (k1_pay6 x3)) (k1_pay3 (F := F)) := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S2048x1024) hz1]
  simp only [View.readAt_eq_ld, harg3.read_unread, harg4.read_unread, harg5.read_unread, harg6.read_unread, harg8.read_unread, View.readCov_unit_zero (S := S2048x1024) _ hz1, View.ld_unit_zero (S := S2048x1024) hz1, View.ld_unit_zero (S := S128x1024) hz1, View.ld_unit_zero (S := S8x1024) hz1]
  rfl

set_option maxHeartbeats 2000000 in
/-- A middle step leaves the accumulator plus the activation block times the dequantized chunk. -/
theorem sout1_B_0_eq (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S128x1024 .i32) (x2 : Vec F S8x1024 .f32) (x3 : Vec F S8x1024 .f32) (xs0 : Vec F S2048x1024 .f32) :
    sout1_B_0 c i arg3 harg3 arg4 harg4 arg5 harg5 arg6 harg6 arg7 harg7 arg8 harg8 hc0 hc1 x0 x1 x2 x3 xs0 = accStep (k1_pay4 x0) (deqChunk x1 (k1_pay5 x2) (k1_pay6 x3)) xs0 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero hz1]
  simp only [View.readAt_eq_ld, harg3.read_unread, harg4.read_unread, harg5.read_unread, harg6.read_unread, harg8.read_unread, View.ld_unit_zero (S := S2048x1024) hz1, View.ld_unit_zero (S := S128x1024) hz1, View.ld_unit_zero (S := S8x1024) hz1]
  rfl

set_option maxHeartbeats 2000000 in
/-- The last step leaves the same in the accumulator, -/
theorem sout1_C_0_eq (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) :
    sout1_C_0 c i arg3 harg3 arg4 harg4 arg5 harg5 arg6 harg6 arg7 harg7 arg8 harg8 hc0 hc1 x0 x1 x2 x3 xs0 = accStep (k1_pay4 x0) (deqChunk x1 (k1_pay5 x2) (k1_pay6 x3)) xs0 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg3.read_unread, harg4.read_unread, harg5.read_unread, harg6.read_unread, harg8.read_unread, View.ld_unit_zero (S := S2048x1024) hz1, View.ld_unit_zero (S := S128x1024) hz1, View.ld_unit_zero (S := S8x1024) hz1]
  rfl

set_option maxHeartbeats 2000000 in
/-- and stores that into the output block. -/
theorem out1_C_4_eq (c : Dev nD) (i : grid1.Coords) (arg3 : Memref sig .tc .vmem S2048x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S128x1024 .i32) (x2 : Vec F S8x1024 .f32) (x3 : Vec F S8x1024 .f32) (xs0 : Vec F S2048x1024 .f32) :
    out1_C_4 c i arg3 harg3 arg4 harg4 arg5 harg5 arg6 harg6 arg7 harg7 arg8 harg8 hc0 hc1 x0 x1 x2 x3 xs0 = accStep (k1_pay4 x0) (deqChunk x1 (k1_pay5 x2) (k1_pay6 x3)) xs0 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero hz1]
  simp only [View.readAt_eq_ld, harg3.read_unread, harg4.read_unread, harg5.read_unread, harg6.read_unread, harg8.read_unread, View.readCov_unit_zero (S := S2048x1024) _ hz1, View.ld_unit_zero (S := S2048x1024) hz1, View.ld_unit_zero (S := S128x1024) hz1, View.ld_unit_zero (S := S8x1024) hz1]
  rfl

end Pieces

/-! ## The arrays and the blocks, by their literal types -/

section Blocks

variable (V : (c : Dev nD) → (b : Ref sig .tc) → Buf (Elt Ideal) ((c : Thread nD τ).loc b))

/-- The hidden activations, the packed weights, the scales and the biases, as the region finds them. -/
abbrev hArr (c : Dev nD) : FVec Ideal S8192x12288 .bf16 := V c main_v43
abbrev qArr (c : Dev nD) : IVec S1536x4096 32 := V c main_arg7
abbrev sArr (c : Dev nD) : FVec Ideal S96x4096 .f32 := V c main_arg9
abbrev bArr (c : Dev nD) : FVec Ideal S96x4096 .f32 := V c main_v41
/-- Their blocks at point t. -/
abbrev hBlk (c : Dev nD) (t : Fin cfg1.N) : Vec Ideal S2048x1024 .bf16 := iblk1 V c 0 t
abbrev qBlk (c : Dev nD) (t : Fin cfg1.N) : Vec Ideal S128x1024 .i32 := iblk1 V c 1 t
abbrev sBlk (c : Dev nD) (t : Fin cfg1.N) : Vec Ideal S8x1024 .f32 := iblk1 V c 2 t
abbrev bBlk (c : Dev nD) (t : Fin cfg1.N) : Vec Ideal S8x1024 .f32 := iblk1 V c 3 t

/-- The grid is (output column block j, row block i, reduction step k), the last varying fastest: point t has
    j = t / 48, i = t / 12 % 4, k = t % 12. Each window's block index in those terms. -/
theorem idx1 : ∀ t : Fin cfg1.N,
    win1_0.index t (0 : Fin 2) = t.val / 12 % 4 ∧ win1_0.index t (1 : Fin 2) = t.val % 12
    ∧ win1_1.index t (0 : Fin 2) = t.val % 12 ∧ win1_1.index t (1 : Fin 2) = t.val / 48
    ∧ win1_2.index t (0 : Fin 2) = t.val % 12 ∧ win1_2.index t (1 : Fin 2) = t.val / 48
    ∧ win1_3.index t (0 : Fin 2) = t.val % 12 ∧ win1_3.index t (1 : Fin 2) = t.val / 48
    ∧ win1_4.index t (0 : Fin 2) = t.val / 12 % 4 ∧ win1_4.index t (1 : Fin 2) = t.val / 48 :=
  (by decide +kernel : ∀ t : Fin grid1.N, _)

/-- A block's entry is the array's entry at block index times block size plus the coordinate inside the block. -/
theorem hBlk_apply (c : Dev nD) (t : Fin cfg1.N) (p : Fin 2048) (q : Fin 1024) :
    hBlk V c t (ix2 p q) = at2 (hArr V c) (2048 * (t.val / 12 % 4) + p.val) (1024 * (t.val % 12) + q.val) := by
  obtain ⟨e00, e01, e10, e11, e20, e21, e30, e31, e40, e41⟩ := idx1 t
  have hp := p.isLt; have hq := q.isLt
  have ht : t.val < 192 := lt_of_lt_of_eq t.isLt (show cfg1.N = 192 from N_1)
  refine Eq.trans ?_ (at2_ix (hArr V c) ⟨2048 * (t.val / 12 % 4) + p.val, by omega⟩ ⟨1024 * (t.val % 12) + q.val, by omega⟩).symm
  show V c main_v43 (((cfg1.win 0).blk t).view.emb (ix2 p q)) = V c main_v43 (ix2 ⟨2048 * (t.val / 12 % 4) + p.val, _⟩ ⟨1024 * (t.val % 12) + q.val, _⟩)
  congr 1
  funext a
  apply Fin.ext
  match a with
  | ⟨0, _⟩ => show win1_0.index t (0 : Fin 2) * 2048 + 1 * p.val = 2048 * (t.val / 12 % 4) + p.val; rw [e00]; omega
  | ⟨1, _⟩ => show win1_0.index t (1 : Fin 2) * 1024 + 1 * q.val = 1024 * (t.val % 12) + q.val; rw [e01]; omega
theorem qBlk_apply (c : Dev nD) (t : Fin cfg1.N) (p : Fin 128) (q : Fin 1024) :
    qBlk V c t (ix2 p q) = at2 (qArr V c) (128 * (t.val % 12) + p.val) (1024 * (t.val / 48) + q.val) := by
  obtain ⟨e00, e01, e10, e11, e20, e21, e30, e31, e40, e41⟩ := idx1 t
  have hp := p.isLt; have hq := q.isLt
  have ht : t.val < 192 := lt_of_lt_of_eq t.isLt (show cfg1.N = 192 from N_1)
  refine Eq.trans ?_ (at2_ix (qArr V c) ⟨128 * (t.val % 12) + p.val, by omega⟩ ⟨1024 * (t.val / 48) + q.val, by omega⟩).symm
  show V c main_arg7 (((cfg1.win 1).blk t).view.emb (ix2 p q)) = V c main_arg7 (ix2 ⟨128 * (t.val % 12) + p.val, _⟩ ⟨1024 * (t.val / 48) + q.val, _⟩)
  congr 1
  funext a
  apply Fin.ext
  match a with
  | ⟨0, _⟩ => show win1_1.index t (0 : Fin 2) * 128 + 1 * p.val = 128 * (t.val % 12) + p.val; rw [e10]; omega
  | ⟨1, _⟩ => show win1_1.index t (1 : Fin 2) * 1024 + 1 * q.val = 1024 * (t.val / 48) + q.val; rw [e11]; omega
theorem sBlk_apply (c : Dev nD) (t : Fin cfg1.N) (p : Fin 8) (q : Fin 1024) :
    sBlk V c t (ix2 p q) = at2 (sArr V c) (8 * (t.val % 12) + p.val) (1024 * (t.val / 48) + q.val) := by
  obtain ⟨e00, e01, e10, e11, e20, e21, e30, e31, e40, e41⟩ := idx1 t
  have hp := p.isLt; have hq := q.isLt
  have ht : t.val < 192 := lt_of_lt_of_eq t.isLt (show cfg1.N = 192 from N_1)
  refine Eq.trans ?_ (at2_ix (sArr V c) ⟨8 * (t.val % 12) + p.val, by omega⟩ ⟨1024 * (t.val / 48) + q.val, by omega⟩).symm
  show V c main_arg9 (((cfg1.win 2).blk t).view.emb (ix2 p q)) = V c main_arg9 (ix2 ⟨8 * (t.val % 12) + p.val, _⟩ ⟨1024 * (t.val / 48) + q.val, _⟩)
  congr 1
  funext a
  apply Fin.ext
  match a with
  | ⟨0, _⟩ => show win1_2.index t (0 : Fin 2) * 8 + 1 * p.val = 8 * (t.val % 12) + p.val; rw [e20]; omega
  | ⟨1, _⟩ => show win1_2.index t (1 : Fin 2) * 1024 + 1 * q.val = 1024 * (t.val / 48) + q.val; rw [e21]; omega
theorem bBlk_apply (c : Dev nD) (t : Fin cfg1.N) (p : Fin 8) (q : Fin 1024) :
    bBlk V c t (ix2 p q) = at2 (bArr V c) (8 * (t.val % 12) + p.val) (1024 * (t.val / 48) + q.val) := by
  obtain ⟨e00, e01, e10, e11, e20, e21, e30, e31, e40, e41⟩ := idx1 t
  have hp := p.isLt; have hq := q.isLt
  have ht : t.val < 192 := lt_of_lt_of_eq t.isLt (show cfg1.N = 192 from N_1)
  refine Eq.trans ?_ (at2_ix (bArr V c) ⟨8 * (t.val % 12) + p.val, by omega⟩ ⟨1024 * (t.val / 48) + q.val, by omega⟩).symm
  show V c main_v41 (((cfg1.win 3).blk t).view.emb (ix2 p q)) = V c main_v41 (ix2 ⟨8 * (t.val % 12) + p.val, _⟩ ⟨1024 * (t.val / 48) + q.val, _⟩)
  congr 1
  funext a
  apply Fin.ext
  match a with
  | ⟨0, _⟩ => show win1_3.index t (0 : Fin 2) * 8 + 1 * p.val = 8 * (t.val % 12) + p.val; rw [e30]; omega
  | ⟨1, _⟩ => show win1_3.index t (1 : Fin 2) * 1024 + 1 * q.val = 1024 * (t.val / 48) + q.val; rw [e31]; omega

end Blocks

/-! ## One reduction step at an entry -/

section Invariant

variable (V : (c : Dev nD) → (b : Ref sig .tc) → Buf (Elt Ideal) ((c : Thread nD τ).loc b))

/-- The weight the kernel multiplies by, as a function of input row and output column. -/
abbrev wArr (c : Dev nD) (r b : ℕ) : EReal := wKerB (qArr V c) (sArr V c) (bArr V c) r b

/-- Reduction step k of output entry (2048 i + p, 1024 j + q): the contraction over rows 1024 k … 1024 k + 1023. -/
def stepSum (c : Dev nD) (i j p q k : ℕ) : EReal :=
  ∑ r ∈ Finset.range 1024, at2 (hArr V c) (2048 * i + p) (1024 * k + r) * wArr V c (1024 * k + r) (1024 * j + q)

/-- The zero block is zero. -/
theorem zero_apply (p : Fin 2048) (q : Fin 1024) : k1_pay3 (F := Ideal) (ix2 p q) = 0 := by
  show shapeCast S2048x1024 (broadcast S2048x1024 (Scalar.ofBits (F := Ideal) .f32 0x00000000#32)) shapeCasts_S2048x1024_S2048x1024 (ix2 p q) = 0
  rw [shapeCast_self]
  show Ideal.ofBits .f32 0x00000000#32 = 0
  simp [Ideal.ofBits, Ideal.ieee]

set_option maxHeartbeats 1000000 in
/-- One step on the blocks of point t adds that point's partial contraction: the chunk's entry (r, q) is the weight at
    (1024 k + r, 1024 j + q), since (1024 k + r) / 8 = 128 k + r / 8 and (1024 k + r) / 128 = 8 k + r / 128. -/
theorem step_apply (c : Dev nD) (t : Fin cfg1.N) (acc : FVec Ideal S2048x1024 .f32) (p : Fin 2048) (q : Fin 1024) :
    accStep (F := Ideal) (k1_pay4 (hBlk V c t)) (deqChunk (qBlk V c t) (k1_pay5 (sBlk V c t)) (k1_pay6 (bBlk V c t))) acc (ix2 p q)
      = acc (ix2 p q) + stepSum V c (t.val / 12 % 4) (t.val / 48) p.val q.val (t.val % 12) := by
  rw [accStep_apply]
  congr 1
  unfold stepSum
  rw [Finset.sum_range]
  refine Finset.sum_congr rfl (fun r _ => ?_)
  rw [deqChunk_apply]
  have e1 : k1_pay4 (F := Ideal) (hBlk V c t) (ix2 p r) = hBlk V c t (ix2 p r) := congrFun (shapeCast_self (hBlk V c t) shapeCasts_S2048x1024_S2048x1024) (ix2 p r)
  have e2 : k1_pay5 (F := Ideal) (sBlk V c t) (ix2 (⟨r.val / 128, by omega⟩ : Fin 8) q) = sBlk V c t (ix2 (⟨r.val / 128, by omega⟩ : Fin 8) q) := rfl
  have e3 : k1_pay6 (F := Ideal) (bBlk V c t) (ix2 (⟨r.val / 128, by omega⟩ : Fin 8) q) = bBlk V c t (ix2 (⟨r.val / 128, by omega⟩ : Fin 8) q) := congrFun (shapeCast_self (bBlk V c t) shapeCasts_S8x1024_S8x1024) (ix2 (⟨r.val / 128, by omega⟩ : Fin 8) q)
  rw [e1, e2, e3, hBlk_apply V c t p r, qBlk_apply V c t ⟨r.val / 8, by omega⟩ q, sBlk_apply V c t ⟨r.val / 128, by omega⟩ q, bBlk_apply V c t ⟨r.val / 128, by omega⟩ q]
  unfold wArr wKerB qAt
  have hr := r.isLt
  rw [show (1024 * (t.val % 12) + r.val) / 8 = 128 * (t.val % 12) + r.val / 8 by omega,
    show (1024 * (t.val % 12) + r.val) % 8 = r.val % 8 by omega,
    show (1024 * (t.val % 12) + r.val) / 128 = 8 * (t.val % 12) + r.val / 128 by omega]

/-! ## The accumulator after each point -/

set_option maxHeartbeats 2000000 in
/-- At a first step the accumulator restarts: zero plus the step's partial contraction. -/
theorem acc_A (c : Dev nD) (t : Fin cfg1.N) (h0 : t.val % 12 = 0) (h1 : ¬t.val % 12 = 11) (p : Fin 2048) (q : Fin 1024) :
    (outsAt1 V c t.val t.isLt).2 (ix2 p q) = chain (stepSum V c (t.val / 12 % 4) (t.val / 48) p.val q.val) (t.val % 12 + 1) := by
  rw [outsAt1_A V c t h0 h1]; dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (hBlk V c t) (qBlk V c t) (sBlk V c t) (bBlk V c t)) (ix2 p q)).trans ?_
  rw [step_apply V c t (k1_pay3 (F := Ideal)) p q, zero_apply p q, h0]
  rfl

set_option maxHeartbeats 2000000 in
/-- At a later step the accumulator goes on from what the point before left. -/
theorem acc_BC (c : Dev nD) (t : Fin cfg1.N) (h0 : ¬t.val % 12 = 0) (p : Fin 2048) (q : Fin 1024) :
    (outsAt1 V c t.val t.isLt).2 (ix2 p q)
      = (outsAt1 V c (t.val - 1) (Nat.lt_of_le_of_lt (Nat.sub_le _ _) t.isLt)).2 (ix2 p q) + stepSum V c (t.val / 12 % 4) (t.val / 48) p.val q.val (t.val % 12) := by
  by_cases h1 : t.val % 12 = 11
  · rw [outsAt1_C V c t h0 h1]; dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (hBlk V c t) (qBlk V c t) (sBlk V c t) (bBlk V c t) (outsAt1 V c (t.val - 1) (Nat.lt_of_le_of_lt (Nat.sub_le _ _) t.isLt)).2) (ix2 p q)).trans ?_
    exact step_apply V c t (outsAt1 V c (t.val - 1) (Nat.lt_of_le_of_lt (Nat.sub_le _ _) t.isLt)).2 p q
  · rw [outsAt1_B V c t h0 h1]; dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (hBlk V c t) (qBlk V c t) (sBlk V c t) (bBlk V c t) (outsAt1 V c (t.val - 1) (Nat.lt_of_le_of_lt (Nat.sub_le _ _) t.isLt)).2) (ix2 p q)).trans ?_
    exact step_apply V c t (outsAt1 V c (t.val - 1) (Nat.lt_of_le_of_lt (Nat.sub_le _ _) t.isLt)).2 p q

set_option maxHeartbeats 2000000 in
/-- After point n the accumulator's entry (p, q) is the left fold of the partial contractions of steps 0 … n % 12 of
    the output tile the point belongs to. -/
theorem acc_eq (c : Dev nD) : ∀ (n : ℕ) (hn : n < cfg1.N) (p : Fin 2048) (q : Fin 1024),
    (outsAt1 V c n hn).2 (ix2 p q) = chain (stepSum V c (n / 12 % 4) (n / 48) p.val q.val) (n % 12 + 1) := by
  intro n
  induction n with
  | zero =>
    intro hn p q
    have h0 : (⟨0, hn⟩ : Fin cfg1.N).val % 12 = 0 := Nat.zero_mod _
    have h1 : ¬(⟨0, hn⟩ : Fin cfg1.N).val % 12 = 11 := by rw [h0]; omega
    exact acc_A V c ⟨0, hn⟩ h0 h1 p q
  | succ n ih =>
    intro hn p q
    by_cases h0 : (n + 1) % 12 = 0
    · exact acc_A V c ⟨n + 1, hn⟩ h0 (by dsimp only; omega) p q
    · have e1 : (n + 1) / 12 % 4 = n / 12 % 4 := by omega
      have e2 : (n + 1) / 48 = n / 48 := by omega
      have e3 : (n + 1) % 12 = n % 12 + 1 := by omega
      refine (acc_BC V c ⟨n + 1, hn⟩ h0 p q).trans ?_
      show (outsAt1 V c n (Nat.lt_of_succ_lt hn)).2 (ix2 p q) + stepSum V c ((n + 1) / 12 % 4) ((n + 1) / 48) p.val q.val ((n + 1) % 12)
        = chain (stepSum V c ((n + 1) / 12 % 4) ((n + 1) / 48) p.val q.val) ((n + 1) % 12 + 1)
      rw [ih (Nat.lt_of_succ_lt hn) p q, e1, e2, e3]
      rfl

/-! ## The stored block, and the result array -/

/-- The whole contraction at output entry (a, b). -/
def result1 (c : Dev nD) : FVec Ideal S8192x4096 .f32 :=
  fun i => ∑ r ∈ Finset.range 12288, at2 (hArr V c) (i 0).val r * wArr V c r (i 1).val

set_option maxHeartbeats 2000000 in
/-- At a last step the stored block's entry (p, q) is the whole contraction: the fold of the twelve partial
    contractions is their sum, and twelve consecutive runs of 1024 rows are the 12288 rows. -/
theorem out_apply (c : Dev nD) (t : Fin cfg1.N) (h0 : ¬t.val % 12 = 0) (h1 : t.val % 12 = 11) (p : Fin 2048) (q : Fin 1024) :
    (outsAt1 V c t.val t.isLt).1 (ix2 p q)
      = ∑ r ∈ Finset.range 12288, at2 (hArr V c) (2048 * (t.val / 12 % 4) + p.val) r * wArr V c r (1024 * (t.val / 48) + q.val) := by
  have hacc := acc_eq V c t.val t.isLt p q
  rw [acc_BC V c t h0 p q] at hacc
  rw [outsAt1_C V c t h0 h1]; dsimp only
  refine (congrFun (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (hBlk V c t) (qBlk V c t) (sBlk V c t) (bBlk V c t) (outsAt1 V c (t.val - 1) (Nat.lt_of_le_of_lt (Nat.sub_le _ _) t.isLt)).2) (ix2 p q)).trans ?_
  rw [step_apply V c t (outsAt1 V c (t.val - 1) (Nat.lt_of_le_of_lt (Nat.sub_le _ _) t.isLt)).2 p q, hacc, h1, chain_eq_sum]
  unfold stepSum
  exact sum_blocks 12 1024 (fun r => at2 (hArr V c) (2048 * (t.val / 12 % 4) + p.val) r * wArr V c r (1024 * (t.val / 48) + q.val))

/-- An index of the result array is in point t's block iff each coordinate is in the block's range on its axis. -/
theorem mem_blk1 (t : Fin cfg1.N) (i : S8192x4096.Idx) :
    i ∈ ((cfg1.win 4).blk t).view.set ↔ ∀ a : Fin 2, win1_4.index t a * S2048x1024.size a ≤ (i a).val ∧ (i a).val < win1_4.index t a * S2048x1024.size a + S2048x1024.size a := by
  show i ∈ ((View.whole main_v44).slice (win1_4.rect t)).set ↔ _
  rw [View.set_slice_whole, Rect.mem_set_unit]
  exact Iff.rfl

set_option maxHeartbeats 2000000 in
/-- What a point that writes back writes is its block of the whole contraction. -/
theorem flushed1_eq (c : Dev nD) (t : Fin cfg1.N) (hf : (cfg1.win 4).flush t = true) :
    (dat1 V c).flushed 4 t = ((cfg1.win 4).blk t).view.read (Elt Ideal) (result1 V c) := by
  have h1 : t.val % 12 = 11 := (flush1_4 t).mp hf
  have h0 : ¬t.val % 12 = 0 := by omega
  obtain ⟨e00, e01, e10, e11, e20, e21, e30, e31, e40, e41⟩ := idx1 t
  have ht : t.val < 192 := lt_of_lt_of_eq t.isLt (show cfg1.N = 192 from N_1)
  show (cfg1.win 4).cut (grid1.coords t) ((dat1 V c).after 4 t) = _
  rw [after1_4]
  funext y
  obtain ⟨p, q, rfl⟩ : ∃ (p : Fin 2048) (q : Fin 1024), y = ix2 p q := ⟨y 0, y 1, eq_ix2 y⟩
  have hp := p.isLt; have hq := q.isLt
  show (outsAt1 V c t.val t.isLt).1 (ix2 p q) = result1 V c (((cfg1.win 4).blk t).view.emb (ix2 p q))
  rw [out_apply V c t h0 h1 p q]
  have c0 : ((((cfg1.win 4).blk t).view.emb (ix2 p q)) 0).val = 2048 * (t.val / 12 % 4) + p.val := by
    show win1_4.index t (0 : Fin 2) * 2048 + 1 * p.val = _; rw [e40]; omega
  have c1 : ((((cfg1.win 4).blk t).view.emb (ix2 p q)) 1).val = 1024 * (t.val / 48) + q.val := by
    show win1_4.index t (1 : Fin 2) * 1024 + 1 * q.val = _; rw [e41]; omega
  unfold result1
  rw [c0, c1]

/-- Every entry of the result array lies in the block of a point that writes back: entry (a, b) in that of the last
    step of tile (a / 2048, b / 1024). -/
theorem cover1 (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 192 := N_1
  let t : Fin cfg1.N := ⟨((i 1).val / 1024 * 4 + (i 0).val / 2048) * 12 + 11, by omega⟩
  have htv : t.val = ((i 1).val / 1024 * 4 + (i 0).val / 2048) * 12 + 11 := rfl
  obtain ⟨e00, e01, e10, e11, e20, e21, e30, e31, e40, e41⟩ := idx1 t
  refine ⟨t, (flush1_4 t).mpr (by omega), ?_⟩
  rw [mem_blk1]
  intro a
  match a with
  | ⟨0, _⟩ => show win1_4.index t (0 : Fin 2) * 2048 ≤ (i 0).val ∧ (i 0).val < win1_4.index t (0 : Fin 2) * 2048 + 2048; rw [e40]; omega
  | ⟨1, _⟩ => show win1_4.index t (1 : Fin 2) * 1024 ≤ (i 1).val ∧ (i 1).val < win1_4.index t (1 : Fin 2) * 1024 + 1024; rw [e41]; omega

/-- The result array after the pipeline, by its literal type. -/
abbrev oArr (c : Dev nD) : FVec Ideal S8192x4096 .f32 := (dat1 V c).arrAt 4 cfg1.N

/-- The result array ends holding the whole contraction. -/
theorem arr1_eq (c : Dev nD) : (dat1 V c).arrAt 4 cfg1.N = result1 V c :=
  (dat1 V c).arrAt_eq_of_cover 4 (result1 V c) (flushed1_eq V c) cover1

/-- WHAT THE PIPELINE LEAVES IN THE RESULT ARRAY: entry (a, b) is the contraction of row a of the hidden activations with
    column b of the dequantized weights, over all 12288 input rows. -/
theorem final1 (c : Dev nD) (a : Fin 8192) (b : Fin 4096) :
    ((dat1 V c).arrAt 4 cfg1.N : FVec Ideal S8192x4096 .f32) (ix2 a b)
      = ∑ r ∈ Finset.range 12288, at2 (α := EReal) (R := 8192) (C := 12288) (V c main_v43) a.val r
          * wKerB (V c main_arg7 : IVec S1536x4096 32) (V c main_arg9 : FVec Ideal S96x4096 .f32) (V c main_v41 : FVec Ideal S96x4096 .f32) r b.val :=
  congrFun (arr1_eq V c) (ix2 a b)

/-- The same over the arrays' names. -/
theorem final1_named (c : Dev nD) (a : Fin 8192) (b : Fin 4096) :
    oArr V c (ix2 a b)
      = ∑ r ∈ Finset.range 12288, at2 (hArr V c) a.val r * wKerB (qArr V c) (sArr V c) (bArr V c) r b.val :=
  congrFun (arr1_eq V c) (ix2 a b)

end Invariant

end Cert.KernelIdeal.Gen

end
-- ==== Proof.KI.HostBias.lean ====
/-
  What the host operations before the first kernel leave in the buffers the kernels read: the three bias arrays
  bias = -(z * s) — z the zero points unpacked from their words (field c % 8 of word column c / 8), read as numbers,
  s the scales — and the activations in the kernel's input format (at exact values: themselves).
-/
import proofs.«405969_j49890340110676_2_alg».proof.Proof.Gen.KernelIdeal.Launch
import proofs.«405969_j49890340110676_2_alg».proof.Proof.KI.Spec
import Idealize.ShloMosaic.Lib.StableHlo.Run
import Idealize.ShloMosaic.Lib.Pipeline.Value
import Idealize.ShloMosaic.Lib.ValueIdx

set_option maxRecDepth 16384

noncomputable section

namespace Cert.KernelIdeal.Gen

open Idealize.ShloMosaic Idealize.ShloMosaic.TcCoe

variable {F : FTy → Type} [FloatOps F]

open Cert.Spec Idealize.ShloMosaic.ValueIdx

/-! ## The terms -/

/-- The bias of the gate and up projections: unpack, convert, times the scales, negated. -/
def biasGU (QZ : IVec S32x1536 32) (SC : FVec F S32x12288 .f32) : FVec F S32x12288 .f32 :=
  Host.negf (mulf (shapeCast S32x12288 (sitofp .f32 (andi
      (Host.shrsi (broadcastInDim S32x1536x8 ![0, 1, 2] bcast_S32x1536x1_S32x1536x8_0_1_2 (broadcastInDim S32x1536x1 ![0, 1] bcast_S32x1536_S32x1536x1_0_1 QZ))
        (broadcastInDim S32x1536x8 ![0, 1, 2] bcast_S1x1x8_S32x1536x8_0_1_2 (broadcastInDim S1x1x8 ![2] bcast_S8_S1x1x8_2
          (muli (iotaInDim S8 32 0) (broadcastInDim S8 ![] bcast_S_S8 (constantI S_ 32 4#32))))))
      (broadcastInDim S32x1536x8 ![] bcast_S_S32x1536x8 (constantI S_ 32 15#32)))) shapeCasts_S32x1536x8_S32x12288) SC)

/-- The bias of the down projection. -/
def biasD (QZ : IVec S96x512 32) (SC : FVec F S96x4096 .f32) : FVec F S96x4096 .f32 :=
  Host.negf (mulf (shapeCast S96x4096 (sitofp .f32 (andi
      (Host.shrsi (broadcastInDim S96x512x8 ![0, 1, 2] bcast_S96x512x1_S96x512x8_0_1_2 (broadcastInDim S96x512x1 ![0, 1] bcast_S96x512_S96x512x1_0_1 QZ))
        (broadcastInDim S96x512x8 ![0, 1, 2] bcast_S1x1x8_S96x512x8_0_1_2 (broadcastInDim S1x1x8 ![2] bcast_S8_S1x1x8_2
          (muli (iotaInDim S8 32 0) (broadcastInDim S8 ![] bcast_S_S8 (constantI S_ 32 4#32))))))
      (broadcastInDim S96x512x8 ![] bcast_S_S96x512x8 (constantI S_ 32 15#32)))) shapeCasts_S96x512x8_S96x4096) SC)

/-! ## What the 49 host operations write, from any buffer contents -/

theorem after_main_v13 (W0 : Valuation τ sig (Elt F)) :
    (StableHlo.after hostOps0 W0 (Proc.devRef .tc main_v13) : FVec F S32x12288 .f32) = biasGU (W0 (Proc.devRef .tc main_arg2)) (W0 (Proc.devRef .tc main_arg3)) := by
  after_results; rfl
set_option maxHeartbeats 4000000 in
theorem after_main_v27 (W0 : Valuation τ sig (Elt F)) :
    (StableHlo.after hostOps0 W0 (Proc.devRef .tc main_v27) : FVec F S32x12288 .f32) = biasGU (W0 (Proc.devRef .tc main_arg5)) (W0 (Proc.devRef .tc main_arg6)) := by
  after_results; rfl
set_option maxHeartbeats 4000000 in
theorem after_main_v41 (W0 : Valuation τ sig (Elt F)) :
    (StableHlo.after hostOps0 W0 (Proc.devRef .tc main_v41) : FVec F S96x4096 .f32) = biasD (W0 (Proc.devRef .tc main_arg8)) (W0 (Proc.devRef .tc main_arg9)) := by
  after_results; rfl
set_option maxHeartbeats 4000000 in
theorem after_main_v42 (W0 : Valuation τ sig (Elt F)) :
    (StableHlo.after hostOps0 W0 (Proc.devRef .tc main_v42) : FVec F S8192x4096 .bf16) = truncf .bf16 (W0 (Proc.devRef .tc main_arg0)) bitsLt_bf16_f32 := by
  after_results

/-! ## The bias at an index -/

/-- The shift amount of field p as the host computes it (p * 4) is 4 p, below the word size. -/
theorem shiftWord : ∀ p : Fin 8, IntOp.muli (BitVec.ofNat 32 p.val) 4#32 = sh4 p.val ∧ (sh4 p.val).toNat < 32 := by decide

/-- The host's arithmetic shift by such an amount, masked to four bits, is the field. -/
theorem shrsi_host_field (w : BitVec 32) (p : Fin 8) : IntOp.andi (IntOp.shrsi .host w (sh4 p.val)) 15#32 = nib w (sh4 p.val) := by
  unfold IntOp.shrsi IntOp.andi nib
  rw [if_pos (shiftWord p).2]

theorem biasGU_apply (QZ : IVec S32x1536 32) (SC : FVec Ideal S32x12288 .f32) (g : Fin 32) (c : Fin 12288) :
    biasGU (F := Ideal) QZ SC (ix2 g c) = biasAt QZ SC g.val c.val := by
  have hb : c.val / 8 < 1536 := by have := c.isLt; omega
  have hp : c.val % 8 < 8 := Nat.mod_lt _ (by decide)
  unfold biasGU biasAt zAt
  rw [at2_ix QZ g ⟨c.val / 8, hb⟩, at2_ix SC g c]
  show -(FloatOps.mulf (F := Ideal) (shapeCast S32x12288 _ shapeCasts_S32x1536x8_S32x12288 (ix2 g c)) (SC (ix2 g c))) = _
  rw [shapeCast_apply _ _ (ix2 g c) (ix3 g ⟨c.val / 8, hb⟩ ⟨c.val % 8, hp⟩) (by
    rw [Shape.rowMajor_val_three, Shape.rowMajor_val_two]
    show (g.val * 1536 + c.val / 8) * 8 + c.val % 8 = g.val * 12288 + c.val
    omega)]
  show -(FloatOps.mulf (F := Ideal) (FloatOps.sitofp .f32 (IntOp.andi (IntOp.shrsi .host
      (broadcastInDim S32x1536x8 ![0, 1, 2] bcast_S32x1536x1_S32x1536x8_0_1_2 (broadcastInDim S32x1536x1 ![0, 1] bcast_S32x1536_S32x1536x1_0_1 QZ) (ix3 g ⟨c.val / 8, hb⟩ ⟨c.val % 8, hp⟩))
      (broadcastInDim S32x1536x8 ![0, 1, 2] bcast_S1x1x8_S32x1536x8_0_1_2 (broadcastInDim S1x1x8 ![2] bcast_S8_S1x1x8_2
          (muli (iotaInDim S8 32 0) (broadcastInDim S8 ![] bcast_S_S8 (constantI S_ 32 4#32)))) (ix3 g ⟨c.val / 8, hb⟩ ⟨c.val % 8, hp⟩)))
      (broadcastInDim S32x1536x8 ![] bcast_S_S32x1536x8 (constantI S_ 32 15#32) (ix3 g ⟨c.val / 8, hb⟩ ⟨c.val % 8, hp⟩)))) (SC (ix2 g c))) = _
  rw [broadcastInDim_apply _ _ _ (ix3 g ⟨c.val / 8, hb⟩ ⟨c.val % 8, hp⟩) (ix3 g ⟨c.val / 8, hb⟩ (0 : Fin 1)) (fun a => by
        match a with | ⟨0, _⟩ => rfl | ⟨1, _⟩ => rfl | ⟨2, _⟩ => rfl),
    broadcastInDim_apply _ _ QZ (ix3 g ⟨c.val / 8, hb⟩ (0 : Fin 1)) (ix2 g ⟨c.val / 8, hb⟩) (fun a => by
        match a with | ⟨0, _⟩ => rfl | ⟨1, _⟩ => rfl),
    broadcastInDim_apply _ _ _ (ix3 g ⟨c.val / 8, hb⟩ ⟨c.val % 8, hp⟩) (ix3 (0 : Fin 1) (0 : Fin 1) (⟨c.val % 8, hp⟩ : Fin 8)) (fun a => by
        match a with | ⟨0, _⟩ => rfl | ⟨1, _⟩ => rfl | ⟨2, _⟩ => rfl),
    broadcastInDim_apply _ _ _ (ix3 (0 : Fin 1) (0 : Fin 1) (⟨c.val % 8, hp⟩ : Fin 8)) (ix1 (⟨c.val % 8, hp⟩ : Fin 8)) (fun a => by
        match a with | ⟨0, _⟩ => rfl)]
  show -(FloatOps.mulf (F := Ideal) (FloatOps.sitofp .f32 (IntOp.andi (IntOp.shrsi .host (QZ (ix2 g ⟨c.val / 8, hb⟩))
      (IntOp.muli (BitVec.ofNat 32 (c.val % 8)) 4#32)) 15#32)) (SC (ix2 g c))) = _
  rw [(shiftWord ⟨c.val % 8, hp⟩).1, shrsi_host_field _ ⟨c.val % 8, hp⟩]
  rfl

theorem biasD_apply (QZ : IVec S96x512 32) (SC : FVec Ideal S96x4096 .f32) (g : Fin 96) (c : Fin 4096) :
    biasD (F := Ideal) QZ SC (ix2 g c) = biasAt QZ SC g.val c.val := by
  have hb : c.val / 8 < 512 := by have := c.isLt; omega
  have hp : c.val % 8 < 8 := Nat.mod_lt _ (by decide)
  unfold biasD biasAt zAt
  rw [at2_ix QZ g ⟨c.val / 8, hb⟩, at2_ix SC g c]
  show -(FloatOps.mulf (F := Ideal) (shapeCast S96x4096 _ shapeCasts_S96x512x8_S96x4096 (ix2 g c)) (SC (ix2 g c))) = _
  rw [shapeCast_apply _ _ (ix2 g c) (ix3 g ⟨c.val / 8, hb⟩ ⟨c.val % 8, hp⟩) (by
    rw [Shape.rowMajor_val_three, Shape.rowMajor_val_two]
    show (g.val * 512 + c.val / 8) * 8 + c.val % 8 = g.val * 4096 + c.val
    omega)]
  show -(FloatOps.mulf (F := Ideal) (FloatOps.sitofp .f32 (IntOp.andi (IntOp.shrsi .host
      (broadcastInDim S96x512x8 ![0, 1, 2] bcast_S96x512x1_S96x512x8_0_1_2 (broadcastInDim S96x512x1 ![0, 1] bcast_S96x512_S96x512x1_0_1 QZ) (ix3 g ⟨c.val / 8, hb⟩ ⟨c.val % 8, hp⟩))
      (broadcastInDim S96x512x8 ![0, 1, 2] bcast_S1x1x8_S96x512x8_0_1_2 (broadcastInDim S1x1x8 ![2] bcast_S8_S1x1x8_2
          (muli (iotaInDim S8 32 0) (broadcastInDim S8 ![] bcast_S_S8 (constantI S_ 32 4#32)))) (ix3 g ⟨c.val / 8, hb⟩ ⟨c.val % 8, hp⟩)))
      (broadcastInDim S96x512x8 ![] bcast_S_S96x512x8 (constantI S_ 32 15#32) (ix3 g ⟨c.val / 8, hb⟩ ⟨c.val % 8, hp⟩)))) (SC (ix2 g c))) = _
  rw [broadcastInDim_apply _ _ _ (ix3 g ⟨c.val / 8, hb⟩ ⟨c.val % 8, hp⟩) (ix3 g ⟨c.val / 8, hb⟩ (0 : Fin 1)) (fun a => by
        match a with | ⟨0, _⟩ => rfl | ⟨1, _⟩ => rfl | ⟨2, _⟩ => rfl),
    broadcastInDim_apply _ _ QZ (ix3 g ⟨c.val / 8, hb⟩ (0 : Fin 1)) (ix2 g ⟨c.val / 8, hb⟩) (fun a => by
        match a with | ⟨0, _⟩ => rfl | ⟨1, _⟩ => rfl),
    broadcastInDim_apply _ _ _ (ix3 g ⟨c.val / 8, hb⟩ ⟨c.val % 8, hp⟩) (ix3 (0 : Fin 1) (0 : Fin 1) (⟨c.val % 8, hp⟩ : Fin 8)) (fun a => by
        match a with | ⟨0, _⟩ => rfl | ⟨1, _⟩ => rfl | ⟨2, _⟩ => rfl),
    broadcastInDim_apply _ _ _ (ix3 (0 : Fin 1) (0 : Fin 1) (⟨c.val % 8, hp⟩ : Fin 8)) (ix1 (⟨c.val % 8, hp⟩ : Fin 8)) (fun a => by
        match a with | ⟨0, _⟩ => rfl)]
  show -(FloatOps.mulf (F := Ideal) (FloatOps.sitofp .f32 (IntOp.andi (IntOp.shrsi .host (QZ (ix2 g ⟨c.val / 8, hb⟩))
      (IntOp.muli (BitVec.ofNat 32 (c.val % 8)) 4#32)) 15#32)) (SC (ix2 g c))) = _
  rw [(shiftWord ⟨c.val % 8, hp⟩).1, shrsi_host_field _ ⟨c.val % 8, hp⟩]
  rfl

end Cert.KernelIdeal.Gen

end
-- ==== Proof.KI.KernelValue.lean ====
/-
  The kernel program's result as the layer's closed form over the launch arguments.

  The host operations leave, where the first region is entered, every argument as launched, the activations rounded
  (at exact values: themselves) and the bias arrays -(z * s); the first region's result is what the second region
  reads, and the second region reads its own argument arrays and bias as the host operations left them. With the
  bias arrays identified, the weight q * s + b read from arrays is the closed form q * s + (-(z * s)), and the two
  regions' sums compose to the layer.
-/
import proofs.«405969_j49890340110676_2_alg».proof.Proof.KI.Run
import proofs.«405969_j49890340110676_2_alg».proof.Proof.KI.HostBias
import proofs.«405969_j49890340110676_2_alg».proof.Proof.KI.Algebra
import proofs.«405969_j49890340110676_2_alg».proof.Proof.KI.SpecB
import proofs.«405969_j49890340110676_2_alg».proof.Proof.KI.Spec

set_option maxRecDepth 16384

noncomputable section

namespace Cert.KernelIdeal.Gen

open Idealize.ShloMosaic Idealize.ShloMosaic.TcCoe
open Idealize.SL.Sem
open Cert.Spec Idealize.ShloMosaic.ValueIdx

/-! ## The algebra, over plain arrays -/

/-- If the arrays the two regions read are the launch arguments, the bias arrays hold -(z * s), and the first
    region's result H holds silu(x Wg) * (x Wu) over the array-read weights, then the second region's sum over H
    is the layer over the closed-form weights. -/
theorem layer_of_regions
    (X : (M 8192 4096).Idx → EReal)
    (QWg : (M 512 12288).Idx → BitVec 32) (QZg : (M 32 1536).Idx → BitVec 32) (SCg : (M 32 12288).Idx → EReal)
    (QWu : (M 512 12288).Idx → BitVec 32) (QZu : (M 32 1536).Idx → BitVec 32) (SCu : (M 32 12288).Idx → EReal)
    (QWd : (M 1536 4096).Idx → BitVec 32) (QZd : (M 96 512).Idx → BitVec 32) (SCd : (M 96 4096).Idx → EReal)
    (Xb : (M 8192 4096).Idx → EReal)
    (QWg1 : (M 512 12288).Idx → BitVec 32) (SCg1 Bg1 : (M 32 12288).Idx → EReal)
    (QWu1 : (M 512 12288).Idx → BitVec 32) (SCu1 Bu1 : (M 32 12288).Idx → EReal)
    (H2 : (M 8192 12288).Idx → EReal)
    (QWd2 : (M 1536 4096).Idx → BitVec 32) (SCd2 Bd2 : (M 96 4096).Idx → EReal)
    (hXb : Xb = X) (hQWg : QWg1 = QWg) (hSCg : SCg1 = SCg) (hQWu : QWu1 = QWu) (hSCu : SCu1 = SCu)
    (hQWd : QWd2 = QWd) (hSCd : SCd2 = SCd)
    (hBg : ∀ (g : Fin 32) (j : Fin 12288), Bg1 (ix2 g j) = biasAt QZg SCg g.val j.val)
    (hBu : ∀ (g : Fin 32) (j : Fin 12288), Bu1 (ix2 g j) = biasAt QZu SCu g.val j.val)
    (hBd : ∀ (g : Fin 96) (j : Fin 4096), Bd2 (ix2 g j) = biasAt QZd SCd g.val j.val)
    (hH : ∀ (a : Fin 8192) (j : Fin 12288), H2 (ix2 a j)
        = swi (proj 4096 Xb (wKerB QWg1 SCg1 Bg1) a.val j.val) (proj 4096 Xb (wKerB QWu1 SCu1 Bu1) a.val j.val))
    (a : Fin 8192) (b : Fin 4096) :
    ∑ r ∈ Finset.range 12288, at2 H2 a.val r * wKerB QWd2 SCd2 Bd2 r b.val
      = mlp X (wKer QWg QZg SCg) (wKer QWu QZu SCu) (wKer QWd QZd SCd) a.val b.val := by
  subst hXb hQWg hSCg hQWu hSCu hQWd hSCd
  unfold mlp
  refine Finset.sum_congr rfl fun r hr => ?_
  have hr' : r < 12288 := Finset.mem_range.mp hr
  have hg : r / 128 < 96 := by omega
  rw [at2_ix H2 a ⟨r, hr'⟩, hH a ⟨r, hr'⟩]
  rw [proj_congr 4096 Xb (wKerB QWg1 SCg1 Bg1) (wKer QWg1 QZg SCg1) a.val r (fun k hk =>
      wKerB_eq_wKer QWg1 QZg SCg1 Bg1 k r (by
        have hk' : k / 128 < 32 := by omega
        rw [at2_ix Bg1 ⟨k / 128, hk'⟩ ⟨r, hr'⟩]; exact hBg ⟨k / 128, hk'⟩ ⟨r, hr'⟩)),
    proj_congr 4096 Xb (wKerB QWu1 SCu1 Bu1) (wKer QWu1 QZu SCu1) a.val r (fun k hk =>
      wKerB_eq_wKer QWu1 QZu SCu1 Bu1 k r (by
        have hk' : k / 128 < 32 := by omega
        rw [at2_ix Bu1 ⟨k / 128, hk'⟩ ⟨r, hr'⟩]; exact hBu ⟨k / 128, hk'⟩ ⟨r, hr'⟩)),
    wKerB_eq_wKer QWd2 QZd SCd2 Bd2 r b.val (by
      rw [at2_ix Bd2 ⟨r / 128, hg⟩ b]; exact hBd ⟨r / 128, hg⟩ b)]

/-! ## What the buffers hold where the regions are entered -/

variable (m : (ℓ : Loc nD τ sig) → Buf (Elt Ideal) ℓ) (ρ : Dev nD → PrngReg)

/-- No host operation writes an argument: where the first region is entered it is as launched. -/
theorem V1_of (c : Dev nD) (r : Ref sig .tc) (h : r ∉ hostOps0_Wr) : V1 m ρ c r = m ((c : Thread nD τ).loc r) :=
  W1_of m ρ c r h

/-- A buffer that is no array of the first region is, where the second is entered, as where the first was. -/
theorem V2_of (c : Dev nD) (r : Ref sig .tc) (h : ∀ w, Pipeline.arrRef spec0 w ≠ r) : V2 m ρ c r = V1 m ρ c r :=
  W2_of_ne m ρ c r h

theorem kernel_value (c : Dev nD)
    (hfin0 : ∀ (a : Fin 8192) (j : Fin 12288), ((dat0 (V1 m ρ) c).arrAt 7 cfg0.N : FVec Ideal S8192x12288 .bf16) (ix2 a j)
        = swi (proj 4096 (V1 m ρ c main_v42 : FVec Ideal S8192x4096 .bf16) (wKerB (V1 m ρ c main_arg1 : IVec S512x12288 32) (V1 m ρ c main_arg3 : FVec Ideal S32x12288 .f32) (V1 m ρ c main_v13 : FVec Ideal S32x12288 .f32)) a.val j.val)
              (proj 4096 (V1 m ρ c main_v42 : FVec Ideal S8192x4096 .bf16) (wKerB (V1 m ρ c main_arg4 : IVec S512x12288 32) (V1 m ρ c main_arg6 : FVec Ideal S32x12288 .f32) (V1 m ρ c main_v27 : FVec Ideal S32x12288 .f32)) a.val j.val))
    (hfin1 : ∀ (a : Fin 8192) (b : Fin 4096), ((dat1 (V2 m ρ) c).arrAt 4 cfg1.N : FVec Ideal S8192x4096 .f32) (ix2 a b)
        = ∑ r ∈ Finset.range 12288, at2 (α := EReal) (R := 8192) (C := 12288) (V2 m ρ c main_v43) a.val r
            * wKerB (V2 m ρ c main_arg7 : IVec S1536x4096 32) (V2 m ρ c main_arg9 : FVec Ideal S96x4096 .f32) (V2 m ρ c main_v41 : FVec Ideal S96x4096 .f32) r b.val)
    (a : Fin 8192) (b : Fin 4096) :
    ((dat1 (V2 m ρ) c).arrAt 4 cfg1.N : FVec Ideal S8192x4096 .f32) (ix2 a b)
      = mlp (m ((c : Thread nD τ).loc main_arg0) : FVec Ideal S8192x4096 .f32)
          (wKer (m ((c : Thread nD τ).loc main_arg1) : IVec S512x12288 32) (m ((c : Thread nD τ).loc main_arg2) : IVec S32x1536 32) (m ((c : Thread nD τ).loc main_arg3) : FVec Ideal S32x12288 .f32))
          (wKer (m ((c : Thread nD τ).loc main_arg4) : IVec S512x12288 32) (m ((c : Thread nD τ).loc main_arg5) : IVec S32x1536 32) (m ((c : Thread nD τ).loc main_arg6) : FVec Ideal S32x12288 .f32))
          (wKer (m ((c : Thread nD τ).loc main_arg7) : IVec S1536x4096 32) (m ((c : Thread nD τ).loc main_arg8) : IVec S96x512 32) (m ((c : Thread nD τ).loc main_arg9) : FVec Ideal S96x4096 .f32)) a.val b.val := by
  have hXb : (V1 m ρ c main_v42 : FVec Ideal S8192x4096 .bf16) = (m ((c : Thread nD τ).loc main_arg0) : FVec Ideal S8192x4096 .f32) :=
    (after_main_v42 (W0 m ρ c)).trans rfl
  have hBg : ∀ (g : Fin 32) (j : Fin 12288), (V1 m ρ c main_v13 : FVec Ideal S32x12288 .f32) (ix2 g j)
      = biasAt (m ((c : Thread nD τ).loc main_arg2) : IVec S32x1536 32) (m ((c : Thread nD τ).loc main_arg3) : FVec Ideal S32x12288 .f32) g.val j.val :=
    fun g j => (congrFun (after_main_v13 (W0 m ρ c)) (ix2 g j)).trans (biasGU_apply _ _ g j)
  have hBu : ∀ (g : Fin 32) (j : Fin 12288), (V1 m ρ c main_v27 : FVec Ideal S32x12288 .f32) (ix2 g j)
      = biasAt (m ((c : Thread nD τ).loc main_arg5) : IVec S32x1536 32) (m ((c : Thread nD τ).loc main_arg6) : FVec Ideal S32x12288 .f32) g.val j.val :=
    fun g j => (congrFun (after_main_v27 (W0 m ρ c)) (ix2 g j)).trans (biasGU_apply _ _ g j)
  have hBd : ∀ (g : Fin 96) (j : Fin 4096), (V2 m ρ c main_v41 : FVec Ideal S96x4096 .f32) (ix2 g j)
      = biasAt (m ((c : Thread nD τ).loc main_arg8) : IVec S96x512 32) (m ((c : Thread nD τ).loc main_arg9) : FVec Ideal S96x4096 .f32) g.val j.val :=
    fun g j => (congrFun (V2_of m ρ c main_v41 (by decide)) (ix2 g j)).trans
      ((congrFun (after_main_v41 (W0 m ρ c)) (ix2 g j)).trans (biasD_apply _ _ g j))
  have hH : ∀ (a : Fin 8192) (j : Fin 12288), (V2 m ρ c main_v43 : FVec Ideal S8192x12288 .bf16) (ix2 a j)
      = swi (proj 4096 (V1 m ρ c main_v42 : FVec Ideal S8192x4096 .bf16) (wKerB (V1 m ρ c main_arg1 : IVec S512x12288 32) (V1 m ρ c main_arg3 : FVec Ideal S32x12288 .f32) (V1 m ρ c main_v13 : FVec Ideal S32x12288 .f32)) a.val j.val)
            (proj 4096 (V1 m ρ c main_v42 : FVec Ideal S8192x4096 .bf16) (wKerB (V1 m ρ c main_arg4 : IVec S512x12288 32) (V1 m ρ c main_arg6 : FVec Ideal S32x12288 .f32) (V1 m ρ c main_v27 : FVec Ideal S32x12288 .f32)) a.val j.val) :=
    fun a j => (congrFun (hF0 m ρ c 7).symm (ix2 a j)).trans (hfin0 a j)
  refine (hfin1 a b).trans ?_
  exact layer_of_regions
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))
    (V1 m ρ c main_v42) (V1 m ρ c main_arg1) (V1 m ρ c main_arg3) (V1 m ρ c main_v13)
    (V1 m ρ c main_arg4) (V1 m ρ c main_arg6) (V1 m ρ c main_v27)
    (V2 m ρ c main_v43) (V2 m ρ c main_arg7) (V2 m ρ c main_arg9) (V2 m ρ c main_v41)
    hXb (V1_of m ρ c main_arg1 (by decide)) (V1_of m ρ c main_arg3 (by decide))
    (V1_of m ρ c main_arg4 (by decide)) (V1_of m ρ c main_arg6 (by decide))
    ((V2_of m ρ c main_arg7 (by decide)).trans (V1_of m ρ c main_arg7 (by decide)))
    ((V2_of m ρ c main_arg9 (by decide)).trans (V1_of m ρ c main_arg9 (by decide)))
    hBg hBu hBd hH a b

end Cert.KernelIdeal.Gen

end
-- ==== Proof.KI.RefValue.lean ====
/-
  The reference's result, index by index, at the ideal instance.

  Each weight matrix is dequantized as (q - z) * s: q the 4-bit fields of the packed words unpacked along the input
  dimension (row 8a + p is field p of word row a), z the zero points unpacked along the output dimension (column
  8b + p is field p of word column b) and repeated over the 128 rows of a group, s the scales repeated the same way;
  the difference is taken on 32-bit integers before the conversion to an extended real. The result is
  (silu(x Wg) * (x Wu)) Wd with silu(g) = g * (1 / (1 + exp(-g))) = g * logistic(g).

  Every stage is read at an index from its operands at an index; a reshape's row-major arithmetic is plain
  arithmetic on the coordinates (division and remainder by 8, 128 and the row length).
-/
import proofs.«405969_j49890340110676_2_alg».proof.Proof.Gen.ReferenceIdeal.Run
import proofs.«405969_j49890340110676_2_alg».proof.Proof.Gen.ReferenceIdeal.Read
import proofs.«405969_j49890340110676_2_alg».proof.Proof.KI.Spec
import Idealize.ShloMosaic.Lib.IdealHost

noncomputable section

namespace Cert.ReferenceIdeal.RefValue

open Cert.ReferenceIdeal Cert.ReferenceIdeal.Gen Cert.ReferenceIdeal.Read Cert.Spec
open Idealize.ShloMosaic Idealize.ShloMosaic.ValueIdx

/-! ## A field of a word -/

/-- Lane p of the shift vector, p * 4 as a word, is the shift amount of field p. -/
theorem shift_lane (p : Fin 8) : IntOp.muli (BitVec.ofNat 32 p.val) 4#32 = sh4 p.val := by
  revert p; decide

/-- A field's shift amount is below the word width. -/
theorem sh4_lt (p : Fin 8) : (sh4 p.val).toNat < 32 := by
  revert p; decide

/-- Shift right (arithmetic) by lane p of the shift vector, then mask the low four bits: field p of the word. -/
theorem field_read (w : BitVec 32) (p : ℕ) (hp : p < 8) :
    IntOp.andi (IntOp.shrsi .host w (IntOp.muli (BitVec.ofNat 32 p) 4#32)) 15#32 = nib w (sh4 p) := by
  have h1 : IntOp.muli (BitVec.ofNat 32 p) 4#32 = sh4 p := shift_lane ⟨p, hp⟩
  have h2 : (sh4 p).toNat < 32 := sh4_lt ⟨p, hp⟩
  rw [h1]
  unfold IntOp.shrsi
  rw [if_pos h2]
  rfl

/-! ## The gate weights -/

/-- The unpacked gate weights: row r is field r % 8 of word row r / 8. -/
theorem gate_q (QW : IVec S512x12288 32) (r : Fin 4096) (c : Fin 12288) :
    val_main_v10 (F := Ideal) QW (ix2 r c) = qAt QW r.val c.val := by
  have hr := r.isLt
  have hc := c.isLt
  rw [val_main_v10_apply, val_main_v9_apply, val_main_v7_apply, val_main_v8_apply, val_main_c_0_apply,
    val_main_v5_apply, val_main_v3_apply, val_main_v6_apply, val_main_v4_apply, val_main_v2_apply,
    val_main_v0_apply, val_main_v1_apply, val_main_c_apply]
  have hp : ((idx_main_v4 (idx_main_v6 (idx_main_v10 (ix2 r c)))) 0).val = r.val % 8 := by
    show (r.val * 12288 + c.val) / 12288 % 8 = r.val % 8
    omega
  have hi : idx_main_v3 (idx_main_v5 (idx_main_v10 (ix2 r c))) = ix2 (⟨r.val / 8, by omega⟩ : Fin 512) c := by
    funext a
    apply Fin.ext
    match a with
    | ⟨0, _⟩ => show (r.val * 12288 + c.val) / 98304 = r.val / 8; omega
    | ⟨1, _⟩ => show (r.val * 12288 + c.val) % 12288 = c.val; omega
  rw [hp, hi, field_read _ _ (Nat.mod_lt _ (by decide))]
  unfold qAt
  rw [← at2_ix QW (⟨r.val / 8, by omega⟩ : Fin 512) c]

/-- The unpacked gate zero points, repeated over the rows of a group: column c of group r / 128 is field c % 8 of
    word column c / 8. -/
theorem gate_z (QZ : IVec S32x1536 32) (r : Fin 4096) (c : Fin 12288) :
    val_main_v20 (F := Ideal) QZ (ix2 r c) = zAt QZ (r.val / 128) c.val := by
  have hr := r.isLt
  have hc := c.isLt
  rw [val_main_v20_apply, val_main_v19_apply, val_main_v18_apply, val_main_v17_apply, val_main_v15_apply,
    val_main_v16_apply, val_main_c_1_apply, val_main_v13_apply, val_main_v11_apply, val_main_v14_apply,
    val_main_v12_apply, val_main_v2_apply, val_main_v0_apply, val_main_v1_apply, val_main_c_apply]
  have hp : ((idx_main_v12 (idx_main_v14 (idx_main_v18 (idx_main_v19 (idx_main_v20 (ix2 r c)))))) 0).val
      = c.val % 8 := by
    show ((r.val * 12288 + c.val) / 1572864 * 12288 + (r.val * 12288 + c.val) % 12288) % 8 = c.val % 8
    omega
  have hi : idx_main_v11 (idx_main_v13 (idx_main_v18 (idx_main_v19 (idx_main_v20 (ix2 r c)))))
      = ix2 (⟨r.val / 128, by omega⟩ : Fin 32) (⟨c.val / 8, by omega⟩ : Fin 1536) := by
    funext a
    apply Fin.ext
    match a with
    | ⟨0, _⟩ =>
      show ((r.val * 12288 + c.val) / 1572864 * 12288 + (r.val * 12288 + c.val) % 12288) / 12288 = r.val / 128
      omega
    | ⟨1, _⟩ =>
      show ((r.val * 12288 + c.val) / 1572864 * 12288 + (r.val * 12288 + c.val) % 12288) / 8 % 1536 = c.val / 8
      omega
  rw [hp, hi, field_read _ _ (Nat.mod_lt _ (by decide))]
  unfold zAt
  rw [← at2_ix QZ (⟨r.val / 128, by omega⟩ : Fin 32) (⟨c.val / 8, by omega⟩ : Fin 1536)]

/-- The gate scales repeated over the rows of a group. -/
theorem gate_s (SC : FVec Ideal S32x12288 .f32) (r : Fin 4096) (c : Fin 12288) :
    val_main_v22 (F := Ideal) SC (ix2 r c) = at2 SC (r.val / 128) c.val := by
  have hr := r.isLt
  have hc := c.isLt
  rw [val_main_v22_apply, val_main_v21_apply]
  have hi : idx_main_v21 (idx_main_v22 (ix2 r c)) = ix2 (⟨r.val / 128, by omega⟩ : Fin 32) c := by
    funext a
    apply Fin.ext
    match a with
    | ⟨0, _⟩ => show (r.val * 12288 + c.val) / 1572864 = r.val / 128; omega
    | ⟨1, _⟩ => show (r.val * 12288 + c.val) % 12288 = c.val; omega
  rw [hi, ← at2_ix SC (⟨r.val / 128, by omega⟩ : Fin 32) c]

/-- The dequantized gate weight: (q - z) * s, the difference on 32-bit integers. -/
theorem gate_w (QW : IVec S512x12288 32) (QZ : IVec S32x1536 32) (SC : FVec Ideal S32x12288 .f32)
    (r : Fin 4096) (c : Fin 12288) :
    val_main_v25 (F := Ideal) QW QZ SC (ix2 r c) = wRef QW QZ SC r.val c.val := by
  rw [val_main_v25_apply, val_main_v24_apply, val_main_v23_apply, gate_q, gate_z, gate_s]
  rfl

/-! ## The up weights: the same stages over the other three arguments -/

theorem up_w (QW : IVec S512x12288 32) (QZ : IVec S32x1536 32) (SC : FVec Ideal S32x12288 .f32)
    (r : Fin 4096) (c : Fin 12288) :
    val_main_v52 (F := Ideal) QW QZ SC (ix2 r c) = wRef QW QZ SC r.val c.val :=
  gate_w QW QZ SC r c

/-! ## The down weights -/

/-- The unpacked down weights: row r is field r % 8 of word row r / 8. -/
theorem down_q (QW : IVec S1536x4096 32) (r : Fin 12288) (c : Fin 4096) :
    val_main_v66 (F := Ideal) QW (ix2 r c) = qAt QW r.val c.val := by
  have hr := r.isLt
  have hc := c.isLt
  rw [val_main_v66_apply, val_main_v65_apply, val_main_v63_apply, val_main_v64_apply, val_main_c_6_apply,
    val_main_v61_apply, val_main_v59_apply, val_main_v62_apply, val_main_v60_apply, val_main_v58_apply,
    val_main_v56_apply, val_main_v57_apply, val_main_c_5_apply]
  have hp : ((idx_main_v60 (idx_main_v62 (idx_main_v66 (ix2 r c)))) 0).val = r.val % 8 := by
    show (r.val * 4096 + c.val) / 4096 % 8 = r.val % 8
    omega
  have hi : idx_main_v59 (idx_main_v61 (idx_main_v66 (ix2 r c))) = ix2 (⟨r.val / 8, by omega⟩ : Fin 1536) c := by
    funext a
    apply Fin.ext
    match a with
    | ⟨0, _⟩ => show (r.val * 4096 + c.val) / 32768 = r.val / 8; omega
    | ⟨1, _⟩ => show (r.val * 4096 + c.val) % 4096 = c.val; omega
  rw [hp, hi, field_read _ _ (Nat.mod_lt _ (by decide))]
  unfold qAt
  rw [← at2_ix QW (⟨r.val / 8, by omega⟩ : Fin 1536) c]

/-- The unpacked down zero points, repeated over the rows of a group. -/
theorem down_z (QZ : IVec S96x512 32) (r : Fin 12288) (c : Fin 4096) :
    val_main_v76 (F := Ideal) QZ (ix2 r c) = zAt QZ (r.val / 128) c.val := by
  have hr := r.isLt
  have hc := c.isLt
  rw [val_main_v76_apply, val_main_v75_apply, val_main_v74_apply, val_main_v73_apply, val_main_v71_apply,
    val_main_v72_apply, val_main_c_7_apply, val_main_v69_apply, val_main_v67_apply, val_main_v70_apply,
    val_main_v68_apply, val_main_v58_apply, val_main_v56_apply, val_main_v57_apply, val_main_c_5_apply]
  have hp : ((idx_main_v68 (idx_main_v70 (idx_main_v74 (idx_main_v75 (idx_main_v76 (ix2 r c)))))) 0).val
      = c.val % 8 := by
    show ((r.val * 4096 + c.val) / 524288 * 4096 + (r.val * 4096 + c.val) % 4096) % 8 = c.val % 8
    omega
  have hi : idx_main_v67 (idx_main_v69 (idx_main_v74 (idx_main_v75 (idx_main_v76 (ix2 r c)))))
      = ix2 (⟨r.val / 128, by omega⟩ : Fin 96) (⟨c.val / 8, by omega⟩ : Fin 512) := by
    funext a
    apply Fin.ext
    match a with
    | ⟨0, _⟩ =>
      show ((r.val * 4096 + c.val) / 524288 * 4096 + (r.val * 4096 + c.val) % 4096) / 4096 = r.val / 128
      omega
    | ⟨1, _⟩ =>
      show ((r.val * 4096 + c.val) / 524288 * 4096 + (r.val * 4096 + c.val) % 4096) / 8 % 512 = c.val / 8
      omega
  rw [hp, hi, field_read _ _ (Nat.mod_lt _ (by decide))]
  unfold zAt
  rw [← at2_ix QZ (⟨r.val / 128, by omega⟩ : Fin 96) (⟨c.val / 8, by omega⟩ : Fin 512)]

/-- The down scales repeated over the rows of a group. -/
theorem down_s (SC : FVec Ideal S96x4096 .f32) (r : Fin 12288) (c : Fin 4096) :
    val_main_v78 (F := Ideal) SC (ix2 r c) = at2 SC (r.val / 128) c.val := by
  have hr := r.isLt
  have hc := c.isLt
  rw [val_main_v78_apply, val_main_v77_apply]
  have hi : idx_main_v77 (idx_main_v78 (ix2 r c)) = ix2 (⟨r.val / 128, by omega⟩ : Fin 96) c := by
    funext a
    apply Fin.ext
    match a with
    | ⟨0, _⟩ => show (r.val * 4096 + c.val) / 524288 = r.val / 128; omega
    | ⟨1, _⟩ => show (r.val * 4096 + c.val) % 4096 = c.val; omega
  rw [hi, ← at2_ix SC (⟨r.val / 128, by omega⟩ : Fin 96) c]

/-- The dequantized down weight. -/
theorem down_w (QW : IVec S1536x4096 32) (QZ : IVec S96x512 32) (SC : FVec Ideal S96x4096 .f32)
    (r : Fin 12288) (c : Fin 4096) :
    val_main_v81 (F := Ideal) QW QZ SC (ix2 r c) = wRef QW QZ SC r.val c.val := by
  rw [val_main_v81_apply, val_main_v80_apply, val_main_v79_apply, down_q, down_z, down_s]
  rfl

/-! ## The two projections, the activation, the result -/

/-- x Wg at (a, c): the contraction over the 4096 input rows. -/
theorem gate_proj (X : FVec Ideal S8192x4096 .f32) (QW : IVec S512x12288 32) (QZ : IVec S32x1536 32)
    (SC : FVec Ideal S32x12288 .f32) (a : Fin 8192) (c : Fin 12288) :
    val_main_v26 (F := Ideal) X QW QZ SC (ix2 a c) = proj 4096 X (wRef QW QZ SC) a.val c.val := by
  rw [val_main_v26_apply]
  unfold proj
  rw [← Fin.sum_univ_eq_sum_range (fun k => at2 X a.val k * wRef QW QZ SC k c.val) 4096]
  refine Finset.sum_congr rfl fun k _ => ?_
  have hl : lidx_main_v26 (ix2 a c) k = ix2 a k := by
    funext d; apply Fin.ext; match d with | ⟨0, _⟩ => rfl | ⟨1, _⟩ => rfl
  have hr : ridx_main_v26 (ix2 a c) k = ix2 k c := by
    funext d; apply Fin.ext; match d with | ⟨0, _⟩ => rfl | ⟨1, _⟩ => rfl
  rw [hl, hr, gate_w, at2_ix X a k]

/-- x Wu at (a, c). -/
theorem up_proj (X : FVec Ideal S8192x4096 .f32) (QW : IVec S512x12288 32) (QZ : IVec S32x1536 32)
    (SC : FVec Ideal S32x12288 .f32) (a : Fin 8192) (c : Fin 12288) :
    val_main_v53 (F := Ideal) X QW QZ SC (ix2 a c) = proj 4096 X (wRef QW QZ SC) a.val c.val := by
  rw [val_main_v53_apply]
  unfold proj
  rw [← Fin.sum_univ_eq_sum_range (fun k => at2 X a.val k * wRef QW QZ SC k c.val) 4096]
  refine Finset.sum_congr rfl fun k _ => ?_
  have hl : lidx_main_v53 (ix2 a c) k = ix2 a k := by
    funext d; apply Fin.ext; match d with | ⟨0, _⟩ => rfl | ⟨1, _⟩ => rfl
  have hr : ridx_main_v53 (ix2 a c) k = ix2 k c := by
    funext d; apply Fin.ext; match d with | ⟨0, _⟩ => rfl | ⟨1, _⟩ => rfl
  rw [hl, hr, up_w, at2_ix X a k]

/-- silu(x Wg) at an index: g * (1 / (1 + exp(-g))) is g * logistic(g). -/
theorem silu_at (X : FVec Ideal S8192x4096 .f32) (QW : IVec S512x12288 32) (QZ : IVec S32x1536 32)
    (SC : FVec Ideal S32x12288 .f32) (i : S8192x12288.Idx) :
    val_main_v54 (F := Ideal) X QW QZ SC i
      = val_main_v26 (F := Ideal) X QW QZ SC i * Ideal.logistic (val_main_v26 (F := Ideal) X QW QZ SC i) := by
  rw [val_main_v54_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

/-- silu(x Wg) * (x Wu) at (a, r). -/
theorem act_at (X : FVec Ideal S8192x4096 .f32) (QWg : IVec S512x12288 32) (QZg : IVec S32x1536 32)
    (SCg : FVec Ideal S32x12288 .f32) (QWu : IVec S512x12288 32) (QZu : IVec S32x1536 32)
    (SCu : FVec Ideal S32x12288 .f32) (a : Fin 8192) (r : Fin 12288) :
    val_main_v55 (F := Ideal) X QWg QZg SCg QWu QZu SCu (ix2 a r)
      = swi (proj 4096 X (wRef QWg QZg SCg) a.val r.val) (proj 4096 X (wRef QWu QZu SCu) a.val r.val) := by
  rw [val_main_v55_apply, silu_at, gate_proj, up_proj]
  rfl

/-- The reference's result at (a, b) is the layer of the specification with the three dequantized matrices. -/
theorem ref_value (X : FVec Ideal S8192x4096 .f32) (QWg : IVec S512x12288 32) (QZg : IVec S32x1536 32)
    (SCg : FVec Ideal S32x12288 .f32) (QWu : IVec S512x12288 32) (QZu : IVec S32x1536 32)
    (SCu : FVec Ideal S32x12288 .f32) (QWd : IVec S1536x4096 32) (QZd : IVec S96x512 32)
    (SCd : FVec Ideal S96x4096 .f32) (a : Fin 8192) (b : Fin 4096) :
    val_main_v82 (F := Ideal) X QWg QZg SCg QWu QZu SCu QWd QZd SCd (ix2 a b)
      = mlp X (wRef QWg QZg SCg) (wRef QWu QZu SCu) (wRef QWd QZd SCd) a.val b.val := by
  rw [val_main_v82_apply]
  unfold mlp
  rw [← Fin.sum_univ_eq_sum_range (fun r => swi (proj 4096 X (wRef QWg QZg SCg) a.val r)
    (proj 4096 X (wRef QWu QZu SCu) a.val r) * wRef QWd QZd SCd r b.val) 12288]
  refine Finset.sum_congr rfl fun k _ => ?_
  have hl : lidx_main_v82 (ix2 a b) k = ix2 a k := by
    funext d; apply Fin.ext; match d with | ⟨0, _⟩ => rfl | ⟨1, _⟩ => rfl
  have hr : ridx_main_v82 (ix2 a b) k = ix2 k b := by
    funext d; apply Fin.ext; match d with | ⟨0, _⟩ => rfl | ⟨1, _⟩ => rfl
  rw [hl, hr, act_at, down_w]

open Idealize.ShloMosaic.TcCoe Idealize.SL.Sem in
/-- The same, for the result term of the reference's run over a memory: the arguments are the memory's contents at
    the ten argument buffers. -/
theorem ref_value_run (m : (ℓ : Loc nD τ sig) → Buf (Elt Ideal) ℓ) (c : Dev nD) (a : Fin 8192) (b : Fin 4096) :
    Cert.ReferenceIdeal.Value.res_main_v82 m c (ix2 a b)
      = mlp (m ((c.tc : Thread nD τ).loc main_arg0) : FVec Ideal S8192x4096 .f32)
          (wRef (m ((c.tc : Thread nD τ).loc main_arg1) : IVec S512x12288 32)
            (m ((c.tc : Thread nD τ).loc main_arg2) : IVec S32x1536 32)
            (m ((c.tc : Thread nD τ).loc main_arg3) : FVec Ideal S32x12288 .f32))
          (wRef (m ((c.tc : Thread nD τ).loc main_arg4) : IVec S512x12288 32)
            (m ((c.tc : Thread nD τ).loc main_arg5) : IVec S32x1536 32)
            (m ((c.tc : Thread nD τ).loc main_arg6) : FVec Ideal S32x12288 .f32))
          (wRef (m ((c.tc : Thread nD τ).loc main_arg7) : IVec S1536x4096 32)
            (m ((c.tc : Thread nD τ).loc main_arg8) : IVec S96x512 32)
            (m ((c.tc : Thread nD τ).loc main_arg9) : FVec Ideal S96x4096 .f32)) a.val b.val := by
  rw [val_main_v82_eq]
  exact ref_value _ _ _ _ _ _ _ _ _ _ a b

end Cert.ReferenceIdeal.RefValue

end
-- ==== Proof.KI.PreReal.lean ====
/-
  The precondition decoded: the predicate says that every entry of the activations and of the three scale arrays has
  absolute value strictly below +infinity; an extended real with that property is a real number.
-/
import proofs.«405969_j49890340110676_2_alg».proof.Defs
import proofs.«405969_j49890340110676_2_alg».proof.Proof.Gen.Pre_finite_inputs
import Idealize.ShloMosaic.Lib.ReduceAll
import Idealize.ShloMosaic.Lib.ValueIdx
import Mathlib.Data.EReal.Basic
import Mathlib.Data.EReal.Operations

noncomputable section

namespace Cert.Proof.PreReal

open Idealize.ShloMosaic Idealize.SL.Sem Cert.Pre_finite_inputs

/-- The rank-0 shape has one index. -/
instance : Subsingleton S_.Idx := ⟨fun a b => funext fun d => d.elim0⟩

/-- An extended real whose absolute value max x (-x) is strictly below +infinity is a real number. -/
theorem real_of_abs_lt_top (x : EReal) (h : max x (-x) < ⊤) : ∃ r : ℝ, x = (r : EReal) := by
  induction x with
  | bot => simp at h
  | coe r => exact ⟨r, rfl⟩
  | top => simp at h

/-- The pattern 0x7F800000 is +infinity. -/
theorem f32_inf : Ideal.ofBits .f32 0x7F800000#32 = (⊤ : EReal) := by simp [Ideal.ofBits, Ideal.ieee]

/-- Where the comparison |v| < +infinity holds at an index, the entry there is a real number. -/
theorem entry_real {s : Shape} (hb : S_.BroadcastsInDim s (![] : Fin 0 → Fin s.rank)) (v : FVec Ideal s .f32) (i : s.Idx)
    (h : cmpf .olt (Host.absf v) (broadcastInDim s ![] hb (constant (F := Ideal) S_ .f32 0x7F800000#32)) i = 1#1) :
    ∃ r : ℝ, v i = (r : EReal) := by
  have h' : Ideal.cmp .olt (max (v i) (-(v i))) (Ideal.ofBits .f32 0x7F800000#32) = 1#1 := h
  rw [f32_inf] at h'
  apply real_of_abs_lt_top
  by_contra hn
  simp [Ideal.cmp, hn] at h'

section
variable [hF : Cert.Pre_finite_inputs.Facts]

/-- The predicate being all ones makes every entry of the three scale arrays a real number. -/
theorem fn_real (x0 : FVec Ideal S8192x4096 .f32) (a1 : IVec S512x12288 32) (a2 : IVec S32x1536 32)
    (x3 : FVec Ideal S32x12288 .f32) (a4 : IVec S512x12288 32) (a5 : IVec S32x1536 32)
    (x6 : FVec Ideal S32x12288 .f32) (a7 : IVec S1536x4096 32) (a8 : IVec S96x512 32)
    (x9 : FVec Ideal S96x4096 .f32)
    (h : Cert.Pre_finite_inputs.fn (F := Ideal) x0 a1 a2 x3 a4 a5 x6 a7 a8 x9 = fun _ => 1#1) :
    (∀ i, ∃ r : ℝ, x3 i = (r : EReal)) ∧ (∀ i, ∃ r : ℝ, x6 i = (r : EReal))
      ∧ (∀ i, ∃ r : ℝ, x9 i = (r : EReal)) := by
  have e := congrFun h ValueIdx.ix0
  dsimp only [Cert.Pre_finite_inputs.fn, Cert.Pre_finite_inputs.fn_part1] at e
  obtain ⟨e06, e9⟩ := IntOp.andi_eq_one.1 e
  obtain ⟨e03, e6⟩ := IntOp.andi_eq_one.1 e06
  obtain ⟨_, e3⟩ := IntOp.andi_eq_one.1 e03
  exact ⟨fun i => entry_real _ x3 i (Host.reduce_andi_all _ _ _ _ _ e3 i),
    fun i => entry_real _ x6 i (Host.reduce_andi_all _ _ _ _ _ e6 i),
    fun i => entry_real _ x9 i (Host.reduce_andi_all _ _ _ _ _ e9 i)⟩

end

/-- Under the precondition, every entry of the three scale arrays of a device is a real number. -/
theorem scales_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg9) i = (x : EReal)) :=
  fn_real (hF := Cert.Pre_finite_inputs.Gen.facts) _ _ _ _ _ _ _ _ _ _ (h c)

end Cert.Proof.PreReal

end
-- ==== Proof.KI.Assemble.lean ====
/-
  The two results are one array.

  The reference's result at (a, b) is the layer  (silu(x Wg) * (x Wu)) Wd  on the weights (q - z) * s; the kernel's
  result at (a, b) is the same layer on the weights q * s + (-(z * s)). The fields q and z are below 16, so the
  integer difference does not wrap, and where the scale s is a real number the product distributes over the
  difference: the two weight matrices are equal entry by entry, hence the two layers. The precondition makes every
  scale a real number; the two programs start from the same ten argument arrays.
-/
import proofs.«405969_j49890340110676_2_alg».proof.Defs
import proofs.«405969_j49890340110676_2_alg».proof.Proof.KI.RefValue
import proofs.«405969_j49890340110676_2_alg».proof.Proof.KI.Algebra
import proofs.«405969_j49890340110676_2_alg».proof.Proof.KI.PreReal

noncomputable section

namespace Cert.Proof.Assemble

open Idealize.ShloMosaic Idealize.ShloMosaic.TcCoe Idealize.ShloMosaic.ValueIdx Idealize.SL.Sem Cert.Spec

/-- From memories that agree on the ten arguments, under the precondition: an array that is, entry by entry, the layer
    on the kernel's weights of the kernel's arguments is the reference's result. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal (hPre_finite_inputs := Cert.Pre_finite_inputs.Gen.facts) m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (K : FVec Ideal Cert.KernelIdeal.S8192x4096 .f32)
    (hker : ∀ (a : Fin 8192) (b : Fin 4096), K (ix2 a b)
      = mlp (m ((c.tc : Thread Cert.KernelIdeal.nD Cert.KernelIdeal.τ).loc Cert.KernelIdeal.main_arg0) : FVec Ideal Cert.KernelIdeal.S8192x4096 .f32)
          (wKer (m ((c.tc : Thread Cert.KernelIdeal.nD Cert.KernelIdeal.τ).loc Cert.KernelIdeal.main_arg1) : IVec Cert.KernelIdeal.S512x12288 32)
            (m ((c.tc : Thread Cert.KernelIdeal.nD Cert.KernelIdeal.τ).loc Cert.KernelIdeal.main_arg2) : IVec Cert.KernelIdeal.S32x1536 32)
            (m ((c.tc : Thread Cert.KernelIdeal.nD Cert.KernelIdeal.τ).loc Cert.KernelIdeal.main_arg3) : FVec Ideal Cert.KernelIdeal.S32x12288 .f32))
          (wKer (m ((c.tc : Thread Cert.KernelIdeal.nD Cert.KernelIdeal.τ).loc Cert.KernelIdeal.main_arg4) : IVec Cert.KernelIdeal.S512x12288 32)
            (m ((c.tc : Thread Cert.KernelIdeal.nD Cert.KernelIdeal.τ).loc Cert.KernelIdeal.main_arg5) : IVec Cert.KernelIdeal.S32x1536 32)
            (m ((c.tc : Thread Cert.KernelIdeal.nD Cert.KernelIdeal.τ).loc Cert.KernelIdeal.main_arg6) : FVec Ideal Cert.KernelIdeal.S32x12288 .f32))
          (wKer (m ((c.tc : Thread Cert.KernelIdeal.nD Cert.KernelIdeal.τ).loc Cert.KernelIdeal.main_arg7) : IVec Cert.KernelIdeal.S1536x4096 32)
            (m ((c.tc : Thread Cert.KernelIdeal.nD Cert.KernelIdeal.τ).loc Cert.KernelIdeal.main_arg8) : IVec Cert.KernelIdeal.S96x512 32)
            (m ((c.tc : Thread Cert.KernelIdeal.nD Cert.KernelIdeal.τ).loc Cert.KernelIdeal.main_arg9) : FVec Ideal Cert.KernelIdeal.S96x4096 .f32)) a.val b.val) :
    Cert.ReferenceIdeal.Value.res_main_v82 m' c = K := by
  funext i
  obtain ⟨a, b, rfl⟩ : ∃ (a : Fin 8192) (b : Fin 4096), i = ix2 a b := ⟨i 0, i 1, eq_ix2 i⟩
  obtain ⟨h0, h1, h2, h3, h4, h5, h6, h7, h8, h9⟩ := hagree
  obtain ⟨hg, hu, hd⟩ := Cert.Proof.PreReal.scales_real m hpre c
  rw [Cert.ReferenceIdeal.RefValue.ref_value_run m' c a b, hker a b, h0, h1, h2, h3, h4, h5, h6, h7, h8, h9]
  exact (mlp_ker_eq_ref _ _ _ _ _ _ _ _ _ _ a.val b.val hg hu hd).symm

end Cert.Proof.Assemble

end
-- ==== Proof.lean ====
/-
  The kernel and the reference compute one function: the GPTQ int4 MLP layer

      out = (silu(x Wg) * (x Wu)) Wd,      silu(g) = g * logistic(g),

  of the activations x and three packed weight matrices. A packed matrix holds eight 4-bit fields per 32-bit word:
  the weights q along the input dimension (field p of word row a is row 8a + p), the zero points z along the output
  dimension (field p of word column b is column 8b + p); a scale s and a zero point are shared by the 128 consecutive
  input rows of a group. The reference dequantizes a weight as (q - z) * s, the difference taken on 32-bit integers
  before the conversion to a float; the kernel as q * s + (-(z * s)), the bias -(z * s) computed beforehand, once per
  group and column. At the ideal instance (a float an extended real, every operation exact) each program's result is
  that layer, entry by entry, on its own weights.

  The law that joins them: a field is below 16, so the integer difference q - z does not wrap and converts to the
  difference of the two numbers; and where the scale s is a real number, (q - z) * s = q * s + (-(z * s)) on the
  extended reals (at an infinite scale the right-hand side could be an infinity minus itself). The precondition says
  every input is finite, so every scale is a real number; the weights are then equal entry by entry, and the three
  contractions are equal sums term by term.

  The three frames: each program runs (terminates, nothing faulting) and leaves its ten argument arrays as launched.
  The idealization rewrote no operation, so its statement is the true proposition.
-/
import proofs.«405969_j49890340110676_2_alg».proof.Defs
import proofs.«405969_j49890340110676_2_alg».proof.Proof.Gen.Kernel
import proofs.«405969_j49890340110676_2_alg».proof.Proof.Gen.KernelIdeal
import proofs.«405969_j49890340110676_2_alg».proof.Proof.Gen.ReferenceIdeal
import proofs.«405969_j49890340110676_2_alg».proof.Proof.Gen.Pre_finite_inputs
import proofs.«405969_j49890340110676_2_alg».proof.Proof.Gen.ReferenceIdeal.Run
import proofs.«405969_j49890340110676_2_alg».proof.Proof.K.Run
import proofs.«405969_j49890340110676_2_alg».proof.Proof.KI.Run
import proofs.«405969_j49890340110676_2_alg».proof.Proof.KI.R0Value
import proofs.«405969_j49890340110676_2_alg».proof.Proof.KI.R1Value
import proofs.«405969_j49890340110676_2_alg».proof.Proof.KI.KernelValue
import proofs.«405969_j49890340110676_2_alg».proof.Proof.KI.Assemble

noncomputable section

namespace Cert.Proof

open Idealize.ShloMosaic Idealize.SL.Sem

/-- The kernel as printed runs and leaves its arguments as launched. -/
theorem frame_Kernel : Cert.frame_Kernel (hKernel := Cert.Kernel.Gen.facts)
    (hPre_finite_inputs := Cert.Pre_finite_inputs.Gen.facts) :=
  fun m ρ _ => Cert.Kernel.Gen.frame (F := Bits) m ρ

/-- The kernel at the ideal instance runs and leaves its arguments as launched. -/
theorem frame_KernelIdeal : Cert.frame_KernelIdeal (hKernelIdeal := Cert.KernelIdeal.Gen.facts)
    (hPre_finite_inputs := Cert.Pre_finite_inputs.Gen.facts) :=
  fun m ρ _ => Cert.KernelIdeal.Gen.frame (F := Ideal) m ρ

/-- The reference at the ideal instance runs and leaves its arguments as launched: its run with the result dropped. -/
theorem frame_ReferenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments, under the precondition, both programs run and end with one result:
    the kernel's result array is the layer on the weights q * s + (-(z * s)), the reference's the layer on the weights
    (q - z) * s, and with real scales the two weight matrices are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Gen.dat1 (Cert.KernelIdeal.Gen.V2 m ρ) c).arrAt 4 Cert.KernelIdeal.cfg1.N,
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Assemble.result_eq m m' c hpre (hagree c) _
    (Cert.KernelIdeal.Gen.kernel_value m ρ c
      (Cert.KernelIdeal.Gen.final0 (Cert.KernelIdeal.Gen.V1 m ρ) c)
      (Cert.KernelIdeal.Gen.final1 (Cert.KernelIdeal.Gen.V2 m ρ) c))

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
